-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x352x352 : Shape := ⟨4, ![16, 8, 352, 352]⟩
abbrev S16x1x352x352 : Shape := ⟨4, ![16, 1, 352, 352]⟩
abbrev S_ : Shape := ⟨0, ![]⟩

class Facts : Prop where
  bcast_S_S16x8x352x352 : S_.BroadcastsInDim S16x8x352x352 (![] : Fin 0 → Fin S16x8x352x352.rank)
  reducesTo_S16x8x352x352_S_d0_1_2_3 : S16x8x352x352.ReducesTo [0, 1, 2, 3] S_
  h_S_ : 0 < S_.numel
  bcast_S_S16x1x352x352 : S_.BroadcastsInDim S16x1x352x352 (![] : Fin 0 → Fin S16x1x352x352.rank)
  reducesTo_S16x1x352x352_S_d0_1_2_3 : S16x1x352x352.ReducesTo [0, 1, 2, 3] S_

variable [Facts]

def fn_part1 {F : FTy → Type} [FloatOps F] (main_v10 : IVec S_ 1) (main_v15 : IVec S16x8x352x352 1) (main_c_5 : IVec S_ 1) : IVec S_ 1 :=
  let main_v16 : IVec S_ 1 := (fun x v => Host.reduce IntOp.andi x v reducesTo_S16x8x352x352_S_d0_1_2_3 h_S_) main_v15 main_c_5
  let main_v17 : IVec S_ 1 := andi main_v10 main_v16
  main_v17

def fn {F : FTy → Type} [FloatOps F] (main_arg0 : FVec F S16x8x352x352 .f32) (main_arg1 : IVec S16x1x352x352 32) (main_arg2 : IVec S16x8x352x352 32) : IVec S_ 1 :=
  let main_v0 : FVec F S16x8x352x352 .f32 := Host.absf main_arg0
  let main_cst : FVec F S_ .f32 := constant S_ .f32 0x7F800000#32
  let main_v1 : FVec F S16x8x352x352 .f32 := broadcastInDim S16x8x352x352 ![] bcast_S_S16x8x352x352 main_cst
  let main_v2 : IVec S16x8x352x352 1 := cmpf .olt main_v0 main_v1
  let main_c : IVec S_ 1 := constantI S_ 1 1#1
  let main_v3 : IVec S_ 1 := (fun x v => Host.reduce IntOp.andi x v reducesTo_S16x8x352x352_S_d0_1_2_3 h_S_) main_v2 main_c
  let main_c_0 : IVec S_ 32 := constantI S_ 32 0#32
  let main_v4 : IVec S16x1x352x352 32 := broadcastInDim S16x1x352x352 ![] bcast_S_S16x1x352x352 main_c_0
  let main_v5 : IVec S16x1x352x352 1 := cmpi .eq main_arg1 main_v4
  let main_c_1 : IVec S_ 32 := constantI S_ 32 1#32
  let main_v6 : IVec S16x1x352x352 32 := broadcastInDim S16x1x352x352 ![] bcast_S_S16x1x352x352 main_c_1
  let main_v7 : IVec S16x1x352x352 1 := cmpi .eq main_arg1 main_v6
  let main_v8 : IVec S16x1x352x352 1 := ori main_v5 main_v7
  let main_c_2 : IVec S_ 1 := constantI S_ 1 1#1
  let main_v9 : IVec S_ 1 := (fun x v => Host.reduce IntOp.andi x v reducesTo_S16x1x352x352_S_d0_1_2_3 h_S_) main_v8 main_c_2
  let main_v10 : IVec S_ 1 := andi main_v3 main_v9
  let main_c_3 : IVec S_ 32 := constantI S_ 32 0#32
  let main_v11 : IVec S16x8x352x352 32 := broadcastInDim S16x8x352x352 ![] bcast_S_S16x8x352x352 main_c_3
  let main_v12 : IVec S16x8x352x352 1 := cmpi .eq main_arg2 main_v11
  let main_c_4 : IVec S_ 32 := constantI S_ 32 1#32
  let main_v13 : IVec S16x8x352x352 32 := broadcastInDim S16x8x352x352 ![] bcast_S_S16x8x352x352 main_c_4
  let main_v14 : IVec S16x8x352x352 1 := cmpi .eq main_arg2 main_v13
  let main_v15 : IVec S16x8x352x352 1 := ori main_v12 main_v14
  let main_c_5 : IVec S_ 1 := constantI S_ 1 1#1
  fn_part1 (F := F) main_v10 main_v15 main_c_5
-- ==== Kernel.lean ====
abbrev S16x8x352x352 : Shape := ⟨4, ![16, 8, 352, 352]⟩
abbrev S16x1x352x352 : Shape := ⟨4, ![16, 1, 352, 352]⟩
abbrev S2x1x128 : Shape := ⟨3, ![2, 1, 128]⟩
abbrev S1x8x352x352 : Shape := ⟨4, ![1, 8, 352, 352]⟩
abbrev S1x1x352x352 : Shape := ⟨4, ![1, 1, 352, 352]⟩
abbrev S1x1x128 : Shape := ⟨3, ![1, 1, 128]⟩
abbrev S1x128 : Shape := ⟨2, ![1, 128]⟩
abbrev S352x352 : Shape := ⟨2, ![352, 352]⟩
abbrev S1x352x352 : Shape := ⟨3, ![1, 352, 352]⟩
abbrev S1 : Shape := ⟨1, ![1]⟩
abbrev S1x1x1 : Shape := ⟨3, ![1, 1, 1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 57
  | .vmem => 18
  | .smem => 0
  | _ => 0

abbrev bufTy : (tb : Table) → Fin (tcTables nBuf tb) → BufTy
  | .hbm, ⟨0, _⟩ => ⟨S16x8x352x352, .f32⟩
  | .hbm, ⟨1, _⟩ => ⟨S16x1x352x352, .i32⟩
  | .hbm, ⟨2, _⟩ => ⟨S16x8x352x352, .i32⟩
  | .hbm, ⟨3, _⟩ => ⟨S2x1x128, .f32⟩
  | .hbm, ⟨4, _⟩ => ⟨S2x1x128, .f32⟩
  | .hbm, ⟨5, _⟩ => ⟨S2x1x128, .f32⟩
  | .hbm, ⟨6, _⟩ => ⟨S2x1x128, .f32⟩
  | .hbm, ⟨7, _⟩ => ⟨S2x1x128, .f32⟩
  | .hbm, ⟨8, _⟩ => ⟨S2x1x128, .f32⟩
  | .hbm, ⟨9, _⟩ => ⟨S2x1x1, .f32⟩
  | .hbm, ⟨10, _⟩ => ⟨S2, .f32⟩
  | .hbm, ⟨11, _⟩ => ⟨S_, .f32⟩
  | .hbm, ⟨12, _⟩ => ⟨S_, .f32⟩
  | .hbm, ⟨13, _⟩ => ⟨S2x1x1, .f32⟩
  | .hbm, ⟨14, _⟩ => ⟨S2, .f32⟩
  | .hbm, ⟨15, _⟩ => ⟨S_, .f32⟩
  | .hbm, ⟨16, _⟩ => ⟨S_, .f32⟩
  | .hbm, ⟨17, _⟩ => ⟨S2x1x1, .f32⟩
  | .hbm, ⟨18, _⟩ => ⟨S2, .f32⟩
  | .hbm, ⟨19, _⟩ => ⟨S_, .f32⟩
  | .hbm, ⟨20, _⟩ => ⟨S_, .f32⟩
  | .hbm, ⟨21, _⟩ => ⟨S2x1x1, .f32⟩
  | .hbm, ⟨22, _⟩ => ⟨S2, .f32⟩
  | .hbm, ⟨23, _⟩ => ⟨S_, .f32⟩
  | .hbm, ⟨24, _⟩ => ⟨S_, .f32⟩
  | .hbm, ⟨25, _⟩ => ⟨S2x1x1, .f32⟩
  | .hbm, ⟨26, _⟩ => ⟨S2, .f32⟩
  | .hbm, ⟨27, _⟩ => ⟨S_, .f32⟩
  | .hbm, ⟨28, _⟩ => ⟨S_, .f32⟩
  | .hbm, ⟨29, _⟩ => ⟨S2x1x1, .f32⟩
  | .hbm, ⟨30, _⟩ => ⟨S2, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S1x8x352x352, .f32⟩
  | .local _ .vmem, ⟨1, _⟩ => ⟨S1x8x352x352, .f32⟩
  | .local _ .vmem, ⟨2, _⟩ => ⟨S1x1x352x352, .i32⟩
  | .local _ .vmem, ⟨3, _⟩ => ⟨S1x1x352x352, .i32⟩
  | .local _ .vmem, ⟨4, _⟩ => ⟨S1x8x352x352, .i32⟩
  | .local _ .vmem, ⟨5, _⟩ => ⟨S1x8x352x352, .i32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | _, _ => ⟨S16x8x352x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x352x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x352x352 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x352x352 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x1x352x352_S1x1x352x352_0_0_0_0 : ∀ a, (![0, 0, 0, 0] : Fin 4 → Nat) a + S1x1x352x352.size a ≤ S1x1x352x352.size a
  h_S1x1x352x352 : 0 < S1x1x352x352.numel
  shapeCasts_S1x1x352x352_S352x352 : S1x1x352x352.ShapeCasts S352x352
  iota_S352x352_d0_w32 : S352x352.Iotas .tc 32 [0]
  iota_S352x352_d1_w32 : S352x352.Iotas .tc 32 [1]
  inb_S1x8x352x352_S1x1x352x352_0_3_0_0 : ∀ a, (![0, 3, 0, 0] : Fin 4 → Nat) a + S1x1x352x352.size a ≤ S1x8x352x352.size a
  inb_S1x8x352x352_S1x1x352x352_0_4_0_0 : ∀ a, (![0, 4, 0, 0] : Fin 4 → Nat) a + S1x1x352x352.size a ≤ S1x8x352x352.size a
  rotates_S352x352_d1 : S352x352.Rotates 1 none
  inb_S1x8x352x352_S1x1x352x352_0_1_0_0 : ∀ a, (![0, 1, 0, 0] : Fin 4 → Nat) a + S1x1x352x352.size a ≤ S1x8x352x352.size a
  inb_S1x8x352x352_S1x1x352x352_0_6_0_0 : ∀ a, (![0, 6, 0, 0] : Fin 4 → Nat) a + S1x1x352x352.size a ≤ S1x8x352x352.size a
  rotates_S352x352_d0 : S352x352.Rotates 0 none
  inb_S1x8x352x352_S1x1x352x352_0_2_0_0 : ∀ a, (![0, 2, 0, 0] : Fin 4 → Nat) a + S1x1x352x352.size a ≤ S1x8x352x352.size a
  inb_S1x8x352x352_S1x1x352x352_0_5_0_0 : ∀ a, (![0, 5, 0, 0] : Fin 4 → Nat) a + S1x1x352x352.size a ≤ S1x8x352x352.size a
  inb_S1x8x352x352_S1x1x352x352_0_0_0_0 : ∀ a, (![0, 0, 0, 0] : Fin 4 → Nat) a + S1x1x352x352.size a ≤ S1x8x352x352.size a
  inb_S1x8x352x352_S1x1x352x352_0_7_0_0 : ∀ a, (![0, 7, 0, 0] : Fin 4 → Nat) a + S1x1x352x352.size a ≤ S1x8x352x352.size a
  shapeCasts_S352x352_S1x352x352 : S352x352.ShapeCasts S1x352x352
  reduces_S1x352x352_S1 : S1x352x352.Reduces [1, 2] S1
  shapeCasts_S1_S1x1x1 : S1.ShapeCasts S1x1x1
  inpos_S1x1x1_p0_0_0 : ∀ a, (![0, 0, 0] : Fin 3 → Nat) a < S1x1x1.size a
  broadcasts_S1x1_S1x128 : S1x1.Broadcasts S1x128
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x352x352.size a ≤ S16x8x352x352.size a
  hwx0_0 : ∀ i : grid0.Coords, EltTy.bits .f32 = 32 ∨ (Rect.block (s := S16x8x352x352) S1x8x352x352.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x352x352.size a ≤ S16x1x352x352.size a
  hwx0_1 : ∀ i : grid0.Coords, EltTy.bits .i32 = 32 ∨ (Rect.block (s := S16x1x352x352) S1x1x352x352.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x352x352.size a ≤ S16x8x352x352.size a
  hwx0_2 : ∀ i : grid0.Coords, EltTy.bits .i32 = 32 ∨ (Rect.block (s := S16x8x352x352) S1x8x352x352.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S2x1x128.size a
  hwx0_7 : ∀ i : grid0.Coords, EltTy.bits .f32 = 32 ∨ (Rect.block (s := S2x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S2x1x128.size a
  hwx0_8 : ∀ i : grid0.Coords, EltTy.bits .f32 = 32 ∨ (Rect.block (s := S2x1x128) S1x1x128.size (cc0_transform_8 i) (hinb0_8 i)).WholeWords (EltTy.packing .f32)

variable [Facts₀]

abbrev win0_0 : Pipeline.Window sig grid0 :=
  Pipeline.Window.ofSpec (Memref.whole main_arg0) S1x8x352x352.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x352x352.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8x352x352.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_5) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x8x352x352 : Shape := ⟨4, ![16, 8, 352, 352]⟩
abbrev S16x1x352x352 : Shape := ⟨4, ![16, 1, 352, 352]⟩
abbrev S_ : Shape := ⟨0, ![]⟩
abbrev S16x352x352 : Shape := ⟨3, ![16, 352, 352]⟩
abbrev S16x352x353 : Shape := ⟨3, ![16, 352, 353]⟩
abbrev S16x353x352 : Shape := ⟨3, ![16, 353, 352]⟩

abbrev nBuf : Space → Nat
  | .hbm => 238
  | .vmem => 0
  | .smem => 0
  | _ => 0

abbrev hbmTy0_0 (i : Nat) : BufTy := match i % 128 with
  | 0 => ⟨S16x8x352x352, .f32⟩
  | 1 => ⟨S16x1x352x352, .i32⟩
  | 2 => ⟨S16x8x352x352, .i32⟩
  | 3 => ⟨S16x1x352x352, .f32⟩
  | 4 => ⟨S16x8x352x352, .f32⟩
  | 5 => ⟨S16x8x352x352, .f32⟩
  | 6 => ⟨S16x8x352x352, .f32⟩
  | 7 => ⟨S_, .f32⟩
  | 8 => ⟨S16x8x352x352, .f32⟩
  | 9 => ⟨S16x8x352x352, .f32⟩
  | 10 => ⟨S_, .f32⟩
  | 11 => ⟨S16x8x352x352, .f32⟩
  | 12 => ⟨S16x8x352x352, .f32⟩
  | 13 => ⟨S_, .f32⟩
  | 14 => ⟨S16x352x352, .f32⟩
  | 15 => ⟨S_, .f32⟩
  | 16 => ⟨S16x352x352, .f32⟩
  | 17 => ⟨S16x352x352, .i1⟩
  | 18 => ⟨S_, .f32⟩
  | 19 => ⟨S_, .f32⟩
  | 20 => ⟨S16x352x352, .f32⟩
  | 21 => ⟨S16x352x352, .f32⟩
  | 22 => ⟨S16x352x352, .f32⟩
  | 23 => ⟨S_, .f32⟩
  | 24 => ⟨S16x352x352, .f32⟩
  | 25 => ⟨S16x352x352, .i1⟩
  | 26 => ⟨S_, .f32⟩
  | 27 => ⟨S_, .f32⟩
  | 28 => ⟨S16x352x352, .f32⟩
  | 29 => ⟨S16x352x352, .f32⟩
  | 30 => ⟨S16x352x352, .f32⟩
  | 31 => ⟨S16x352x352, .f32⟩
  | 32 => ⟨S16x1x352x352, .f32⟩
  | 33 => ⟨S16x352x352, .f32⟩
  | 34 => ⟨S_, .i32⟩
  | 35 => ⟨S_, .f32⟩
  | 36 => ⟨S16x352x353, .f32⟩
  | 37 => ⟨S16x352x352, .f32⟩
  | 38 => ⟨S16x1x352x352, .f32⟩
  | 39 => ⟨S16x352x352, .f32⟩
  | 40 => ⟨S_, .i32⟩
  | 41 => ⟨S_, .f32⟩
  | 42 => ⟨S16x352x353, .f32⟩
  | 43 => ⟨S16x352x352, .f32⟩
  | 44 => ⟨S16x1x352x352, .f32⟩
  | 45 => ⟨S16x352x352, .f32⟩
  | 46 => ⟨S_, .i32⟩
  | 47 => ⟨S_, .f32⟩
  | 48 => ⟨S16x353x352, .f32⟩
  | 49 => ⟨S16x352x352, .f32⟩
  | 50 => ⟨S_, .i32⟩
  | 51 => ⟨S_, .f32⟩
  | 52 => ⟨S16x352x353, .f32⟩
  | 53 => ⟨S16x352x352, .f32⟩
  | 54 => ⟨S16x1x352x352, .f32⟩
  | 55 => ⟨S16x352x352, .f32⟩
  | 56 => ⟨S_, .i32⟩
  | 57 => ⟨S_, .f32⟩
  | 58 => ⟨S16x353x352, .f32⟩
  | 59 => ⟨S16x352x352, .f32⟩
  | 60 => ⟨S_, .i32⟩
  | 61 => ⟨S_, .f32⟩
  | 62 => ⟨S16x352x353, .f32⟩
  | 63 => ⟨S16x352x352, .f32⟩
  | 64 => ⟨S16x1x352x352, .f32⟩
  | 65 => ⟨S16x352x352, .f32⟩
  | 66 => ⟨S_, .i32⟩
  | 67 => ⟨S_, .f32⟩
  | 68 => ⟨S16x353x352, .f32⟩
  | 69 => ⟨S16x352x352, .f32⟩
  | 70 => ⟨S_, .i32⟩
  | 71 => ⟨S_, .f32⟩
  | 72 => ⟨S16x352x353, .f32⟩
  | 73 => ⟨S16x352x352, .f32⟩
  | 74 => ⟨S16x1x352x352, .f32⟩
  | 75 => ⟨S16x352x352, .f32⟩
  | 76 => ⟨S_, .i32⟩
  | 77 => ⟨S_, .f32⟩
  | 78 => ⟨S16x353x352, .f32⟩
  | 79 => ⟨S16x352x352, .f32⟩
  | 80 => ⟨S16x1x352x352, .f32⟩
  | 81 => ⟨S16x352x352, .f32⟩
  | 82 => ⟨S_, .i32⟩
  | 83 => ⟨S_, .f32⟩
  | 84 => ⟨S16x353x352, .f32⟩
  | 85 => ⟨S16x352x352, .f32⟩
  | 86 => ⟨S16x1x352x352, .f32⟩
  | 87 => ⟨S16x352x352, .f32⟩
  | 88 => ⟨S_, .i32⟩
  | 89 => ⟨S_, .f32⟩
  | 90 => ⟨S16x353x352, .f32⟩
  | 91 => ⟨S16x352x352, .f32⟩
  | 92 => ⟨S_, .i32⟩
  | 93 => ⟨S_, .f32⟩
  | 94 => ⟨S16x352x353, .f32⟩
  | 95 => ⟨S16x352x352, .f32⟩
  | 96 => ⟨S16x1x352x352, .f32⟩
  | 97 => ⟨S16x352x352, .f32⟩
  | 98 => ⟨S16x352x352, .f32⟩
  | 99 => ⟨S16x1x352x352, .f32⟩
  | 100 => ⟨S16x352x352, .f32⟩
  | 101 => ⟨S16x352x352, .f32⟩
  | 102 => ⟨S16x1x352x352, .f32⟩
  | 103 => ⟨S16x352x352, .f32⟩
  | 104 => ⟨S16x352x352, .f32⟩
  | 105 => ⟨S16x1x352x352, .f32⟩
  | 106 => ⟨S16x352x352, .f32⟩
  | 107 => ⟨S16x352x352, .f32⟩
  | 108 => ⟨S16x1x352x352, .f32⟩
  | 109 => ⟨S16x352x352, .f32⟩
  | 110 => ⟨S16x352x352, .f32⟩
  | 111 => ⟨S16x1x352x352, .f32⟩
  | 112 => ⟨S16x352x352, .f32⟩
  | 113 => ⟨S16x352x352, .f32⟩
  | 114 => ⟨S16x1x352x352, .f32⟩
  | 115 => ⟨S16x352x352, .f32⟩
  | 116 => ⟨S16x352x352, .f32⟩
  | 117 => ⟨S16x1x352x352, .f32⟩
  | 118 => ⟨S16x352x352, .f32⟩
  | 119 => ⟨S16x352x352, .f32⟩
  | 120 => ⟨S16x1x352x352, .f32⟩
  | 121 => ⟨S16x1x352x352, .f32⟩
  | 122 => ⟨S16x1x352x352, .f32⟩
  | 123 => ⟨S16x1x352x352, .f32⟩
  | 124 => ⟨S16x1x352x352, .f32⟩
  | 125 => ⟨S16x1x352x352, .f32⟩
  | 126 => ⟨S16x1x352x352, .f32⟩
  | 127 => ⟨S16x1x352x352, .f32⟩
  | _ => ⟨S16x8x352x352, .f32⟩

abbrev hbmTy0_1 (i : Nat) : BufTy := match i % 128 with
  | 0 => ⟨S16x8x352x352, .f32⟩
  | 1 => ⟨S_, .f32⟩
  | 2 => ⟨S16x352x352, .f32⟩
  | 3 => ⟨S_, .f32⟩
  | 4 => ⟨S16x352x352, .f32⟩
  | 5 => ⟨S16x352x352, .f32⟩
  | 6 => ⟨S_, .f32⟩
  | 7 => ⟨S16x352x352, .f32⟩
  | 8 => ⟨S_, .f32⟩
  | 9 => ⟨S16x352x352, .f32⟩
  | 10 => ⟨S16x352x352, .f32⟩
  | 11 => ⟨S16x352x352, .f32⟩
  | 12 => ⟨S16x352x352, .f32⟩
  | 13 => ⟨S_, .f32⟩
  | 14 => ⟨S16x352x352, .f32⟩
  | 15 => ⟨S16x352x352, .f32⟩
  | 16 => ⟨S16x352x352, .f32⟩
  | 17 => ⟨S16x352x352, .f32⟩
  | 18 => ⟨S16x352x352, .f32⟩
  | 19 => ⟨S16x1x352x352, .f32⟩
  | 20 => ⟨S_, .f32⟩
  | 21 => ⟨S_, .f32⟩
  | 22 => ⟨S_, .f32⟩
  | 23 => ⟨S16x1x352x352, .f32⟩
  | 24 => ⟨S16x1x352x352, .f32⟩
  | 25 => ⟨S_, .f32⟩
  | 26 => ⟨S16x1x352x352, .f32⟩
  | 27 => ⟨S16x1x352x352, .f32⟩
  | 28 => ⟨S16x1x352x352, .f32⟩
  | 29 => ⟨S16x1x352x352, .f32⟩
  | 30 => ⟨S_, .f32⟩
  | 31 => ⟨S16x1x352x352, .f32⟩
  | 32 => ⟨S16x1x352x352, .f32⟩
  | 33 => ⟨S16x1x352x352, .f32⟩
  | 34 => ⟨S16x1x352x352, .f32⟩
  | 35 => ⟨S16x1x352x352, .f32⟩
  | 36 => ⟨S16x1x352x352, .f32⟩
  | 37 => ⟨S_, .f32⟩
  | 38 => ⟨S_, .f32⟩
  | 39 => ⟨S_, .f32⟩
  | 40 => ⟨S_, .f32⟩
  | 41 => ⟨S_, .f32⟩
  | 42 => ⟨S16x1x352x352, .f32⟩
  | 43 => ⟨S16x1x352x352, .f32⟩
  | 44 => ⟨S16x1x352x352, .f32⟩
  | 45 => ⟨S_, .f32⟩
  | 46 => ⟨S_, .f32⟩
  | 47 => ⟨S16x1x352x352, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S16x8x352x352, .f32⟩
  | 63 => ⟨S16x8x352x352, .f32⟩
  | 64 => ⟨S_, .f32⟩
  | 65 => ⟨S16x8x352x352, .f32⟩
  | 66 => ⟨S16x8x352x352, .f32⟩
  | 67 => ⟨S16x8x352x352, .f32⟩
  | 68 => ⟨S16x8x352x352, .f32⟩
  | 69 => ⟨S_, .f32⟩
  | 70 => ⟨S16x8x352x352, .f32⟩
  | 71 => ⟨S16x8x352x352, .f32⟩
  | 72 => ⟨S16x8x352x352, .f32⟩
  | 73 => ⟨S16x8x352x352, .f32⟩
  | 74 => ⟨S16x8x352x352, .f32⟩
  | 75 => ⟨S16x8x352x352, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S16x8x352x352, .f32⟩
  | 85 => ⟨S16x8x352x352, .f32⟩
  | 86 => ⟨S_, .f32⟩
  | 87 => ⟨S16x8x352x352, .f32⟩
  | 88 => ⟨S16x8x352x352, .f32⟩
  | 89 => ⟨S16x8x352x352, .f32⟩
  | 90 => ⟨S16x8x352x352, .f32⟩
  | 91 => ⟨S_, .f32⟩
  | 92 => ⟨S16x8x352x352, .f32⟩
  | 93 => ⟨S16x8x352x352, .f32⟩
  | 94 => ⟨S16x8x352x352, .f32⟩
  | 95 => ⟨S16x8x352x352, .f32⟩
  | 96 => ⟨S16x8x352x352, .f32⟩
  | 97 => ⟨S16x8x352x352, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | _ => ⟨S16x8x352x352, .f32⟩

abbrev hbmTy (i : Nat) : BufTy := match i / 128 with
  | 0 => hbmTy0_0 i
  | 1 => hbmTy0_1 i
  | _ => ⟨S16x8x352x352, .f32⟩

abbrev bufTy : (tb : Table) → Fin (tcTables nBuf tb) → BufTy
  | .hbm, ⟨i, _⟩ => hbmTy i
  | _, _ => ⟨S16x8x352x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_5 : Ref sig .tc := ⟨.hbm, 23, rfl⟩
abbrev main_v12 : Ref sig .tc := ⟨.hbm, 24, rfl⟩
abbrev main_v13 : Ref sig .tc := ⟨.hbm, 25, rfl⟩
abbrev main_cst_6 : Ref sig .tc := ⟨.hbm, 26, rfl⟩
abbrev main_cst_7 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_call2_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_8 : Ref sig .tc := ⟨.hbm, 40, rfl⟩
abbrev main_call3_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_9 : Ref sig .tc := ⟨.hbm, 46, rfl⟩
abbrev main_call4_v0 : Ref sig .tc := ⟨.hbm, 47, rfl⟩
abbrev main_v26 : Ref sig .tc := ⟨.hbm, 48, rfl⟩
abbrev main_v27 : Ref sig .tc := ⟨.hbm, 49, rfl⟩
abbrev main_c_10 : Ref sig .tc := ⟨.hbm, 50, rfl⟩
abbrev main_call5_v0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_11 : Ref sig .tc := ⟨.hbm, 56, rfl⟩
abbrev main_call6_v0 : Ref sig .tc := ⟨.hbm, 57, rfl⟩
abbrev main_v32 : Ref sig .tc := ⟨.hbm, 58, rfl⟩
abbrev main_v33 : Ref sig .tc := ⟨.hbm, 59, rfl⟩
abbrev main_c_12 : Ref sig .tc := ⟨.hbm, 60, rfl⟩
abbrev main_call7_v0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_13 : Ref sig .tc := ⟨.hbm, 66, rfl⟩
abbrev main_call8_v0 : Ref sig .tc := ⟨.hbm, 67, rfl⟩
abbrev main_v38 : Ref sig .tc := ⟨.hbm, 68, rfl⟩
abbrev main_v39 : Ref sig .tc := ⟨.hbm, 69, rfl⟩
abbrev main_c_14 : Ref sig .tc := ⟨.hbm, 70, rfl⟩
abbrev main_call9_v0 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_15 : Ref sig .tc := ⟨.hbm, 76, rfl⟩
abbrev main_call10_v0 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_16 : Ref sig .tc := ⟨.hbm, 82, rfl⟩
abbrev main_call11_v0 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_17 : Ref sig .tc := ⟨.hbm, 88, rfl⟩
abbrev main_call12_v0 : Ref sig .tc := ⟨.hbm, 89, rfl⟩
abbrev main_v52 : Ref sig .tc := ⟨.hbm, 90, rfl⟩
abbrev main_v53 : Ref sig .tc := ⟨.hbm, 91, rfl⟩
abbrev main_c_18 : Ref sig .tc := ⟨.hbm, 92, rfl⟩
abbrev main_call13_v0 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_19 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_v91 : Ref sig .tc := ⟨.hbm, 133, rfl⟩
abbrev main_cst_21 : Ref sig .tc := ⟨.hbm, 134, rfl⟩
abbrev main_v92 : Ref sig .tc := ⟨.hbm, 135, rfl⟩
abbrev main_cst_22 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_23 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_24 : Ref sig .tc := ⟨.hbm, 148, rfl⟩
abbrev main_cst_25 : Ref sig .tc := ⟨.hbm, 149, rfl⟩
abbrev main_call14_v0 : Ref sig .tc := ⟨.hbm, 150, rfl⟩
abbrev main_call14_v1 : Ref sig .tc := ⟨.hbm, 151, rfl⟩
abbrev main_call14_v2 : Ref sig .tc := ⟨.hbm, 152, rfl⟩
abbrev main_call14_v3 : Ref sig .tc := ⟨.hbm, 153, rfl⟩
abbrev main_call14_v4 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_26 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_27 : Ref sig .tc := ⟨.hbm, 165, rfl⟩
abbrev main_v112 : Ref sig .tc := ⟨.hbm, 166, rfl⟩
abbrev main_cst_28 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_29 : Ref sig .tc := ⟨.hbm, 173, rfl⟩
abbrev main_v118 : Ref sig .tc := ⟨.hbm, 174, rfl⟩
abbrev main_v119 : Ref sig .tc := ⟨.hbm, 175, rfl⟩
abbrev main_cst_30 : Ref sig .tc := ⟨.hbm, 176, rfl⟩
abbrev main_v120 : Ref sig .tc := ⟨.hbm, 177, rfl⟩
abbrev main_v121 : Ref sig .tc := ⟨.hbm, 178, rfl⟩
abbrev main_cst_31 : Ref sig .tc := ⟨.hbm, 179, rfl⟩
abbrev main_v122 : Ref sig .tc := ⟨.hbm, 180, rfl⟩
abbrev main_cst_32 : Ref sig .tc := ⟨.hbm, 181, rfl⟩
abbrev main_v123 : Ref sig .tc := ⟨.hbm, 182, rfl⟩
abbrev main_v124 : Ref sig .tc := ⟨.hbm, 183, rfl⟩
abbrev main_cst_33 : Ref sig .tc := ⟨.hbm, 184, rfl⟩
abbrev main_v125 : Ref sig .tc := ⟨.hbm, 185, rfl⟩
abbrev main_v126 : Ref sig .tc := ⟨.hbm, 186, rfl⟩
abbrev main_cst_34 : Ref sig .tc := ⟨.hbm, 187, rfl⟩
abbrev main_cst_35 : Ref sig .tc := ⟨.hbm, 188, rfl⟩
abbrev main_call15_v0 : Ref sig .tc := ⟨.hbm, 189, rfl⟩
abbrev main_call15_v1 : Ref sig .tc := ⟨.hbm, 190, rfl⟩
abbrev main_call15_v2 : Ref sig .tc := ⟨.hbm, 191, rfl⟩
abbrev main_call15_v3 : Ref sig .tc := ⟨.hbm, 192, rfl⟩
abbrev main_call15_v4 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_cst_36 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_cst_37 : Ref sig .tc := ⟨.hbm, 204, rfl⟩
abbrev main_v136 : Ref sig .tc := ⟨.hbm, 205, rfl⟩
abbrev main_cst_38 : Ref sig .tc := ⟨.hbm, 206, rfl⟩
abbrev main_v137 : Ref sig .tc := ⟨.hbm, 207, rfl⟩
abbrev main_v138 : Ref sig .tc := ⟨.hbm, 208, rfl⟩
abbrev main_cst_39 : Ref sig .tc := ⟨.hbm, 209, rfl⟩
abbrev main_cst_40 : Ref sig .tc := ⟨.hbm, 210, rfl⟩
abbrev main_call16_v0 : Ref sig .tc := ⟨.hbm, 211, rfl⟩
abbrev main_call16_v1 : Ref sig .tc := ⟨.hbm, 212, rfl⟩
abbrev main_call16_v2 : Ref sig .tc := ⟨.hbm, 213, rfl⟩
abbrev main_call16_v3 : Ref sig .tc := ⟨.hbm, 214, rfl⟩
abbrev main_call16_v4 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_41 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_cst_42 : Ref sig .tc := ⟨.hbm, 226, rfl⟩
abbrev main_v148 : Ref sig .tc := ⟨.hbm, 227, rfl⟩
abbrev main_cst_43 : Ref sig .tc := ⟨.hbm, 228, rfl⟩
abbrev main_v149 : Ref sig .tc := ⟨.hbm, 229, rfl⟩
abbrev main_v150 : Ref sig .tc := ⟨.hbm, 230, rfl⟩
abbrev main_cst_44 : Ref sig .tc := ⟨.hbm, 231, rfl⟩
abbrev main_v151 : Ref sig .tc := ⟨.hbm, 232, rfl⟩
abbrev main_cst_45 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩

abbrev nD : Nat := 1
abbrev τ : Topo := Topo.v7x

variable {F : FTy → Type} [FloatOps F]

class Facts₀ : Prop where
  bcast_S_S16x8x352x352 : S_.BroadcastsInDim S16x8x352x352 (![] : Fin 0 → Fin S16x8x352x352.rank)
  reducesTo_S16x8x352x352_S16x352x352_d1 : S16x8x352x352.ReducesTo [1] S16x352x352
  h_S_ : 0 < S_.numel
  bcast_S_S16x352x352 : S_.BroadcastsInDim S16x352x352 (![] : Fin 0 → Fin S16x352x352.rank)
  slices_S16x8x352x352_S16x1x352x352_0_4_0_0 : S16x8x352x352.Slices ![0, 4, 0, 0] S16x1x352x352
  shapeCasts_S16x1x352x352_S16x352x352 : S16x1x352x352.ShapeCasts S16x352x352
  pads_S16x352x352_S16x352x353_000_000_100 : S16x352x352.Pads (![0, 0, 1] : Fin 3 → Nat) ![0, 0, 0] ![0, 0, 0] S16x352x353
  slices_S16x352x353_S16x352x352_0_0_0 : S16x352x353.Slices ![0, 0, 0] S16x352x352
  slices_S16x8x352x352_S16x1x352x352_0_3_0_0 : S16x8x352x352.Slices ![0, 3, 0, 0] S16x1x352x352
  pads_S16x352x352_S16x352x353_000_000_010 : S16x352x352.Pads (![0, 0, 0] : Fin 3 → Nat) ![0, 0, 1] ![0, 0, 0] S16x352x353
  slices_S16x352x353_S16x352x352_0_0_1 : S16x352x353.Slices ![0, 0, 1] S16x352x352
  slices_S16x8x352x352_S16x1x352x352_0_5_0_0 : S16x8x352x352.Slices ![0, 5, 0, 0] S16x1x352x352
  pads_S16x352x352_S16x353x352_000_100_000 : S16x352x352.Pads (![0, 1, 0] : Fin 3 → Nat) ![0, 0, 0] ![0, 0, 0] S16x353x352
  slices_S16x353x352_S16x352x352_0_0_0 : S16x353x352.Slices ![0, 0, 0] S16x352x352
  slices_S16x8x352x352_S16x1x352x352_0_2_0_0 : S16x8x352x352.Slices ![0, 2, 0, 0] S16x1x352x352
  pads_S16x352x352_S16x353x352_000_010_000 : S16x352x352.Pads (![0, 0, 0] : Fin 3 → Nat) ![0, 1, 0] ![0, 0, 0] S16x353x352
  slices_S16x353x352_S16x352x352_0_1_0 : S16x353x352.Slices ![0, 1, 0] S16x352x352
  slices_S16x8x352x352_S16x1x352x352_0_0_0_0 : S16x8x352x352.Slices ![0, 0, 0, 0] S16x1x352x352
  slices_S16x8x352x352_S16x1x352x352_0_6_0_0 : S16x8x352x352.Slices ![0, 6, 0, 0] S16x1x352x352
  slices_S16x8x352x352_S16x1x352x352_0_1_0_0 : S16x8x352x352.Slices ![0, 1, 0, 0] S16x1x352x352
  slices_S16x8x352x352_S16x1x352x352_0_7_0_0 : S16x8x352x352.Slices ![0, 7, 0, 0] S16x1x352x352
  bcast_S16x352x352_S16x1x352x352_0_2_3 : S16x352x352.BroadcastsInDim S16x1x352x352 (![0, 2, 3] : Fin 3 → Fin S16x1x352x352.rank)
  concatenates_S16x1x352x352_S16x1x352x352_S16x1x352x352_S16x1x352x352_S16x1x352x352_S16x1x352x352_S16x1x352x352_S16x1x352x352_S16x8x352x352_d1 : Shape.Concatenates [S16x1x352x352, S16x1x352x352, S16x1x352x352, S16x1x352x352, S16x1x352x352, S16x1x352x352, S16x1x352x352, S16x1x352x352] S16x8x352x352 1
  bcast_S_S16x1x352x352 : S_.BroadcastsInDim S16x1x352x352 (![] : Fin 0 → Fin S16x1x352x352.rank)
  reducesTo_S16x1x352x352_S_d0_1_2_3 : S16x1x352x352.ReducesTo [0, 1, 2, 3] S_
  reducesTo_S16x8x352x352_S_d0_1_2_3 : S16x8x352x352.ReducesTo [0, 1, 2, 3] S_

variable [Facts₀]

class Facts : Prop extends Facts₀ where

variable [Facts]
-- ==== Proof.KBodyNames.lean ====
/-
  The kernel body's intermediate values, named as functions of the three blocks a grid point works on: the logit
  block `x0` [1,8,352,352], the label block `x1` [1,1,352,352] and the connectivity-label block `x2` [1,8,352,352].
  Each name is the body's value of the same number: a channel plane loaded from a block, a sigmoid plane, a running
  sum or minimum of votes, a running sum of logarithms, and at the end the six plane sums the body adds to its six
  accumulators.
-/
import proofs.«406890_j71588514889850_3_alg».proof.Proof.Gen.KernelIdeal.Skeleton
import Idealize.ShloMosaic.Lib.Pipeline.Value

noncomputable section

open Idealize.ShloMosaic Idealize.ShloMosaic.TcCoe Idealize.SL.Sem

namespace Cert.KernelIdeal.Body

open Cert.KernelIdeal Cert.KernelIdeal.Gen

variable {F : FTy → Type} [FloatOps F] [Cert.KernelIdeal.Facts]

variable (x0 : Vec F S1x8x352x352 .f32) (x1 : Vec F S1x1x352x352 .i32) (x2 : Vec F S1x8x352x352 .i32)

/-! ## The channel planes the body loads -/

/-- The label plane. -/
def l1 : Vec F S1x1x352x352 .i32 := View.ld x1 (Rect.unit ![0, 0, 0, 0] ![1, 1, 352, 352] inb_S1x1x352x352_S1x1x352x352_0_0_0_0)
/-- Channel `k` of the logits. -/
def l0_0 : Vec F S1x1x352x352 .f32 := View.ld x0 (Rect.unit ![0, 0, 0, 0] ![1, 1, 352, 352] inb_S1x8x352x352_S1x1x352x352_0_0_0_0)
def l0_1 : Vec F S1x1x352x352 .f32 := View.ld x0 (Rect.unit ![0, 1, 0, 0] ![1, 1, 352, 352] inb_S1x8x352x352_S1x1x352x352_0_1_0_0)
def l0_2 : Vec F S1x1x352x352 .f32 := View.ld x0 (Rect.unit ![0, 2, 0, 0] ![1, 1, 352, 352] inb_S1x8x352x352_S1x1x352x352_0_2_0_0)
def l0_3 : Vec F S1x1x352x352 .f32 := View.ld x0 (Rect.unit ![0, 3, 0, 0] ![1, 1, 352, 352] inb_S1x8x352x352_S1x1x352x352_0_3_0_0)
def l0_4 : Vec F S1x1x352x352 .f32 := View.ld x0 (Rect.unit ![0, 4, 0, 0] ![1, 1, 352, 352] inb_S1x8x352x352_S1x1x352x352_0_4_0_0)
def l0_5 : Vec F S1x1x352x352 .f32 := View.ld x0 (Rect.unit ![0, 5, 0, 0] ![1, 1, 352, 352] inb_S1x8x352x352_S1x1x352x352_0_5_0_0)
def l0_6 : Vec F S1x1x352x352 .f32 := View.ld x0 (Rect.unit ![0, 6, 0, 0] ![1, 1, 352, 352] inb_S1x8x352x352_S1x1x352x352_0_6_0_0)
def l0_7 : Vec F S1x1x352x352 .f32 := View.ld x0 (Rect.unit ![0, 7, 0, 0] ![1, 1, 352, 352] inb_S1x8x352x352_S1x1x352x352_0_7_0_0)
/-- Channel `k` of the connectivity labels. -/
def l2_0 : Vec F S1x1x352x352 .i32 := View.ld x2 (Rect.unit ![0, 0, 0, 0] ![1, 1, 352, 352] inb_S1x8x352x352_S1x1x352x352_0_0_0_0)
def l2_1 : Vec F S1x1x352x352 .i32 := View.ld x2 (Rect.unit ![0, 1, 0, 0] ![1, 1, 352, 352] inb_S1x8x352x352_S1x1x352x352_0_1_0_0)
def l2_2 : Vec F S1x1x352x352 .i32 := View.ld x2 (Rect.unit ![0, 2, 0, 0] ![1, 1, 352, 352] inb_S1x8x352x352_S1x1x352x352_0_2_0_0)
def l2_3 : Vec F S1x1x352x352 .i32 := View.ld x2 (Rect.unit ![0, 3, 0, 0] ![1, 1, 352, 352] inb_S1x8x352x352_S1x1x352x352_0_3_0_0)
def l2_4 : Vec F S1x1x352x352 .i32 := View.ld x2 (Rect.unit ![0, 4, 0, 0] ![1, 1, 352, 352] inb_S1x8x352x352_S1x1x352x352_0_4_0_0)
def l2_5 : Vec F S1x1x352x352 .i32 := View.ld x2 (Rect.unit ![0, 5, 0, 0] ![1, 1, 352, 352] inb_S1x8x352x352_S1x1x352x352_0_5_0_0)
def l2_6 : Vec F S1x1x352x352 .i32 := View.ld x2 (Rect.unit ![0, 6, 0, 0] ![1, 1, 352, 352] inb_S1x8x352x352_S1x1x352x352_0_6_0_0)
def l2_7 : Vec F S1x1x352x352 .i32 := View.ld x2 (Rect.unit ![0, 7, 0, 0] ![1, 1, 352, 352] inb_S1x8x352x352_S1x1x352x352_0_7_0_0)

/-! ## The body's values, in its own order -/

/-- The label plane as floats. -/
def v5 : FVec F S352x352 .f32 := k0_pay10 (l1 x1)
/-- The border masks: first row, last row, first column, last column. -/
def v9 : IVec S352x352 1 := k0_pay11
def v11 : IVec S352x352 1 := k0_pay12
def v13 : IVec S352x352 1 := k0_pay13
def v15 : IVec S352x352 1 := k0_pay14
/-- Connectivity labels 3 and 4 as floats, the sigmoids of channels 3 and 4, the first partial label sum. -/
def v18 : FVec F S352x352 .f32 := k0_pay15 (l2_3 x2)
def v21 : FVec F S352x352 .f32 := k0_pay16 (l2_4 x2)
def v24 : FVec F S352x352 .f32 := k0_pay17 (l0_3 x0)
def v27 : FVec F S352x352 .f32 := k0_pay18 (l0_4 x0)
def v28 : FVec F S352x352 .f32 := k0_pay19 (l2_3 x2) (l2_4 x2)
/-- After the pair (3, 4): the log sum of the sigmoids, the vote sum, the vote minimum, and the parts of the vote
    log sum the next window finishes. -/
def v49 : FVec F S352x352 .f32 := k0_pay20 (v18 x2) (v21 x2) (v24 x0) (v27 x0) (Scalar.ofBits .f32 0x2B8CBCCC#32) (Scalar.ofBits .f32 0x3F800000#32)
def v58 : FVec F S352x352 .f32 := k0_pay23 v13 v15 (v24 x0) (v27 x0)
def v59 : FVec F S352x352 .f32 := k0_pay24 v13 v15 (v24 x0) (v27 x0)
def v69 : FVec F S352x352 .f32 := k0_pay25 v13 (v18 x2) (v24 x0) (v27 x0)
def v71 : FVec F S352x352 .f32 := k0_pay26 v15 (v24 x0) (v27 x0)
def v72 : FVec F S352x352 .f32 := k0_pay27
/-- The pair (1, 6). -/
def v80 : FVec F S352x352 .f32 := k0_pay28 (v21 x2) (v69 x0 x2) (v71 x0) (v72 (F := F))
def v83 : FVec F S352x352 .f32 := k0_pay29 (l2_1 x2)
def v86 : FVec F S352x352 .f32 := k0_pay30 (l2_6 x2)
def v89 : FVec F S352x352 .f32 := k0_pay31 (l0_1 x0)
def v92 : FVec F S352x352 .f32 := k0_pay32 (l0_6 x0)
def v94 : FVec F S352x352 .f32 := k0_pay33 (v28 x2) (l2_1 x2) (l2_6 x2)
def v104 : FVec F S352x352 .f32 := k0_pay34 (l2_1 x2) (l0_1 x0)
def v108 : FVec F S352x352 .f32 := k0_pay35 (l0_6 x0)
def v116 : FVec F S352x352 .f32 := k0_pay36 (v49 x0 x2) (v86 x2) (v104 x0 x2) (v108 x0)
def v126 : FVec F S352x352 .f32 := k0_pay39 v9 v11 (v58 x0) (v89 x0) (v92 x0)
def v128 : FVec F S352x352 .f32 := k0_pay40 v9 v11 (v59 x0) (v89 x0) (v92 x0)
def v150 : FVec F S352x352 .f32 := k0_pay41 v9 v11 (v80 x0 x2) (v83 x2) (v86 x2) (v89 x0) (v92 x0)
/-- The pair (2, 5). -/
def v153 : FVec F S352x352 .f32 := k0_pay42 (l2_2 x2)
def v156 : FVec F S352x352 .f32 := k0_pay43 (l2_5 x2)
def v159 : FVec F S352x352 .f32 := k0_pay44 (l0_2 x0)
def v162 : FVec F S352x352 .f32 := k0_pay45 (l0_5 x0)
def v164 : FVec F S352x352 .f32 := k0_pay46 (v94 x2) (l2_2 x2) (l2_5 x2)
def v186 : FVec F S352x352 .f32 := k0_pay47 (v116 x0 x2) (l2_2 x2) (l2_5 x2) (l0_2 x0) (l0_5 x0)
def v187 : FVec F S352x352 .f32 := k0_pay48 (l0_5 x0)
def v188 : FVec F S352x352 .f32 := k0_pay49
def v202 : FVec F S352x352 .f32 := k0_pay52 v9 v11 v13 v15 (v126 x0) (v159 x0) (v162 x0) (v187 x0) (v188 (F := F))
def v204 : FVec F S352x352 .f32 := k0_pay53 v9 v11 v13 v15 (v128 x0) (v159 x0) (v162 x0) (v187 x0) (v188 (F := F))
def v226 : FVec F S352x352 .f32 := k0_pay54 v9 v11 v13 v15 (v150 x0 x2) (v153 x2) (v156 x2) (v159 x0) (v162 x0) (v187 x0) (v188 (F := F))
/-- The pair (0, 7). -/
def v229 : FVec F S352x352 .f32 := k0_pay55 (l2_0 x2)
def v232 : FVec F S352x352 .f32 := k0_pay56 (l2_7 x2)
def v235 : FVec F S352x352 .f32 := k0_pay57 (l0_0 x0)
def v238 : FVec F S352x352 .f32 := k0_pay58 (l0_7 x0)
def v240 : FVec F S352x352 .f32 := k0_pay59 (v164 x2) (v229 x2) (l2_7 x2)
def v262 : FVec F S352x352 .f32 := k0_pay60 (v186 x0 x2) (v229 x2) (l2_7 x2) (l0_0 x0) (l0_7 x0)
def v266 : FVec F S352x352 .f32 := k0_pay61 v9 (l0_7 x0)
def v278 : FVec F S352x352 .f32 := k0_pay64 v11 v13 v15 (v202 x0) (v235 x0) (v238 x0) (v266 x0) (Scalar.ofBits .f32 0x00000000#32)
def v280 : FVec F S352x352 .f32 := k0_pay65 v11 v13 v15 (v204 x0) (v235 x0) (v238 x0) (v266 x0) (Scalar.ofBits .f32 0x00000000#32)
def v302 : FVec F S352x352 .f32 := k0_pay66 v11 v13 v15 (v226 x0 x2) (v229 x2) (v232 x2) (v235 x0) (v238 x0) (v266 x0) (Scalar.ofBits .f32 0x00000000#32)
/-- The two factors of the edge indicator. -/
def v307 : FVec F S352x352 .f32 := k0_pay67 (v240 x2)
def v309 : IVec S352x352 1 := k0_pay68 (v240 x2)
/-- The mean vote. -/
def v315 : FVec F S352x352 .f32 := k0_pay69 (v278 x0)
/-- The six plane sums: decoupled-map logs, vote logs, sigmoid logs, mean vote, labels, mean vote times labels. -/
def v337 : FVec F S1x1 .f32 := k0_pay70 (v5 x1) (v278 x0) (v280 x0) (v307 x2) (v309 x2) (Scalar.ofBits .f32 0x3F800000#32)
def v342 : FVec F S1x1 .f32 := k0_pay71 (v302 x0 x2)
def v347 : FVec F S1x1 .f32 := k0_pay72 (v262 x0 x2)
def v352 : FVec F S1x1 .f32 := k0_pay73 (v278 x0)
def v357 : FVec F S1x1 .f32 := k0_pay75 (k0_pay74 (v5 x1))
def v363 : FVec F S1x1 .f32 := k0_pay76 (v5 x1) (v315 x0)

end Cert.KernelIdeal.Body

end
-- ==== Proof.Spec.lean ====
/-
  The loss both programs compute, as mathematics over the extended reals.

  One batch element is a slab `X` of eight logit planes, a slab `C` of eight connectivity-label planes and a
  label plane `T`, each plane 352 x 352.  `sg X ch` is the sigmoid of channel `ch`.  A neighbour's value is read by
  a shift with zero fill at the border: `sR f r c = f r (c-1)`, `sL f r c = f r (c+1)`, `sD f r c = f (r-1) c`,
  `sU f r c = f (r+1) c`.  The eight bilateral votes `a1 … a8` are each a channel's sigmoid times the opposite
  neighbour's sigmoid of the opposite channel; their mean is `glo`, their minimum `vmin`.  A pixel is an edge pixel
  when the sum of its eight connectivity labels lies strictly between 0 and 8.  The binary cross-entropy of a
  prediction `p` against a label `t` is, after clipping `p` to [eps, 1], `t · log p + (1 - t) · log (1 - p)`
  (`bceR`); for a label that is 0 or 1 this is the logarithm of `p` or of `1 - p` (`bceK`, `bceR_eq_bceK`).
  The loss is 0.8 · (mean BCE of the sigmoids against the connectivity labels) + 0.2 · (mean BCE of the votes
  against them) + (mean BCE of the decoupled map against the label plane) + a ratio of sums of `glo`, the labels and
  their products.
-/
import Idealize.ShloMosaic.PureOps.Ideal
import Idealize.ShloMosaic.PureOps.Ideal.Laws
import Idealize.ShloMosaic.Lib.ValueIdx

noncomputable section

namespace Cert.Bicon

open Idealize.ShloMosaic Idealize.ShloMosaic.ValueIdx

/-- A 352 x 352 plane of extended reals, and a slab of eight of them. -/
abbrev Plane := Fin 352 → Fin 352 → EReal
abbrev Slab := Fin 8 → Plane

/-! ## The literals both programs carry, kept as the patterns they are printed with -/

/-- The clip's lower bound, f32(1e-12). -/
abbrev eps : EReal := Ideal.ofBits .f32 0x2B8CBCCC#32
/-- The divisors 16·352·352 and 16·8·352·352 of the two means, the weights 0.8 and 0.2, and the 1e-6 of the ratio. -/
abbrev n1 : EReal := Ideal.ofBits .f32 0x49F20000#32
abbrev n8 : EReal := Ideal.ofBits .f32 0x4B720000#32
abbrev w08 : EReal := Ideal.ofBits .f32 0x3F4CCCCD#32
abbrev w02 : EReal := Ideal.ofBits .f32 0x3E4CCCCD#32
abbrev e6 : EReal := Ideal.ofBits .f32 0x358637BD#32

/-! ## One pixel's cross-entropy -/

/-- A prediction clipped to [eps, 1]. -/
def clip (p : EReal) : EReal := min 1 (max eps p)

/-- The cross-entropy term with the label used as a switch: log p for a label of at least 1/2, else log (1 - p). -/
def bceK (p t : EReal) : EReal := Ideal.log (if (((1 / 2 : ℝ) : EReal)) ≤ t then clip p else 1 - clip p)

/-- The cross-entropy term with the label used as a weight. -/
def bceR (p t : EReal) : EReal := t * Ideal.log (clip p) + (1 - t) * Ideal.log1p (-(clip p))

/-! ## Shifts with zero fill -/

def sR (f : Plane) : Plane := fun r c => if h : c.val = 0 then 0 else f r ⟨c.val - 1, by have := c.isLt; omega⟩
def sL (f : Plane) : Plane := fun r c => if h : c.val = 351 then 0 else f r ⟨c.val + 1, by have := c.isLt; omega⟩
def sD (f : Plane) : Plane := fun r c => if h : r.val = 0 then 0 else f ⟨r.val - 1, by have := r.isLt; omega⟩ c
def sU (f : Plane) : Plane := fun r c => if h : r.val = 351 then 0 else f ⟨r.val + 1, by have := r.isLt; omega⟩ c

/-! ## The maps of one batch element -/

/-- The sigmoid of a channel. -/
def sg (X : Slab) (ch : Fin 8) : Plane := fun r c => Ideal.logistic (X ch r c)

def a1 (X : Slab) : Plane := fun r c => sg X 3 r c * sR (sg X 4) r c
def a2 (X : Slab) : Plane := fun r c => sg X 4 r c * sL (sg X 3) r c
def a3 (X : Slab) : Plane := fun r c => sg X 1 r c * sD (sg X 6) r c
def a4 (X : Slab) : Plane := fun r c => sg X 6 r c * sU (sg X 1) r c
def a5 (X : Slab) : Plane := fun r c => sg X 2 r c * sL (sD (sg X 5)) r c
def a6 (X : Slab) : Plane := fun r c => sg X 5 r c * sR (sU (sg X 2)) r c
def a7 (X : Slab) : Plane := fun r c => sg X 0 r c * sR (sD (sg X 7)) r c
def a8 (X : Slab) : Plane := fun r c => sg X 7 r c * sL (sU (sg X 0)) r c

/-- The votes in the order the reference stacks them against the connectivity channels 0 … 7. -/
def vote (X : Slab) : Fin 8 → Plane := ![a7 X, a3 X, a5 X, a1 X, a2 X, a6 X, a4 X, a8 X]

/-- The sum and the minimum of the eight votes. -/
def vsum (X : Slab) : Plane := fun r c =>
  a1 X r c + a2 X r c + a3 X r c + a4 X r c + a5 X r c + a6 X r c + a7 X r c + a8 X r c
def vmin (X : Slab) : Plane := fun r c =>
  min (min (min (min (a1 X r c) (a2 X r c)) (min (a3 X r c) (a4 X r c))) (min (a5 X r c) (a6 X r c))) (min (a7 X r c) (a8 X r c))

/-- The mean vote. -/
def glo (X : Slab) : Plane := fun r c => vsum X r c * (((1 / 8 : ℝ) : EReal))

/-- The sum of the eight connectivity labels, and the edge indicator 0 < sum < 8. -/
def sumConn (C : Slab) : Plane := fun r c =>
  C 3 r c + C 4 r c + C 1 r c + C 6 r c + C 2 r c + C 5 r c + C 0 r c + C 7 r c
def edge (C : Slab) : Plane := fun r c =>
  (if sumConn C r c < (((8 : ℝ) : EReal)) then 1 else 0) * (if 0 < sumConn C r c then 1 else 0)

/-- The decoupled map: the mean vote off the edge, one minus the least vote on it. -/
def dmap (X C : Slab) : Plane := fun r c => glo X r c * (1 - edge C r c) + (1 - vmin X r c) * edge C r c

/-- The six maps whose sums the loss is made of. -/
def decT (X C : Slab) (T : Plane) : Plane := fun r c => bceK (dmap X C r c) (T r c)
def bimT (X C : Slab) : Plane := fun r c =>
  bceK (a1 X r c) (C 3 r c) + bceK (a2 X r c) (C 4 r c) + bceK (a3 X r c) (C 1 r c) + bceK (a4 X r c) (C 6 r c)
    + bceK (a5 X r c) (C 2 r c) + bceK (a6 X r c) (C 5 r c) + bceK (a7 X r c) (C 0 r c) + bceK (a8 X r c) (C 7 r c)
def cmapT (X C : Slab) : Plane := fun r c =>
  bceK (sg X 3 r c) (C 3 r c) + bceK (sg X 4 r c) (C 4 r c) + bceK (sg X 1 r c) (C 1 r c) + bceK (sg X 6 r c) (C 6 r c)
    + bceK (sg X 2 r c) (C 2 r c) + bceK (sg X 5 r c) (C 5 r c) + bceK (sg X 0 r c) (C 0 r c) + bceK (sg X 7 r c) (C 7 r c)
def interT (X : Slab) (T : Plane) : Plane := fun r c => glo X r c * T r c

/-! ## The running sums after each of the four channel pairs (3,4), (1,6), (2,5), (0,7)

The last of each family is the map itself, up to the grouping of the sum. -/

def cs1 (C : Slab) : Plane := fun r c => C 3 r c + C 4 r c
def cs2 (C : Slab) : Plane := fun r c => cs1 C r c + C 1 r c + C 6 r c
def cs3 (C : Slab) : Plane := fun r c => cs2 C r c + C 2 r c + C 5 r c
def vs1 (X : Slab) : Plane := fun r c => a1 X r c + a2 X r c
def vs2 (X : Slab) : Plane := fun r c => vs1 X r c + a3 X r c + a4 X r c
def vs3 (X : Slab) : Plane := fun r c => vs2 X r c + a5 X r c + a6 X r c
def vm1 (X : Slab) : Plane := fun r c => min (a1 X r c) (a2 X r c)
def vm2 (X : Slab) : Plane := fun r c => min (vm1 X r c) (min (a3 X r c) (a4 X r c))
def vm3 (X : Slab) : Plane := fun r c => min (vm2 X r c) (min (a5 X r c) (a6 X r c))
def bm1 (X C : Slab) : Plane := fun r c => bceK (a1 X r c) (C 3 r c) + bceK (a2 X r c) (C 4 r c)
def bm2 (X C : Slab) : Plane := fun r c => bm1 X C r c + bceK (a3 X r c) (C 1 r c) + bceK (a4 X r c) (C 6 r c)
def bm3 (X C : Slab) : Plane := fun r c => bm2 X C r c + bceK (a5 X r c) (C 2 r c) + bceK (a6 X r c) (C 5 r c)
def cm1 (X C : Slab) : Plane := fun r c => bceK (sg X 3 r c) (C 3 r c) + bceK (sg X 4 r c) (C 4 r c)
def cm2 (X C : Slab) : Plane := fun r c => cm1 X C r c + (bceK (sg X 1 r c) (C 1 r c) + bceK (sg X 6 r c) (C 6 r c))
def cm3 (X C : Slab) : Plane := fun r c => cm2 X C r c + (bceK (sg X 2 r c) (C 2 r c) + bceK (sg X 5 r c) (C 5 r c))
def cm4 (X C : Slab) : Plane := fun r c => cm3 X C r c + (bceK (sg X 0 r c) (C 0 r c) + bceK (sg X 7 r c) (C 7 r c))

/-- The sum of a plane. -/
def planeSum (f : Plane) : EReal := ∑ r : Fin 352, ∑ c : Fin 352, f r c

/-! ## The whole arrays -/

abbrev S16x8x352x352 : Shape := ⟨4, ![16, 8, 352, 352]⟩
abbrev S16x1x352x352 : Shape := ⟨4, ![16, 1, 352, 352]⟩

/-- Batch element `b` of the logits, of the connectivity labels and of the labels, the integer labels read as reals. -/
def outSlab (O : S16x8x352x352.Idx → EReal) (b : Fin 16) : Slab := fun ch r c => O (ix4 b ch r c)
def conSlab (Cn : S16x8x352x352.Idx → BitVec 32) (b : Fin 16) : Slab := fun ch r c => (((Cn (ix4 b ch r c)).toInt : ℝ) : EReal)
def tgtPlane (Tg : S16x1x352x352.Idx → BitVec 32) (b : Fin 16) : Plane := fun r c => (((Tg (ix4 b 0 r c)).toInt : ℝ) : EReal)

/-! ## One grid point's blocks -/

abbrev S1x8x352x352 : Shape := ⟨4, ![1, 8, 352, 352]⟩
abbrev S1x1x352x352 : Shape := ⟨4, ![1, 1, 352, 352]⟩
abbrev S352x352 : Shape := ⟨2, ![352, 352]⟩

/-- The slabs and the label plane of a [1,8,352,352] logit block, a [1,8,352,352] connectivity-label block and a
    [1,1,352,352] label block. -/
def blkOut (x0 : S1x8x352x352.Idx → EReal) : Slab := fun ch r c => x0 (ix4 0 ch r c)
def blkCon (x2 : S1x8x352x352.Idx → BitVec 32) : Slab := fun ch r c => (((x2 (ix4 0 ch r c)).toInt : ℝ) : EReal)
def blkTgt (x1 : S1x1x352x352.Idx → BitVec 32) : Plane := fun r c => (((x1 (ix4 0 0 r c)).toInt : ℝ) : EReal)

/-- A [352,352] vector as a plane. -/
def pl (v : S352x352.Idx → EReal) : Plane := fun r c => v (ix2 r c)

/-- The sum over the batch of the plane sums. -/
def total (f : Fin 16 → Plane) : EReal := ∑ b : Fin 16, planeSum (f b)

/-- The six sums of the whole arrays. -/
def sDec (O : S16x8x352x352.Idx → EReal) (Tg : S16x1x352x352.Idx → BitVec 32) (Cn : S16x8x352x352.Idx → BitVec 32) : EReal :=
  total fun b => decT (outSlab O b) (conSlab Cn b) (tgtPlane Tg b)
def sBim (O : S16x8x352x352.Idx → EReal) (Cn : S16x8x352x352.Idx → BitVec 32) : EReal :=
  total fun b => bimT (outSlab O b) (conSlab Cn b)
def sCmap (O : S16x8x352x352.Idx → EReal) (Cn : S16x8x352x352.Idx → BitVec 32) : EReal :=
  total fun b => cmapT (outSlab O b) (conSlab Cn b)
def sGm (O : S16x8x352x352.Idx → EReal) : EReal := total fun b => glo (outSlab O b)
def sTgt (Tg : S16x1x352x352.Idx → BitVec 32) : EReal := total fun b => tgtPlane Tg b
def sInter (O : S16x8x352x352.Idx → EReal) (Tg : S16x1x352x352.Idx → BitVec 32) : EReal :=
  total fun b => interT (outSlab O b) (tgtPlane Tg b)

/-- The loss from the six sums, each mean taken as (minus the sum) over the count. -/
def lossK (Sd Sb Sc Sg St Si : EReal) : EReal :=
  w08 * Ideal.div (-Sc) n8 + w02 * Ideal.div (-Sb) n8 + Ideal.div (-Sd) n1
    + Ideal.div (Sg + St - (((2 : ℝ) : EReal)) * Si) (Sg + St + e6)

/-- The loss with each mean taken as minus (the sum over the count), and the ratio's numerator given as the two sums
    `A = Σ (glo - glo·t)` and `B = Σ (t - glo·t)`. -/
def lossR (Sd Sb Sc Sg St A B : EReal) : EReal :=
  w08 * -(Ideal.div Sc n8) + w02 * -(Ideal.div Sb n8) + -(Ideal.div Sd n1) + Ideal.div (A + B) (Sg + St + e6)

end Cert.Bicon

end
-- ==== Proof.Consts.lean ====
/-
  What the float literals of the two programs denote as extended reals: 0, 1, 1/2, 2, 8, 1/8, and the two counts
  16·352·352 and 16·8·352·352 that the means divide by.
-/
import Idealize.ShloMosaic.PureOps.Ideal
import Idealize.ShloMosaic.PureOps.Ideal.Laws

noncomputable section

namespace Cert.Bicon

open Idealize.ShloMosaic

theorem ofBits_zero : Ideal.ofBits .f32 0x00000000#32 = 0 := Ideal.ofBits_zero_f32
theorem ofBits_one : Ideal.ofBits .f32 0x3F800000#32 = 1 := by
  simp [Ideal.ofBits, Ideal.ieee, -EReal.coe_mul] <;> norm_num
theorem ofBits_half : Ideal.ofBits .f32 0x3F000000#32 = (((1 / 2 : ℝ)) : EReal) := by
  simp [Ideal.ofBits, Ideal.ieee, -EReal.coe_mul] <;> norm_num
theorem ofBits_two : Ideal.ofBits .f32 0x40000000#32 = (((2 : ℝ)) : EReal) := by
  simp [Ideal.ofBits, Ideal.ieee, -EReal.coe_mul] <;> norm_num
theorem ofBits_eight : Ideal.ofBits .f32 0x41000000#32 = (((8 : ℝ)) : EReal) := by
  simp [Ideal.ofBits, Ideal.ieee, -EReal.coe_mul] <;> norm_num
theorem ofBits_eighth : Ideal.ofBits .f32 0x3E000000#32 = (((1 / 8 : ℝ)) : EReal) := by
  simp [Ideal.ofBits, Ideal.ieee, -EReal.coe_mul] <;> norm_num
theorem ofBits_n1 : Ideal.ofBits .f32 0x49F20000#32 = (((1982464 : ℝ)) : EReal) := by
  simp [Ideal.ofBits, Ideal.ieee, -EReal.coe_mul] <;> norm_num
theorem ofBits_n8 : Ideal.ofBits .f32 0x4B720000#32 = (((15859712 : ℝ)) : EReal) := by
  simp [Ideal.ofBits, Ideal.ieee, -EReal.coe_mul] <;> norm_num

end Cert.Bicon

end
-- ==== Proof.LossAlgebra.lean ====
/-
  The algebra that joins the two programs' arithmetic on the extended reals.  For a label that is 0 or 1 the weighted
  cross-entropy term is the switched one (0 · x = 0 also at the infinities).  Dividing minus a sum by a positive count
  is minus the quotient.  Sums over the index types of the arrays are sums over batch, channel, row and column.  For
  finite summands, Σ (g - g·t) + Σ (t - g·t) = Σ g + Σ t - 2 · Σ g·t.  The mean vote of finite logits is finite.
-/
import proofs.«406890_j71588514889850_3_alg».proof.Proof.Spec
import proofs.«406890_j71588514889850_3_alg».proof.Proof.Consts

noncomputable section

open Idealize.ShloMosaic Idealize.ShloMosaic.ValueIdx

namespace Cert.Bicon

/-! ## The cross-entropy term -/

theorem half_not_le_zero : ¬ ((((1 / 2 : ℝ)) : EReal) ≤ 0) := by
  rw [← EReal.coe_zero, EReal.coe_le_coe_iff]; norm_num
theorem half_le_one : ((((1 / 2 : ℝ)) : EReal) ≤ 1) := by
  rw [← EReal.coe_one, EReal.coe_le_coe_iff]; norm_num
theorem one_sub_one : (1 - 1 : EReal) = 0 := by
  rw [← EReal.coe_one, ← EReal.coe_sub]; simp

/-- For a 0/1 label the weighted term is the switched one. -/
theorem bceR_eq_bceK (p t : EReal) (ht : t = 0 ∨ t = 1) : bceR p t = bceK p t := by
  unfold bceR bceK Ideal.log1p
  rcases ht with rfl | rfl
  · rw [if_neg half_not_le_zero, zero_mul, zero_add, sub_zero, one_mul, sub_eq_add_neg]
  · rw [if_pos half_le_one, one_sub_one, zero_mul, add_zero, one_mul]

/-! ## Quotients by the literal counts -/

/-- Minus a quotient by one of the two counts is the quotient of the negation. -/
theorem neg_div_n8 (x : EReal) : -(Ideal.div x n8) = Ideal.div (-x) n8 := by
  show -(Ideal.div x (Ideal.ofBits .f32 0x4B720000#32)) = Ideal.div (-x) (Ideal.ofBits .f32 0x4B720000#32)
  rw [ofBits_n8, Ideal.div_coe (by norm_num), Ideal.div_coe (by norm_num), EReal.neg_mul]
theorem neg_div_n1 (x : EReal) : -(Ideal.div x n1) = Ideal.div (-x) n1 := by
  show -(Ideal.div x (Ideal.ofBits .f32 0x49F20000#32)) = Ideal.div (-x) (Ideal.ofBits .f32 0x49F20000#32)
  rw [ofBits_n1, Ideal.div_coe (by norm_num), Ideal.div_coe (by norm_num), EReal.neg_mul]

/-- A quotient by 8 is a product with 1/8. -/
theorem div_eight (x : EReal) : Ideal.div x (Ideal.ofBits .f32 0x41000000#32) = x * (((1 / 8 : ℝ) : EReal)) := by
  rw [ofBits_eight, Ideal.div_coe (by norm_num)]

/-! ## Sums over index types as sums over coordinates -/

/-- A rank-3 index set is the product of its coordinate ranges, -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The same at rank 4. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

theorem sum_idx_16_1 (f : S16x1x352x352.Idx → EReal) :
    ∑ i, f i = ∑ b : Fin 16, ∑ r : Fin 352, ∑ c : Fin 352, f (ix4 b 0 r c) := by
  rw [sum_idx4]
  refine Finset.sum_congr rfl fun b _ => ?_
  rw [Fin.sum_univ_one]
theorem sum_idx_16_8 (f : S16x8x352x352.Idx → EReal) :
    ∑ i, f i = ∑ b : Fin 16, ∑ ch : Fin 8, ∑ r : Fin 352, ∑ c : Fin 352, f (ix4 b ch r c) :=
  sum_idx4 f
theorem sum_idx_1_352_352 (f : (⟨3, ![1, 352, 352]⟩ : Shape).Idx → EReal) :
    ∑ i, f i = ∑ r : Fin 352, ∑ c : Fin 352, f (ix3 0 r c) := by
  rw [sum_idx3, Fin.sum_univ_one]

/-! ## Finite summands -/

/-- A finite sum of reals, as an extended real, is the sum of the extended reals. -/
theorem coe_sum {ι : Type} (s : Finset ι) (x : ι → ℝ) : (((∑ i ∈ s, x i : ℝ)) : EReal) = ∑ i ∈ s, ((x i : ℝ) : EReal) := by
  classical
  induction s using Finset.induction_on with
  | empty => simp
  | insert a s ha ih => rw [Finset.sum_insert ha, Finset.sum_insert ha, EReal.coe_add, ih]

/-- The numerator of the ratio, for finite summands. -/
theorem cel_num {ι : Type} [Fintype ι] (g t : ι → EReal) (hg : ∀ i, ∃ x : ℝ, g i = (x : EReal)) (ht : ∀ i, ∃ x : ℝ, t i = (x : EReal)) :
    (∑ i, (g i - g i * t i)) + (∑ i, (t i - g i * t i)) = (∑ i, g i) + (∑ i, t i) - (((2 : ℝ) : EReal)) * ∑ i, g i * t i := by
  choose G hG using hg
  choose T hT using ht
  have e1 : ∀ i, g i - g i * t i = (((G i - G i * T i : ℝ)) : EReal) := fun i => by
    rw [hG i, hT i, ← EReal.coe_mul, ← EReal.coe_sub]
  have e2 : ∀ i, t i - g i * t i = (((T i - G i * T i : ℝ)) : EReal) := fun i => by
    rw [hG i, hT i, ← EReal.coe_mul, ← EReal.coe_sub]
  have e3 : ∀ i, g i * t i = (((G i * T i : ℝ)) : EReal) := fun i => by rw [hG i, hT i, ← EReal.coe_mul]
  simp only [e1, e2, e3, hG, hT, ← coe_sum, ← EReal.coe_add, ← EReal.coe_mul, ← EReal.coe_sub]
  congr 1
  rw [Finset.sum_sub_distrib, Finset.sum_sub_distrib]
  ring

/-! ## The mean vote of finite logits is finite -/

theorem logistic_real (x : ℝ) : ∃ y : ℝ, Ideal.logistic (x : EReal) = (y : EReal) := ⟨_, Ideal.logistic_coe x⟩

theorem glo_real (X : Slab) (hX : ∀ ch r c, ∃ x : ℝ, X ch r c = (x : EReal)) (r c : Fin 352) : ∃ g : ℝ, glo X r c = (g : EReal) := by
  have hsg : ∀ ch r c, ∃ y : ℝ, sg X ch r c = (y : EReal) := fun ch r c => by
    obtain ⟨x, hx⟩ := hX ch r c
    unfold sg; rw [hx]; exact logistic_real x
  have hsh : ∀ (f : Plane), (∀ r c, ∃ y : ℝ, f r c = (y : EReal)) →
      (∀ r c, ∃ y : ℝ, sR f r c = (y : EReal)) ∧ (∀ r c, ∃ y : ℝ, sL f r c = (y : EReal))
      ∧ (∀ r c, ∃ y : ℝ, sD f r c = (y : EReal)) ∧ (∀ r c, ∃ y : ℝ, sU f r c = (y : EReal)) := fun f hf => by
    refine ⟨fun r c => ?_, fun r c => ?_, fun r c => ?_, fun r c => ?_⟩
    · unfold sR; split
      · exact ⟨0, by simp⟩
      · exact hf _ _
    · unfold sL; split
      · exact ⟨0, by simp⟩
      · exact hf _ _
    · unfold sD; split
      · exact ⟨0, by simp⟩
      · exact hf _ _
    · unfold sU; split
      · exact ⟨0, by simp⟩
      · exact hf _ _
  have hmul : ∀ (a b : EReal), (∃ y : ℝ, a = (y : EReal)) → (∃ y : ℝ, b = (y : EReal)) → ∃ y : ℝ, a * b = (y : EReal) :=
    fun a b ⟨y, hy⟩ ⟨z, hz⟩ => ⟨y * z, by rw [hy, hz, EReal.coe_mul]⟩
  have hadd : ∀ (a b : EReal), (∃ y : ℝ, a = (y : EReal)) → (∃ y : ℝ, b = (y : EReal)) → ∃ y : ℝ, a + b = (y : EReal) :=
    fun a b ⟨y, hy⟩ ⟨z, hz⟩ => ⟨y + z, by rw [hy, hz, EReal.coe_add]⟩
  have h1 := hmul _ _ (hsg 3 r c) ((hsh _ (hsg 4)).1 r c)
  have h2 := hmul _ _ (hsg 4 r c) ((hsh _ (hsg 3)).2.1 r c)
  have h3 := hmul _ _ (hsg 1 r c) ((hsh _ (hsg 6)).2.2.1 r c)
  have h4 := hmul _ _ (hsg 6 r c) ((hsh _ (hsg 1)).2.2.2 r c)
  have h5 := hmul _ _ (hsg 2 r c) ((hsh _ ((hsh _ (hsg 5)).2.2.1)).2.1 r c)
  have h6 := hmul _ _ (hsg 5 r c) ((hsh _ ((hsh _ (hsg 2)).2.2.2)).1 r c)
  have h7 := hmul _ _ (hsg 0 r c) ((hsh _ ((hsh _ (hsg 7)).2.2.1)).1 r c)
  have h8 := hmul _ _ (hsg 7 r c) ((hsh _ ((hsh _ (hsg 0)).2.2.2)).2.1 r c)
  unfold glo vsum a1 a2 a3 a4 a5 a6 a7 a8
  exact hmul _ _ (hadd _ _ (hadd _ _ (hadd _ _ (hadd _ _ (hadd _ _ (hadd _ _ (hadd _ _ h1 h2) h3) h4) h5) h6) h7) h8) ⟨_, rfl⟩

/-! ## The two halves of the batch -/

/-- The sum of a half of eight in order, from zero, and the two halves' sum from zero, is the sum over the batch. -/
def half8 (s : Fin 16 → EReal) (q : Fin 2) : EReal :=
  0 + s ⟨8 * q.val + 0, by omega⟩ + s ⟨8 * q.val + 1, by omega⟩ + s ⟨8 * q.val + 2, by omega⟩ + s ⟨8 * q.val + 3, by omega⟩
    + s ⟨8 * q.val + 4, by omega⟩ + s ⟨8 * q.val + 5, by omega⟩ + s ⟨8 * q.val + 6, by omega⟩ + s ⟨8 * q.val + 7, by omega⟩
theorem halves_eq_sum (s : Fin 16 → EReal) : 0 + ∑ q : Fin 2, half8 s q = ∑ b : Fin 16, s b := by
  rw [Fin.sum_univ_two]
  unfold half8
  simp only [Fin.sum_univ_succ, Fin.sum_univ_zero, zero_add, add_zero]
  simp only [add_assoc]
  rfl

end Cert.Bicon

end
-- ==== Proof.KAtoms.lean ====
/-
  The body's elementary readings, at the ideal values: a loaded channel plane is that channel of the block; the four
  border masks; a roll by one with the border column or row zeroed is the shift with zero fill; the body's reduction of
  a [352,352] map to a scalar is the plane sum; an accumulator update adds the scalar to every lane.
-/
import proofs.«406890_j71588514889850_3_alg».proof.Proof.KBodyNames
import proofs.«406890_j71588514889850_3_alg».proof.Proof.Spec
import proofs.«406890_j71588514889850_3_alg».proof.Proof.Consts
import proofs.«406890_j71588514889850_3_alg».proof.Proof.LossAlgebra
import Idealize.ShloMosaic.Lib.KernelVsHost
import Idealize.ShloMosaic.Lib.ValueLayout

noncomputable section

open Idealize.ShloMosaic Idealize.ShloMosaic.TcCoe Idealize.ShloMosaic.ValueIdx

namespace Cert.KernelIdeal.Atoms

open Cert.KernelIdeal Cert.KernelIdeal.Gen Cert.KernelIdeal.Body Cert.Bicon

variable [Cert.KernelIdeal.Facts]

/-- A channel plane loaded from an eight-channel block and viewed as a [352,352] vector reads the block at that channel. -/
theorem ld8_plane {Val : EltTy → Type} {e : EltTy} (x : S1x8x352x352.Idx → Val e) (k : Nat) (hk : k < 8)
    (inb : ∀ a, (![0, k, 0, 0] : Fin 4 → Nat) a + S1x1x352x352.size a ≤ S1x8x352x352.size a)
    (h : S1x1x352x352.ShapeCasts S352x352) (r c : Fin 352) :
    shapeCast S352x352 (View.ld x (Rect.unit ![0, k, 0, 0] ![1, 1, 352, 352] inb)) h (ix2 r c) = x (ix4 0 ⟨k, hk⟩ r c) := by
  refine (shapeCast_apply _ h (ix2 r c) (ix4 0 0 r c) ?_).trans ?_
  · rw [Shape.rowMajor_val_four, Shape.rowMajor_val_two]
    show ((0 * 1 + 0) * 352 + r.val) * 352 + c.val = r.val * 352 + c.val
    omega
  · show x _ = x _
    congr 1
    funext a
    apply Fin.ext
    match a with
    | ⟨0, _⟩ => rfl
    | ⟨1, _⟩ => show k + 1 * 0 = k; omega
    | ⟨2, _⟩ => show 0 + 1 * r.val = r.val; omega
    | ⟨3, _⟩ => show 0 + 1 * c.val = c.val; omega

/-- The one-channel label block likewise. -/
theorem ld1_plane {Val : EltTy → Type} {e : EltTy} (x : S1x1x352x352.Idx → Val e)
    (inb : ∀ a, (![0, 0, 0, 0] : Fin 4 → Nat) a + S1x1x352x352.size a ≤ S1x1x352x352.size a)
    (h : S1x1x352x352.ShapeCasts S352x352) (r c : Fin 352) :
    shapeCast S352x352 (View.ld x (Rect.unit ![0, 0, 0, 0] ![1, 1, 352, 352] inb)) h (ix2 r c) = x (ix4 0 0 r c) := by
  refine (shapeCast_apply _ h (ix2 r c) (ix4 0 0 r c) ?_).trans ?_
  · rw [Shape.rowMajor_val_four, Shape.rowMajor_val_two]
    show ((0 * 1 + 0) * 352 + r.val) * 352 + c.val = r.val * 352 + c.val
    omega
  · show x _ = x _
    congr 1
    funext a
    apply Fin.ext
    match a with
    | ⟨0, _⟩ => rfl
    | ⟨1, _⟩ => rfl
    | ⟨2, _⟩ => show 0 + 1 * r.val = r.val; omega
    | ⟨3, _⟩ => show 0 + 1 * c.val = c.val; omega

variable (x0 : Vec Ideal S1x8x352x352 .f32) (x1 : Vec Ideal S1x1x352x352 .i32) (x2 : Vec Ideal S1x8x352x352 .i32)

/-! ## Loaded planes -/

/-- The label plane as floats. -/
theorem pl_v5 : pl (v5 (F := Ideal) x1) = blkTgt x1 := by
  funext r c
  show FloatOps.sitofp .f32 (shapeCast S352x352 (l1 x1) shapeCasts_S1x1x352x352_S352x352 (ix2 r c)) = _
  rw [show shapeCast S352x352 (l1 x1) shapeCasts_S1x1x352x352_S352x352 (ix2 r c) = x1 (ix4 0 0 r c) from ld1_plane x1 _ _ r c]
  rfl

/-- The connectivity labels of a channel as floats. -/
theorem pl_v18 : pl (v18 (F := Ideal) x2) = blkCon x2 3 := by
  funext r c
  show FloatOps.sitofp .f32 (shapeCast S352x352 (l2_3 x2) shapeCasts_S1x1x352x352_S352x352 (ix2 r c)) = _
  rw [show shapeCast S352x352 (l2_3 x2) shapeCasts_S1x1x352x352_S352x352 (ix2 r c) = x2 (ix4 0 3 r c) from ld8_plane x2 3 (by omega) _ _ r c]
  rfl
theorem pl_v21 : pl (v21 (F := Ideal) x2) = blkCon x2 4 := by
  funext r c
  show FloatOps.sitofp .f32 (shapeCast S352x352 (l2_4 x2) shapeCasts_S1x1x352x352_S352x352 (ix2 r c)) = _
  rw [show shapeCast S352x352 (l2_4 x2) shapeCasts_S1x1x352x352_S352x352 (ix2 r c) = x2 (ix4 0 4 r c) from ld8_plane x2 4 (by omega) _ _ r c]
  rfl
theorem pl_v83 : pl (v83 (F := Ideal) x2) = blkCon x2 1 := by
  funext r c
  show FloatOps.sitofp .f32 (shapeCast S352x352 (l2_1 x2) shapeCasts_S1x1x352x352_S352x352 (ix2 r c)) = _
  rw [show shapeCast S352x352 (l2_1 x2) shapeCasts_S1x1x352x352_S352x352 (ix2 r c) = x2 (ix4 0 1 r c) from ld8_plane x2 1 (by omega) _ _ r c]
  rfl
theorem pl_v86 : pl (v86 (F := Ideal) x2) = blkCon x2 6 := by
  funext r c
  show FloatOps.sitofp .f32 (shapeCast S352x352 (l2_6 x2) shapeCasts_S1x1x352x352_S352x352 (ix2 r c)) = _
  rw [show shapeCast S352x352 (l2_6 x2) shapeCasts_S1x1x352x352_S352x352 (ix2 r c) = x2 (ix4 0 6 r c) from ld8_plane x2 6 (by omega) _ _ r c]
  rfl
theorem pl_v153 : pl (v153 (F := Ideal) x2) = blkCon x2 2 := by
  funext r c
  show FloatOps.sitofp .f32 (shapeCast S352x352 (l2_2 x2) shapeCasts_S1x1x352x352_S352x352 (ix2 r c)) = _
  rw [show shapeCast S352x352 (l2_2 x2) shapeCasts_S1x1x352x352_S352x352 (ix2 r c) = x2 (ix4 0 2 r c) from ld8_plane x2 2 (by omega) _ _ r c]
  rfl
theorem pl_v156 : pl (v156 (F := Ideal) x2) = blkCon x2 5 := by
  funext r c
  show FloatOps.sitofp .f32 (shapeCast S352x352 (l2_5 x2) shapeCasts_S1x1x352x352_S352x352 (ix2 r c)) = _
  rw [show shapeCast S352x352 (l2_5 x2) shapeCasts_S1x1x352x352_S352x352 (ix2 r c) = x2 (ix4 0 5 r c) from ld8_plane x2 5 (by omega) _ _ r c]
  rfl
theorem pl_v229 : pl (v229 (F := Ideal) x2) = blkCon x2 0 := by
  funext r c
  show FloatOps.sitofp .f32 (shapeCast S352x352 (l2_0 x2) shapeCasts_S1x1x352x352_S352x352 (ix2 r c)) = _
  rw [show shapeCast S352x352 (l2_0 x2) shapeCasts_S1x1x352x352_S352x352 (ix2 r c) = x2 (ix4 0 0 r c) from ld8_plane x2 0 (by omega) _ _ r c]
  rfl
theorem pl_v232 : pl (v232 (F := Ideal) x2) = blkCon x2 7 := by
  funext r c
  show FloatOps.sitofp .f32 (shapeCast S352x352 (l2_7 x2) shapeCasts_S1x1x352x352_S352x352 (ix2 r c)) = _
  rw [show shapeCast S352x352 (l2_7 x2) shapeCasts_S1x1x352x352_S352x352 (ix2 r c) = x2 (ix4 0 7 r c) from ld8_plane x2 7 (by omega) _ _ r c]
  rfl

/-- The sigmoid of a channel. -/
theorem pl_v24 : pl (v24 (F := Ideal) x0) = sg (blkOut x0) 3 := by
  funext r c
  show FloatOps.logistic (shapeCast S352x352 (l0_3 x0) shapeCasts_S1x1x352x352_S352x352 (ix2 r c)) = _
  rw [show shapeCast S352x352 (l0_3 x0) shapeCasts_S1x1x352x352_S352x352 (ix2 r c) = x0 (ix4 0 3 r c) from ld8_plane x0 3 (by omega) _ _ r c]
  rfl
theorem pl_v27 : pl (v27 (F := Ideal) x0) = sg (blkOut x0) 4 := by
  funext r c
  show FloatOps.logistic (shapeCast S352x352 (l0_4 x0) shapeCasts_S1x1x352x352_S352x352 (ix2 r c)) = _
  rw [show shapeCast S352x352 (l0_4 x0) shapeCasts_S1x1x352x352_S352x352 (ix2 r c) = x0 (ix4 0 4 r c) from ld8_plane x0 4 (by omega) _ _ r c]
  rfl
theorem pl_v89 : pl (v89 (F := Ideal) x0) = sg (blkOut x0) 1 := by
  funext r c
  show FloatOps.logistic (shapeCast S352x352 (l0_1 x0) shapeCasts_S1x1x352x352_S352x352 (ix2 r c)) = _
  rw [show shapeCast S352x352 (l0_1 x0) shapeCasts_S1x1x352x352_S352x352 (ix2 r c) = x0 (ix4 0 1 r c) from ld8_plane x0 1 (by omega) _ _ r c]
  rfl
theorem pl_v92 : pl (v92 (F := Ideal) x0) = sg (blkOut x0) 6 := by
  funext r c
  show FloatOps.logistic (shapeCast S352x352 (l0_6 x0) shapeCasts_S1x1x352x352_S352x352 (ix2 r c)) = _
  rw [show shapeCast S352x352 (l0_6 x0) shapeCasts_S1x1x352x352_S352x352 (ix2 r c) = x0 (ix4 0 6 r c) from ld8_plane x0 6 (by omega) _ _ r c]
  rfl
theorem pl_v159 : pl (v159 (F := Ideal) x0) = sg (blkOut x0) 2 := by
  funext r c
  show FloatOps.logistic (shapeCast S352x352 (l0_2 x0) shapeCasts_S1x1x352x352_S352x352 (ix2 r c)) = _
  rw [show shapeCast S352x352 (l0_2 x0) shapeCasts_S1x1x352x352_S352x352 (ix2 r c) = x0 (ix4 0 2 r c) from ld8_plane x0 2 (by omega) _ _ r c]
  rfl
theorem pl_v162 : pl (v162 (F := Ideal) x0) = sg (blkOut x0) 5 := by
  funext r c
  show FloatOps.logistic (shapeCast S352x352 (l0_5 x0) shapeCasts_S1x1x352x352_S352x352 (ix2 r c)) = _
  rw [show shapeCast S352x352 (l0_5 x0) shapeCasts_S1x1x352x352_S352x352 (ix2 r c) = x0 (ix4 0 5 r c) from ld8_plane x0 5 (by omega) _ _ r c]
  rfl
theorem pl_v235 : pl (v235 (F := Ideal) x0) = sg (blkOut x0) 0 := by
  funext r c
  show FloatOps.logistic (shapeCast S352x352 (l0_0 x0) shapeCasts_S1x1x352x352_S352x352 (ix2 r c)) = _
  rw [show shapeCast S352x352 (l0_0 x0) shapeCasts_S1x1x352x352_S352x352 (ix2 r c) = x0 (ix4 0 0 r c) from ld8_plane x0 0 (by omega) _ _ r c]
  rfl
theorem pl_v238 : pl (v238 (F := Ideal) x0) = sg (blkOut x0) 7 := by
  funext r c
  show FloatOps.logistic (shapeCast S352x352 (l0_7 x0) shapeCasts_S1x1x352x352_S352x352 (ix2 r c)) = _
  rw [show shapeCast S352x352 (l0_7 x0) shapeCasts_S1x1x352x352_S352x352 (ix2 r c) = x0 (ix4 0 7 r c) from ld8_plane x0 7 (by omega) _ _ r c]
  rfl

/-! ## The border masks -/

/-- A word comparison for equality is set exactly when the words are equal. -/
theorem ofBool_one_iff (b : Bool) : BitVec.ofBool b = 1#1 ↔ b = true := by cases b <;> decide

theorem cmpi_eq_one_iff {w : Nat} (a b : BitVec w) : IntOp.cmpi .eq a b = 1#1 ↔ a = b := by
  simp only [IntOp.cmpi, ofBool_one_iff, beq_iff_eq]

/-- A coordinate below 352, as a 32-bit word, is the word of a literal below 352 exactly when it is that literal. -/
theorem ofNat_eq_iff (n m : Nat) (hn : n < 352) (hm : m < 352) : BitVec.ofNat 32 n = BitVec.ofNat 32 m ↔ n = m := by
  constructor
  · intro h
    have := congrArg BitVec.toNat h
    simp only [BitVec.toNat_ofNat] at this
    omega
  · intro h; rw [h]

theorem v9_iff (r c : Fin 352) : v9 (ix2 r c) = 1#1 ↔ r.val = 0 := by
  show IntOp.cmpi .eq (iota .tc S352x352 32 [0] iota_S352x352_d0_w32 (ix2 r c)) (0#32) = 1#1 ↔ _
  rw [cmpi_eq_one_iff, iota_single_apply]
  exact ofNat_eq_iff r.val 0 r.isLt (by omega)
theorem v11_iff (r c : Fin 352) : v11 (ix2 r c) = 1#1 ↔ r.val = 351 := by
  show IntOp.cmpi .eq (iota .tc S352x352 32 [0] iota_S352x352_d0_w32 (ix2 r c)) (351#32) = 1#1 ↔ _
  rw [cmpi_eq_one_iff, iota_single_apply]
  exact ofNat_eq_iff r.val 351 r.isLt (by omega)
theorem v13_iff (r c : Fin 352) : v13 (ix2 r c) = 1#1 ↔ c.val = 0 := by
  show IntOp.cmpi .eq (iota .tc S352x352 32 [1] iota_S352x352_d1_w32 (ix2 r c)) (0#32) = 1#1 ↔ _
  rw [cmpi_eq_one_iff, iota_single_apply]
  exact ofNat_eq_iff c.val 0 c.isLt (by omega)
theorem v15_iff (r c : Fin 352) : v15 (ix2 r c) = 1#1 ↔ c.val = 351 := by
  show IntOp.cmpi .eq (iota .tc S352x352 32 [1] iota_S352x352_d1_w32 (ix2 r c)) (351#32) = 1#1 ↔ _
  rw [cmpi_eq_one_iff, iota_single_apply]
  exact ofNat_eq_iff c.val 351 c.isLt (by omega)

/-! ## A roll with the border zeroed is a shift with zero fill -/

variable (f : FVec Ideal S352x352 .f32)

theorem shiftR_eq : pl (select v13 (broadcast S352x352 (Scalar.ofBits (F := Ideal) .f32 0x00000000#32)) (dynamicRotate 1 1#32 none f rotates_S352x352_d1)) = sR (pl f) := by
  funext r c
  show Scalar.select (v13 (ix2 r c)) (Ideal.ofBits .f32 0x00000000#32) (dynamicRotate 1 1#32 none f rotates_S352x352_d1 (ix2 r c)) = sR (pl f) r c
  unfold sR
  by_cases hc : c.val = 0
  · rw [dif_pos hc, (v13_iff r c).mpr hc, select_one, Cert.Bicon.ofBits_zero]
  · have hm : v13 (ix2 r c) = 0#1 := eq_zero_of_ne_one (fun h => hc ((v13_iff r c).mp h))
    rw [dif_neg hc, hm, select_zero]
    have hlt := c.isLt
    refine dynamicRotate_apply 1 1#32 f rotates_S352x352_d1 (ix2 r c) (ix2 r ⟨c.val - 1, by omega⟩) ?_
    intro b
    match b with
    | ⟨0, _⟩ => rfl
    | ⟨1, _⟩ =>
      show c.val - 1 = (c.val + 352 - 1 % 352) % 352
      omega
theorem shiftL_eq : pl (select v15 (broadcast S352x352 (Scalar.ofBits (F := Ideal) .f32 0x00000000#32)) (dynamicRotate 1 351#32 none f rotates_S352x352_d1)) = sL (pl f) := by
  funext r c
  show Scalar.select (v15 (ix2 r c)) (Ideal.ofBits .f32 0x00000000#32) (dynamicRotate 1 351#32 none f rotates_S352x352_d1 (ix2 r c)) = sL (pl f) r c
  unfold sL
  by_cases hc : c.val = 351
  · rw [dif_pos hc, (v15_iff r c).mpr hc, select_one, Cert.Bicon.ofBits_zero]
  · have hm : v15 (ix2 r c) = 0#1 := eq_zero_of_ne_one (fun h => hc ((v15_iff r c).mp h))
    rw [dif_neg hc, hm, select_zero]
    have hlt := c.isLt
    refine dynamicRotate_apply 1 351#32 f rotates_S352x352_d1 (ix2 r c) (ix2 r ⟨c.val + 1, by omega⟩) ?_
    intro b
    match b with
    | ⟨0, _⟩ => rfl
    | ⟨1, _⟩ =>
      show c.val + 1 = (c.val + 352 - 351 % 352) % 352
      omega
theorem shiftD_eq : pl (select v9 (broadcast S352x352 (Scalar.ofBits (F := Ideal) .f32 0x00000000#32)) (dynamicRotate 0 1#32 none f rotates_S352x352_d0)) = sD (pl f) := by
  funext r c
  show Scalar.select (v9 (ix2 r c)) (Ideal.ofBits .f32 0x00000000#32) (dynamicRotate 0 1#32 none f rotates_S352x352_d0 (ix2 r c)) = sD (pl f) r c
  unfold sD
  by_cases hc : r.val = 0
  · rw [dif_pos hc, (v9_iff r c).mpr hc, select_one, Cert.Bicon.ofBits_zero]
  · have hm : v9 (ix2 r c) = 0#1 := eq_zero_of_ne_one (fun h => hc ((v9_iff r c).mp h))
    rw [dif_neg hc, hm, select_zero]
    have hlt := r.isLt
    refine dynamicRotate_apply 0 1#32 f rotates_S352x352_d0 (ix2 r c) (ix2 ⟨r.val - 1, by omega⟩ c) ?_
    intro b
    match b with
    | ⟨0, _⟩ =>
      show r.val - 1 = (r.val + 352 - 1 % 352) % 352
      omega
    | ⟨1, _⟩ => rfl
theorem shiftU_eq : pl (select v11 (broadcast S352x352 (Scalar.ofBits (F := Ideal) .f32 0x00000000#32)) (dynamicRotate 0 351#32 none f rotates_S352x352_d0)) = sU (pl f) := by
  funext r c
  show Scalar.select (v11 (ix2 r c)) (Ideal.ofBits .f32 0x00000000#32) (dynamicRotate 0 351#32 none f rotates_S352x352_d0 (ix2 r c)) = sU (pl f) r c
  unfold sU
  by_cases hc : r.val = 351
  · rw [dif_pos hc, (v11_iff r c).mpr hc, select_one, Cert.Bicon.ofBits_zero]
  · have hm : v11 (ix2 r c) = 0#1 := eq_zero_of_ne_one (fun h => hc ((v11_iff r c).mp h))
    rw [dif_neg hc, hm, select_zero]
    have hlt := r.isLt
    refine dynamicRotate_apply 0 351#32 f rotates_S352x352_d0 (ix2 r c) (ix2 ⟨r.val + 1, by omega⟩ c) ?_
    intro b
    match b with
    | ⟨0, _⟩ =>
      show r.val + 1 = (r.val + 352 - 351 % 352) % 352
      omega
    | ⟨1, _⟩ => rfl

/-! ## The body's reduction of a map to a scalar is the plane sum -/

theorem reduce_eq_planeSum :
    extractAt ![0, 0, 0] (shapeCast S1x1x1 (multiReduction .add [1, 2] S1 (shapeCast S1x352x352 f shapeCasts_S352x352_S1x352x352) 0x00000000#32 reduces_S1x352x352_S1 (.inl rfl) rfl) shapeCasts_S1_S1x1x1) inpos_S1x1x1_p0_0_0
      = planeSum (pl f) := by
  unfold extractAt
  refine (shapeCast_apply _ shapeCasts_S1_S1x1x1 _ (ix1 0) ?_).trans ?_
  · rw [Shape.rowMajor_val_one, Shape.rowMajor_val_three]
    rfl
  · refine (Ideal.multiReduction_add_total _ _ reduces_S1x352x352_S1 (fun b => ?_) _ _ _).trans ?_
    · match b with
      | ⟨0, _⟩ => rfl
    · rw [Cert.Bicon.sum_idx_1_352_352]
      unfold planeSum pl
      refine Finset.sum_congr rfl fun r _ => Finset.sum_congr rfl fun c _ => ?_
      refine shapeCast_apply f shapeCasts_S352x352_S1x352x352 (ix3 0 r c) (ix2 r c) ?_
      rw [Shape.rowMajor_val_two, Shape.rowMajor_val_three]
      show r.val * 352 + c.val = (0 * 352 + r.val) * 352 + c.val
      omega

/-! ## An accumulator update adds the scalar to every lane; the reset stores zeros -/

variable (s : FVec Ideal S1x1 .f32) (p : Vec Ideal S1x1x128 .f32) (l : Fin 128)

/-- A [1,1,128] accumulator viewed [1,128], with a [1,1] scalar laid along its lanes added, viewed [1,1,128] again. -/
theorem acc_add_apply (h1 : S1x1x128.ShapeCasts S1x128) (h2 : S1x128.ShapeCasts S1x1x128) (hb : S1x1.Broadcasts S1x128) :
    shapeCast S1x1x128 (addf (shapeCast S1x128 p h1) (broadcastTo S1x128 s hb)) h2 (ix3 0 0 l) = p (ix3 0 0 l) + s (ix2 0 0) := by
  refine (shapeCast_apply _ h2 (ix3 0 0 l) (ix2 0 l) ?_).trans ?_
  · rw [Shape.rowMajor_val_two, Shape.rowMajor_val_three]
    show 0 * 128 + l.val = (0 * 1 + 0) * 128 + l.val
    omega
  · show shapeCast S1x128 p h1 (ix2 0 l) + broadcastTo S1x128 s hb (ix2 0 l) = p (ix3 0 0 l) + s (ix2 0 0)
    have e1 : shapeCast S1x128 p h1 (ix2 0 l) = p (ix3 0 0 l) := by
      refine shapeCast_apply p h1 (ix2 0 l) (ix3 0 0 l) ?_
      rw [Shape.rowMajor_val_two, Shape.rowMajor_val_three]
      show (0 * 1 + 0) * 128 + l.val = 0 * 128 + l.val
      omega
    have e2 : broadcastTo S1x128 s hb (ix2 0 l) = s (ix2 0 0) := by
      refine broadcastTo_apply s hb (ix2 0 l) (ix2 0 0) ?_
      intro a
      match a with
      | ⟨0, _⟩ => rfl
      | ⟨1, _⟩ => rfl
    rw [e1, e2]

/-- A [1,128] vector of zeros viewed [1,1,128] is zero in every lane. -/
theorem acc_zero_apply (h2 : S1x128.ShapeCasts S1x1x128) :
    shapeCast S1x1x128 (broadcast S1x128 (Scalar.ofBits (F := Ideal) .f32 0x00000000#32)) h2 (ix3 0 0 l) = 0 := by
  refine (shapeCast_apply _ h2 (ix3 0 0 l) (ix2 0 l) ?_).trans ?_
  · rw [Shape.rowMajor_val_two, Shape.rowMajor_val_three]
    show 0 * 128 + l.val = (0 * 1 + 0) * 128 + l.val
    omega
  · exact Cert.Bicon.ofBits_zero

theorem pay77_apply : k0_pay77 s p (ix3 0 0 l) = p (ix3 0 0 l) + s (ix2 0 0) := acc_add_apply s p l _ _ _
theorem pay78_apply : k0_pay78 s p (ix3 0 0 l) = p (ix3 0 0 l) + s (ix2 0 0) := acc_add_apply s p l _ _ _
theorem pay79_apply : k0_pay79 s p (ix3 0 0 l) = p (ix3 0 0 l) + s (ix2 0 0) := acc_add_apply s p l _ _ _
theorem pay1_80_apply : k0_pay1 (k0_pay80 s p) (ix3 0 0 l) = p (ix3 0 0 l) + s (ix2 0 0) := acc_add_apply s p l _ _ _
theorem pay2_apply : k0_pay2 s p (ix3 0 0 l) = p (ix3 0 0 l) + s (ix2 0 0) := acc_add_apply s p l _ _ _
theorem pay3_apply : k0_pay3 s p (ix3 0 0 l) = p (ix3 0 0 l) + s (ix2 0 0) := acc_add_apply s p l _ _ _
theorem pay4_apply : k0_pay4 (F := Ideal) (ix3 0 0 l) = 0 := acc_zero_apply l _
theorem pay5_apply : k0_pay5 (F := Ideal) (ix3 0 0 l) = 0 := acc_zero_apply l _
theorem pay6_apply : k0_pay6 (F := Ideal) (ix3 0 0 l) = 0 := acc_zero_apply l _
theorem pay7_apply : k0_pay7 (F := Ideal) (ix3 0 0 l) = 0 := acc_zero_apply l _
theorem pay8_apply : k0_pay8 (F := Ideal) (ix3 0 0 l) = 0 := acc_zero_apply l _
theorem pay9_apply : k0_pay9 (F := Ideal) (ix3 0 0 l) = 0 := acc_zero_apply l _

/-! ## The cross-entropy term of a map against a label map, at an index -/

variable (pv tv : FVec Ideal S352x352 .f32) (jj : S352x352.Idx)

theorem bce_apply :
    log (select (cmpf .oge tv (broadcast S352x352 (Scalar.ofBits (F := Ideal) .f32 0x3F000000#32)))
        (minimumf (broadcast S352x352 (Scalar.ofBits (F := Ideal) .f32 0x3F800000#32)) (maximumf (broadcast S352x352 (Scalar.ofBits (F := Ideal) .f32 0x2B8CBCCC#32)) pv))
        (subf (broadcast S352x352 (Scalar.ofBits (F := Ideal) .f32 0x3F800000#32))
          (minimumf (broadcast S352x352 (Scalar.ofBits (F := Ideal) .f32 0x3F800000#32)) (maximumf (broadcast S352x352 (Scalar.ofBits (F := Ideal) .f32 0x2B8CBCCC#32)) pv)))) jj
      = bceK (pv jj) (tv jj) := by
  show Ideal.log (Scalar.select (BitVec.ofBool (decide (Ideal.ofBits .f32 0x3F000000#32 ≤ tv jj)))
      (min (Ideal.ofBits .f32 0x3F800000#32) (max (Ideal.ofBits .f32 0x2B8CBCCC#32) (pv jj)))
      (Ideal.ofBits .f32 0x3F800000#32 - min (Ideal.ofBits .f32 0x3F800000#32) (max (Ideal.ofBits .f32 0x2B8CBCCC#32) (pv jj))))
    = bceK (pv jj) (tv jj)
  unfold bceK clip
  rw [Cert.Bicon.ofBits_half, Cert.Bicon.ofBits_one]
  by_cases ht : (((1 / 2 : ℝ) : EReal)) ≤ tv jj
  · rw [if_pos ht, decide_eq_true ht]; rfl
  · rw [if_neg ht, decide_eq_false ht]; rfl

end Cert.KernelIdeal.Atoms

end
-- ==== Proof.KPair12.lean ====
/-
  The body's running maps after the channel pairs (3,4) and (1,6), at the ideal values: the partial sum of the
  connectivity labels, the partial sum of the sigmoids' cross-entropy terms, the partial sum and minimum of the votes,
  and the partial sum of the votes' cross-entropy terms.
-/
import proofs.«406890_j71588514889850_3_alg».proof.Proof.KAtoms

noncomputable section

open Idealize.ShloMosaic Idealize.ShloMosaic.TcCoe Idealize.ShloMosaic.ValueIdx Idealize.SL.Sem

namespace Cert.KernelIdeal.Maps

open Cert.KernelIdeal Cert.KernelIdeal.Gen Cert.KernelIdeal.Body Cert.Bicon

variable [Cert.KernelIdeal.Facts]
variable (x0 : Vec Ideal S1x8x352x352 .f32) (x1 : Vec Ideal S1x1x352x352 .i32) (x2 : Vec Ideal S1x8x352x352 .i32)

/-! ## The four votes of the two pairs, at an index

Each vote is a sigmoid plane times the opposite neighbour's sigmoid plane, the neighbour read by a roll with the
border column or row zeroed, which is the shift with zero fill. -/

private theorem vote1_apply (r c : Fin 352) :
    k0_pay21 v13 (v24 (F := Ideal) x0) (v27 x0) (ix2 r c) = a1 (blkOut x0) r c := by
  unfold a1
  rw [← Atoms.pl_v24 x0, ← Atoms.pl_v27 x0, ← Atoms.shiftR_eq (v27 x0)]
  rfl

private theorem vote2_apply (r c : Fin 352) :
    k0_pay22 v15 (v24 (F := Ideal) x0) (v27 x0) (ix2 r c) = a2 (blkOut x0) r c := by
  unfold a2
  rw [← Atoms.pl_v24 x0, ← Atoms.pl_v27 x0, ← Atoms.shiftL_eq (v24 x0)]
  rfl

private theorem vote3_apply (r c : Fin 352) :
    k0_pay37 v9 (v89 (F := Ideal) x0) (v92 x0) (ix2 r c) = a3 (blkOut x0) r c := by
  unfold a3
  rw [← Atoms.pl_v89 x0, ← Atoms.pl_v92 x0, ← Atoms.shiftD_eq (v92 x0)]
  rfl

private theorem vote4_apply (r c : Fin 352) :
    k0_pay38 v11 (v89 (F := Ideal) x0) (v92 x0) (ix2 r c) = a4 (blkOut x0) r c := by
  unfold a4
  rw [← Atoms.pl_v89 x0, ← Atoms.pl_v92 x0, ← Atoms.shiftU_eq (v89 x0)]
  rfl

/-! ## After the pair (3, 4) -/
theorem pl_v28 : pl (v28 (F := Ideal) x2) = cs1 (blkCon x2) := by
  funext r c
  unfold cs1
  rw [← Atoms.pl_v18 x2, ← Atoms.pl_v21 x2]
  rfl

theorem pl_v49 : pl (v49 (F := Ideal) x0 x2) = cm1 (blkOut x0) (blkCon x2) := by
  funext r c
  unfold cm1
  rw [← Atoms.pl_v24 x0, ← Atoms.pl_v27 x0, ← Atoms.pl_v18 x2, ← Atoms.pl_v21 x2]
  show _ = bceK (v24 x0 (ix2 r c)) (v18 x2 (ix2 r c)) + bceK (v27 x0 (ix2 r c)) (v21 x2 (ix2 r c))
  rw [← Atoms.bce_apply (v24 x0) (v18 x2) (ix2 r c), ← Atoms.bce_apply (v27 x0) (v21 x2) (ix2 r c)]
  rfl

theorem pl_v58 : pl (v58 (F := Ideal) x0) = vs1 (blkOut x0) := by
  funext r c
  unfold vs1
  rw [← vote1_apply x0 r c, ← vote2_apply x0 r c]
  rfl

theorem pl_v59 : pl (v59 (F := Ideal) x0) = vm1 (blkOut x0) := by
  funext r c
  unfold vm1
  rw [← vote1_apply x0 r c, ← vote2_apply x0 r c]
  rfl

theorem pl_v80 : pl (v80 (F := Ideal) x0 x2) = bm1 (blkOut x0) (blkCon x2) := by
  funext r c
  unfold bm1
  rw [← vote1_apply x0 r c, ← vote2_apply x0 r c, ← Atoms.pl_v18 x2, ← Atoms.pl_v21 x2]
  show _ = bceK (k0_pay21 v13 (v24 x0) (v27 x0) (ix2 r c)) (v18 x2 (ix2 r c))
    + bceK (k0_pay22 v15 (v24 x0) (v27 x0) (ix2 r c)) (v21 x2 (ix2 r c))
  rw [← Atoms.bce_apply (k0_pay21 v13 (v24 x0) (v27 x0)) (v18 x2) (ix2 r c),
    ← Atoms.bce_apply (k0_pay22 v15 (v24 x0) (v27 x0)) (v21 x2) (ix2 r c)]
  rfl

/-! ## After the pair (1, 6) -/
theorem pl_v94 : pl (v94 (F := Ideal) x2) = cs2 (blkCon x2) := by
  funext r c
  unfold cs2
  rw [← pl_v28 x2, ← Atoms.pl_v83 x2, ← Atoms.pl_v86 x2]
  rfl

theorem pl_v116 : pl (v116 (F := Ideal) x0 x2) = cm2 (blkOut x0) (blkCon x2) := by
  funext r c
  unfold cm2
  rw [← pl_v49 x0 x2, ← Atoms.pl_v89 x0, ← Atoms.pl_v92 x0, ← Atoms.pl_v83 x2, ← Atoms.pl_v86 x2]
  show _ = pl (v49 x0 x2) r c
    + (bceK (v89 x0 (ix2 r c)) (v83 x2 (ix2 r c)) + bceK (v92 x0 (ix2 r c)) (v86 x2 (ix2 r c)))
  rw [← Atoms.bce_apply (v89 x0) (v83 x2) (ix2 r c), ← Atoms.bce_apply (v92 x0) (v86 x2) (ix2 r c)]
  rfl

theorem pl_v126 : pl (v126 (F := Ideal) x0) = vs2 (blkOut x0) := by
  funext r c
  unfold vs2
  rw [← pl_v58 x0, ← vote3_apply x0 r c, ← vote4_apply x0 r c]
  rfl

theorem pl_v128 : pl (v128 (F := Ideal) x0) = vm2 (blkOut x0) := by
  funext r c
  unfold vm2
  rw [← pl_v59 x0, ← vote3_apply x0 r c, ← vote4_apply x0 r c]
  rfl

theorem pl_v150 : pl (v150 (F := Ideal) x0 x2) = bm2 (blkOut x0) (blkCon x2) := by
  funext r c
  unfold bm2
  rw [← pl_v80 x0 x2, ← vote3_apply x0 r c, ← vote4_apply x0 r c, ← Atoms.pl_v83 x2, ← Atoms.pl_v86 x2]
  show _ = pl (v80 x0 x2) r c
    + bceK (k0_pay37 v9 (v89 x0) (v92 x0) (ix2 r c)) (v83 x2 (ix2 r c))
    + bceK (k0_pay38 v11 (v89 x0) (v92 x0) (ix2 r c)) (v86 x2 (ix2 r c))
  rw [← Atoms.bce_apply (k0_pay37 v9 (v89 x0) (v92 x0)) (v83 x2) (ix2 r c),
    ← Atoms.bce_apply (k0_pay38 v11 (v89 x0) (v92 x0)) (v86 x2) (ix2 r c)]
  rfl

end Cert.KernelIdeal.Maps

end
-- ==== Proof.KPair34.lean ====
/-
  The body's running maps after the channel pairs (2,5) and (0,7), at the ideal values; after the last pair they are
  the sum of the connectivity labels, the sum of the sigmoids' cross-entropy terms, the sum and the minimum of the eight
  votes, and the sum of the votes' cross-entropy terms.

  These two pairs are the diagonal ones: a vote multiplies a channel's sigmoid by the opposite channel's sigmoid read at
  a diagonal neighbour, which the body obtains by two shifts with zero fill, one along the rows and one along the
  columns.  Each of the four diagonal votes is first identified with its double shift; the running maps then follow by
  adding the new terms to the maps carried over from the earlier pairs.
-/
import proofs.«406890_j71588514889850_3_alg».proof.Proof.KPair12

noncomputable section

open Idealize.ShloMosaic Idealize.ShloMosaic.TcCoe Idealize.ShloMosaic.ValueIdx Idealize.SL.Sem

namespace Cert.KernelIdeal.Maps

open Cert.KernelIdeal Cert.KernelIdeal.Gen Cert.KernelIdeal.Body Cert.Bicon

variable [Cert.KernelIdeal.Facts]
variable (x0 : Vec Ideal S1x8x352x352 .f32) (x1 : Vec Ideal S1x1x352x352 .i32) (x2 : Vec Ideal S1x8x352x352 .i32)

/-! ## The four diagonal votes as the body forms them -/

/-- Channel 2's sigmoid times channel 5's sigmoid shifted down, then left. -/
private abbrev p5 : FVec Ideal S352x352 .f32 :=
  k0_pay50 v9 v15 (v159 (F := Ideal) x0) (v187 (F := Ideal) x0) (v188 (F := Ideal))
/-- Channel 5's sigmoid times channel 2's sigmoid shifted up, then right. -/
private abbrev p6 : FVec Ideal S352x352 .f32 :=
  k0_pay51 v11 v13 (v159 (F := Ideal) x0) (v162 (F := Ideal) x0)
/-- Channel 0's sigmoid times channel 7's sigmoid shifted down, then right. -/
private abbrev p7 : FVec Ideal S352x352 .f32 :=
  k0_pay62 v13 (v235 (F := Ideal) x0) (v266 (F := Ideal) x0) (Scalar.ofBits (F := Ideal) .f32 0x00000000#32)
/-- Channel 7's sigmoid times channel 0's sigmoid shifted up, then left. -/
private abbrev p8 : FVec Ideal S352x352 .f32 :=
  k0_pay63 v11 v15 (v235 (F := Ideal) x0) (v238 (F := Ideal) x0)

/-- The vote a5: the inner shift is the one down (a roll along the rows with the first row zeroed), the outer the one
    to the left (a roll along the columns with the last column zeroed). -/
private theorem pl_p5 : pl (p5 x0) = a5 (blkOut x0) := by
  have e1 : pl (select v9 (v188 (F := Ideal)) (v187 (F := Ideal) x0)) = sD (sg (blkOut x0) 5) :=
    (Atoms.shiftD_eq (v162 (F := Ideal) x0)).trans (congrArg sD (Atoms.pl_v162 x0))
  have e2 : pl (select v15 (broadcast S352x352 (Scalar.ofBits (F := Ideal) .f32 0x00000000#32))
      (dynamicRotate 1 351#32 none (select v9 (v188 (F := Ideal)) (v187 (F := Ideal) x0)) rotates_S352x352_d1))
      = sL (sD (sg (blkOut x0) 5)) :=
    (Atoms.shiftL_eq _).trans (congrArg sL e1)
  funext r c
  exact congrArg₂ (· * ·) (congrFun (congrFun (Atoms.pl_v159 x0) r) c) (congrFun (congrFun e2 r) c)

/-- The vote a6: inner shift up, outer shift right. -/
private theorem pl_p6 : pl (p6 x0) = a6 (blkOut x0) := by
  have e1 : pl (select v11 (broadcast S352x352 (Scalar.ofBits (F := Ideal) .f32 0x00000000#32))
      (dynamicRotate 0 351#32 none (v159 (F := Ideal) x0) rotates_S352x352_d0)) = sU (sg (blkOut x0) 2) :=
    (Atoms.shiftU_eq (v159 (F := Ideal) x0)).trans (congrArg sU (Atoms.pl_v159 x0))
  have e2 : pl (select v13 (broadcast S352x352 (Scalar.ofBits (F := Ideal) .f32 0x00000000#32))
      (dynamicRotate 1 1#32 none (select v11 (broadcast S352x352 (Scalar.ofBits (F := Ideal) .f32 0x00000000#32))
        (dynamicRotate 0 351#32 none (v159 (F := Ideal) x0) rotates_S352x352_d0)) rotates_S352x352_d1))
      = sR (sU (sg (blkOut x0) 2)) :=
    (Atoms.shiftR_eq _).trans (congrArg sR e1)
  funext r c
  exact congrArg₂ (· * ·) (congrFun (congrFun (Atoms.pl_v162 x0) r) c) (congrFun (congrFun e2 r) c)

/-- The vote a7: inner shift down, outer shift right. -/
private theorem pl_p7 : pl (p7 x0) = a7 (blkOut x0) := by
  have e1 : pl (select v9 (broadcast S352x352 (Scalar.ofBits (F := Ideal) .f32 0x00000000#32))
      (dynamicRotate 0 1#32 none (v238 (F := Ideal) x0) rotates_S352x352_d0)) = sD (sg (blkOut x0) 7) :=
    (Atoms.shiftD_eq (v238 (F := Ideal) x0)).trans (congrArg sD (Atoms.pl_v238 x0))
  have e2 : pl (select v13 (broadcast S352x352 (Scalar.ofBits (F := Ideal) .f32 0x00000000#32)) (v266 (F := Ideal) x0))
      = sR (sD (sg (blkOut x0) 7)) :=
    (Atoms.shiftR_eq _).trans (congrArg sR e1)
  funext r c
  exact congrArg₂ (· * ·) (congrFun (congrFun (Atoms.pl_v235 x0) r) c) (congrFun (congrFun e2 r) c)

/-- The vote a8: inner shift up, outer shift left. -/
private theorem pl_p8 : pl (p8 x0) = a8 (blkOut x0) := by
  have e1 : pl (select v11 (broadcast S352x352 (Scalar.ofBits (F := Ideal) .f32 0x00000000#32))
      (dynamicRotate 0 351#32 none (v235 (F := Ideal) x0) rotates_S352x352_d0)) = sU (sg (blkOut x0) 0) :=
    (Atoms.shiftU_eq (v235 (F := Ideal) x0)).trans (congrArg sU (Atoms.pl_v235 x0))
  have e2 : pl (select v15 (broadcast S352x352 (Scalar.ofBits (F := Ideal) .f32 0x00000000#32))
      (dynamicRotate 1 351#32 none (select v11 (broadcast S352x352 (Scalar.ofBits (F := Ideal) .f32 0x00000000#32))
        (dynamicRotate 0 351#32 none (v235 (F := Ideal) x0) rotates_S352x352_d0)) rotates_S352x352_d1))
      = sL (sU (sg (blkOut x0) 0)) :=
    (Atoms.shiftL_eq _).trans (congrArg sL e1)
  funext r c
  exact congrArg₂ (· * ·) (congrFun (congrFun (Atoms.pl_v238 x0) r) c) (congrFun (congrFun e2 r) c)

/-! ## After the pair (2, 5) -/

/-- The label sum gains the labels of channels 2 and 5. -/
theorem pl_v164 : pl (v164 (F := Ideal) x2) = cs3 (blkCon x2) := by
  funext r c
  exact congrArg₂ (· + ·)
    (congrArg₂ (· + ·) (congrFun (congrFun (pl_v94 x2) r) c) (congrFun (congrFun (Atoms.pl_v153 x2) r) c))
    (congrFun (congrFun (Atoms.pl_v156 x2) r) c)

/-- The sigmoids' cross-entropy sum gains the terms of channels 2 and 5. -/
theorem pl_v186 : pl (v186 (F := Ideal) x0 x2) = cm3 (blkOut x0) (blkCon x2) := by
  funext r c
  have b2 := (Atoms.bce_apply (v159 (F := Ideal) x0) (v153 (F := Ideal) x2) (ix2 r c)).trans
    (congrArg₂ bceK (congrFun (congrFun (Atoms.pl_v159 x0) r) c) (congrFun (congrFun (Atoms.pl_v153 x2) r) c))
  have b5 := (Atoms.bce_apply (v162 (F := Ideal) x0) (v156 (F := Ideal) x2) (ix2 r c)).trans
    (congrArg₂ bceK (congrFun (congrFun (Atoms.pl_v162 x0) r) c) (congrFun (congrFun (Atoms.pl_v156 x2) r) c))
  exact congrArg₂ (· + ·) (congrFun (congrFun (pl_v116 x0 x2) r) c) (congrArg₂ (· + ·) b2 b5)

/-- The vote sum gains a5 and a6. -/
theorem pl_v202 : pl (v202 (F := Ideal) x0) = vs3 (blkOut x0) := by
  funext r c
  exact congrArg₂ (· + ·)
    (congrArg₂ (· + ·) (congrFun (congrFun (pl_v126 x0) r) c) (congrFun (congrFun (pl_p5 x0) r) c))
    (congrFun (congrFun (pl_p6 x0) r) c)

/-- The vote minimum takes in a5 and a6. -/
theorem pl_v204 : pl (v204 (F := Ideal) x0) = vm3 (blkOut x0) := by
  funext r c
  exact congrArg₂ min (congrFun (congrFun (pl_v128 x0) r) c)
    (congrArg₂ min (congrFun (congrFun (pl_p5 x0) r) c) (congrFun (congrFun (pl_p6 x0) r) c))

/-- The votes' cross-entropy sum gains the terms of a5 against label 2 and a6 against label 5. -/
theorem pl_v226 : pl (v226 (F := Ideal) x0 x2) = bm3 (blkOut x0) (blkCon x2) := by
  funext r c
  have b5 := (Atoms.bce_apply (p5 x0) (v153 (F := Ideal) x2) (ix2 r c)).trans
    (congrArg₂ bceK (congrFun (congrFun (pl_p5 x0) r) c) (congrFun (congrFun (Atoms.pl_v153 x2) r) c))
  have b6 := (Atoms.bce_apply (p6 x0) (v156 (F := Ideal) x2) (ix2 r c)).trans
    (congrArg₂ bceK (congrFun (congrFun (pl_p6 x0) r) c) (congrFun (congrFun (Atoms.pl_v156 x2) r) c))
  exact congrArg₂ (· + ·) (congrArg₂ (· + ·) (congrFun (congrFun (pl_v150 x0 x2) r) c) b5) b6

/-! ## After the pair (0, 7) -/

/-- The label sum gains the labels of channels 0 and 7 and is complete. -/
theorem pl_v240 : pl (v240 (F := Ideal) x2) = sumConn (blkCon x2) := by
  funext r c
  exact congrArg₂ (· + ·)
    (congrArg₂ (· + ·) (congrFun (congrFun (pl_v164 x2) r) c) (congrFun (congrFun (Atoms.pl_v229 x2) r) c))
    (congrFun (congrFun (Atoms.pl_v232 x2) r) c)

/-- The sigmoids' cross-entropy sum gains the terms of channels 0 and 7. -/
theorem pl_v262 : pl (v262 (F := Ideal) x0 x2) = cm4 (blkOut x0) (blkCon x2) := by
  funext r c
  have b0 := (Atoms.bce_apply (v235 (F := Ideal) x0) (v229 (F := Ideal) x2) (ix2 r c)).trans
    (congrArg₂ bceK (congrFun (congrFun (Atoms.pl_v235 x0) r) c) (congrFun (congrFun (Atoms.pl_v229 x2) r) c))
  have b7 := (Atoms.bce_apply (v238 (F := Ideal) x0) (v232 (F := Ideal) x2) (ix2 r c)).trans
    (congrArg₂ bceK (congrFun (congrFun (Atoms.pl_v238 x0) r) c) (congrFun (congrFun (Atoms.pl_v232 x2) r) c))
  exact congrArg₂ (· + ·) (congrFun (congrFun (pl_v186 x0 x2) r) c) (congrArg₂ (· + ·) b0 b7)

/-- The vote sum gains a7 and a8 and is complete. -/
theorem pl_v278 : pl (v278 (F := Ideal) x0) = vsum (blkOut x0) := by
  funext r c
  exact congrArg₂ (· + ·)
    (congrArg₂ (· + ·) (congrFun (congrFun (pl_v202 x0) r) c) (congrFun (congrFun (pl_p7 x0) r) c))
    (congrFun (congrFun (pl_p8 x0) r) c)

/-- The vote minimum takes in a7 and a8 and is complete. -/
theorem pl_v280 : pl (v280 (F := Ideal) x0) = vmin (blkOut x0) := by
  funext r c
  exact congrArg₂ min (congrFun (congrFun (pl_v204 x0) r) c)
    (congrArg₂ min (congrFun (congrFun (pl_p7 x0) r) c) (congrFun (congrFun (pl_p8 x0) r) c))

/-- The votes' cross-entropy sum gains the terms of a7 against label 0 and a8 against label 7 and is complete. -/
theorem pl_v302 : pl (v302 (F := Ideal) x0 x2) = bimT (blkOut x0) (blkCon x2) := by
  funext r c
  have b7 := (Atoms.bce_apply (p7 x0) (v229 (F := Ideal) x2) (ix2 r c)).trans
    (congrArg₂ bceK (congrFun (congrFun (pl_p7 x0) r) c) (congrFun (congrFun (Atoms.pl_v229 x2) r) c))
  have b8 := (Atoms.bce_apply (p8 x0) (v232 (F := Ideal) x2) (ix2 r c)).trans
    (congrArg₂ bceK (congrFun (congrFun (pl_p8 x0) r) c) (congrFun (congrFun (Atoms.pl_v232 x2) r) c))
  exact congrArg₂ (· + ·) (congrArg₂ (· + ·) (congrFun (congrFun (pl_v226 x0 x2) r) c) b7) b8

end Cert.KernelIdeal.Maps

end
-- ==== Proof.KSums.lean ====
/-
  The six scalars the body adds to its accumulators at a grid point, at the ideal values: the plane sums of the
  decoupled map's cross-entropy terms, of the votes' and of the sigmoids' cross-entropy terms, of the mean vote, of the
  labels, and of the mean vote times the labels, each of the point's three blocks.
-/
import proofs.«406890_j71588514889850_3_alg».proof.Proof.KPair34

noncomputable section

open Idealize.ShloMosaic Idealize.ShloMosaic.TcCoe Idealize.ShloMosaic.ValueIdx Idealize.SL.Sem

namespace Cert.KernelIdeal.Sums

open Cert.Bicon

/-! ## Scalar steps: a comparison used as a switch, the edge indicator, the decoupled map at a pixel -/

/-- A one-bit comparison result is one exactly when the comparison holds. -/
theorem ofBool_one_iff (b : Bool) : BitVec.ofBool b = 1#1 ↔ b = true := by cases b <;> decide

/-- Switching on "less than". -/
theorem sel_olt (x y a b : EReal) : Scalar.select (Ideal.cmp .olt x y) a b = if x < y then a else b := by
  show (if BitVec.ofBool (decide (x < y)) = 1#1 then a else b) = _
  by_cases h : x < y
  · rw [if_pos h, if_pos ((ofBool_one_iff _).2 (decide_eq_true h))]
  · rw [if_neg h, if_neg (fun e => h (of_decide_eq_true ((ofBool_one_iff _).1 e)))]

/-- Switching on "greater than". -/
theorem sel_ogt (x y a b : EReal) : Scalar.select (Ideal.cmp .ogt x y) a b = if y < x then a else b := by
  show (if BitVec.ofBool (decide (y < x)) = 1#1 then a else b) = _
  by_cases h : y < x
  · rw [if_pos h, if_pos ((ofBool_one_iff _).2 (decide_eq_true h))]
  · rw [if_neg h, if_neg (fun e => h (of_decide_eq_true ((ofBool_one_iff _).1 e)))]

/-- The edge indicator of a pixel from the sum `s` of its eight connectivity labels. -/
def edgeOf (s : EReal) : EReal := (if s < (((8 : ℝ) : EReal)) then 1 else 0) * (if 0 < s then 1 else 0)

/-- The product of the two switches, with the literals read as 8, 1 and 0, is the edge indicator. -/
theorem edge_step (s : EReal) :
    Scalar.select (Ideal.cmp .olt s (Ideal.ofBits .f32 0x41000000#32)) (Ideal.ofBits .f32 0x3F800000#32) (Ideal.ofBits .f32 0x00000000#32)
        * Scalar.select (Ideal.cmp .ogt s (Ideal.ofBits .f32 0x00000000#32)) (Ideal.ofBits .f32 0x3F800000#32) (Ideal.ofBits .f32 0x00000000#32)
      = edgeOf s := by
  rw [sel_olt, sel_ogt, ofBits_eight, ofBits_one, ofBits_zero]; rfl

/-- The mean vote at a pixel from the vote sum. -/
theorem glo_step (vs : EReal) : vs * Ideal.ofBits .f32 0x3E000000#32 = vs * (((1 / 8 : ℝ) : EReal)) := by
  rw [ofBits_eighth]

/-- The decoupled map at a pixel from the label sum `s`, the vote sum `vs` and the least vote `vm`. -/
theorem dmap_step (s vs vm : EReal) :
    vs * Ideal.ofBits .f32 0x3E000000#32
          * (Ideal.ofBits .f32 0x3F800000#32
              - Scalar.select (Ideal.cmp .olt s (Ideal.ofBits .f32 0x41000000#32)) (Ideal.ofBits .f32 0x3F800000#32) (Ideal.ofBits .f32 0x00000000#32)
                * Scalar.select (Ideal.cmp .ogt s (Ideal.ofBits .f32 0x00000000#32)) (Ideal.ofBits .f32 0x3F800000#32) (Ideal.ofBits .f32 0x00000000#32))
        + (Ideal.ofBits .f32 0x3F800000#32 - vm)
          * (Scalar.select (Ideal.cmp .olt s (Ideal.ofBits .f32 0x41000000#32)) (Ideal.ofBits .f32 0x3F800000#32) (Ideal.ofBits .f32 0x00000000#32)
              * Scalar.select (Ideal.cmp .ogt s (Ideal.ofBits .f32 0x00000000#32)) (Ideal.ofBits .f32 0x3F800000#32) (Ideal.ofBits .f32 0x00000000#32))
      = vs * (((1 / 8 : ℝ) : EReal)) * (1 - edgeOf s) + (1 - vm) * edgeOf s := by
  rw [edge_step, glo_step, ofBits_one]

end Cert.KernelIdeal.Sums

namespace Cert.KernelIdeal.Maps

open Cert.KernelIdeal Cert.KernelIdeal.Gen Cert.KernelIdeal.Body Cert.Bicon Cert.KernelIdeal.Sums

variable [Cert.KernelIdeal.Facts]

/-! ## The body's last steps over arbitrary maps -/

section Generic

variable (f g vs vm s tv pv : FVec Ideal S352x352 .f32) (q : IVec S352x352 1) (k : Ideal .f32) (jj : S352x352.Idx) (j : S1x1.Idx)

/-- The reduction of a map to a scalar, spread over a [1,1] vector, is the plane sum at its one index. -/
theorem bcast_reduce :
    broadcast S1x1 (extractAt ![0, 0, 0] (shapeCast S1x1x1 (multiReduction .add [1, 2] S1 (shapeCast S1x352x352 f shapeCasts_S352x352_S1x352x352) 0x00000000#32 reduces_S1x352x352_S1 (.inl rfl) rfl) shapeCasts_S1_S1x1x1) inpos_S1x1x1_p0_0_0) j = planeSum (pl f) :=
  (broadcast_apply _ j).trans (Atoms.reduce_eq_planeSum f)

theorem pay67_apply : k0_pay67 s jj
    = Scalar.select (Ideal.cmp .olt (s jj) (Ideal.ofBits .f32 0x41000000#32)) (Ideal.ofBits .f32 0x3F800000#32) (Ideal.ofBits .f32 0x00000000#32) := rfl
theorem pay68_apply : k0_pay68 s jj = Ideal.cmp .ogt (s jj) (Ideal.ofBits .f32 0x00000000#32) := rfl
theorem pay69_apply : k0_pay69 vs jj = vs jj * Ideal.ofBits .f32 0x3E000000#32 := rfl

/-- The decoupled map as the body builds it from the vote sum, the least vote and the two factors of the edge indicator. -/
def dvec : FVec Ideal S352x352 .f32 :=
  addf (mulf (k0_pay69 vs) (subf (broadcast S352x352 (Scalar.ofBits (F := Ideal) .f32 0x3F800000#32)) (mulf f (select q (broadcast S352x352 k) (broadcast S352x352 (Scalar.ofBits (F := Ideal) .f32 0x00000000#32))))))
    (mulf (subf (broadcast S352x352 (Scalar.ofBits (F := Ideal) .f32 0x3F800000#32)) vm) (mulf f (select q (broadcast S352x352 k) (broadcast S352x352 (Scalar.ofBits (F := Ideal) .f32 0x00000000#32)))))

/-- The cross-entropy terms of a map against a label map as the body builds them. -/
def bvec : FVec Ideal S352x352 .f32 :=
  log (select (cmpf .oge tv (broadcast S352x352 (Scalar.ofBits (F := Ideal) .f32 0x3F000000#32)))
        (minimumf (broadcast S352x352 (Scalar.ofBits (F := Ideal) .f32 0x3F800000#32)) (maximumf (broadcast S352x352 (Scalar.ofBits (F := Ideal) .f32 0x2B8CBCCC#32)) pv))
        (subf (broadcast S352x352 (Scalar.ofBits (F := Ideal) .f32 0x3F800000#32))
          (minimumf (broadcast S352x352 (Scalar.ofBits (F := Ideal) .f32 0x3F800000#32)) (maximumf (broadcast S352x352 (Scalar.ofBits (F := Ideal) .f32 0x2B8CBCCC#32)) pv))))

theorem bvec_apply : bvec tv pv jj = bceK (pv jj) (tv jj) := Atoms.bce_apply pv tv jj

theorem dvec_apply :
    dvec (k0_pay67 s) vs vm (k0_pay68 s) (Scalar.ofBits (F := Ideal) .f32 0x3F800000#32) jj
      = vs jj * (((1 / 8 : ℝ) : EReal)) * (1 - edgeOf (s jj)) + (1 - vm jj) * edgeOf (s jj) :=
  dmap_step (s jj) (vs jj) (vm jj)

theorem pay70_eq : k0_pay70 tv vs vm f q k j = planeSum (pl (bvec tv (dvec f vs vm q k))) :=
  bcast_reduce (bvec tv (dvec f vs vm q k)) j
theorem pay71_eq : k0_pay71 f j = planeSum (pl f) := bcast_reduce f j
theorem pay72_eq : k0_pay72 f j = planeSum (pl f) := bcast_reduce f j
theorem pay73_eq : k0_pay73 f j = planeSum (pl (k0_pay69 f)) := bcast_reduce (k0_pay69 f) j
theorem pay75_74_eq : k0_pay75 (k0_pay74 f) j = planeSum (pl f) :=
  (broadcast_apply (k0_pay74 f) j).trans (Atoms.reduce_eq_planeSum f)
theorem pay76_eq : k0_pay76 f g j = planeSum (pl (mulf g f)) := bcast_reduce (mulf g f) j

end Generic

variable (x0 : Vec Ideal S1x8x352x352 .f32) (x1 : Vec Ideal S1x1x352x352 .i32) (x2 : Vec Ideal S1x8x352x352 .i32)

/-! ## The maps under the six reductions, as planes -/

/-- The mean vote. -/
theorem pl_v315 : pl (v315 (F := Ideal) x0) = glo (blkOut x0) := by
  funext r c
  show v278 x0 (ix2 r c) * Ideal.ofBits .f32 0x3E000000#32 = vsum (blkOut x0) r c * (((1 / 8 : ℝ) : EReal))
  rw [glo_step]
  exact congrArg (· * (((1 / 8 : ℝ) : EReal))) (congrFun (congrFun (pl_v278 x0) r) c)

/-- The mean vote times the label. -/
theorem pl_v358 : pl (mulf (v315 (F := Ideal) x0) (v5 (F := Ideal) x1)) = interT (blkOut x0) (blkTgt x1) := by
  funext r c
  show pl (v315 x0) r c * pl (v5 x1) r c = glo (blkOut x0) r c * blkTgt x1 r c
  rw [pl_v315, Atoms.pl_v5]

/-- The running sum of the sigmoids' cross-entropy terms after the last pair is their sum in the order of the spec. -/
theorem cm4_eq_cmapT (X C : Slab) : cm4 X C = cmapT X C := by
  funext r c
  simp only [cm4, cm3, cm2, cm1, cmapT, add_assoc]

/-- The decoupled map. -/
theorem pl_dvec :
    pl (dvec (v307 (F := Ideal) x2) (v278 (F := Ideal) x0) (v280 (F := Ideal) x0) (v309 (F := Ideal) x2) (Scalar.ofBits (F := Ideal) .f32 0x3F800000#32))
      = dmap (blkOut x0) (blkCon x2) := by
  funext r c
  refine (dvec_apply (v278 x0) (v280 x0) (v240 x2) (ix2 r c)).trans ?_
  show pl (v278 x0) r c * (((1 / 8 : ℝ) : EReal)) * (1 - edgeOf (pl (v240 x2) r c)) + (1 - pl (v280 x0) r c) * edgeOf (pl (v240 x2) r c) = _
  rw [pl_v278, pl_v280, pl_v240]
  rfl

/-- The decoupled map's cross-entropy terms against the label plane. -/
theorem pl_bvec :
    pl (bvec (v5 (F := Ideal) x1) (dvec (v307 (F := Ideal) x2) (v278 (F := Ideal) x0) (v280 (F := Ideal) x0) (v309 (F := Ideal) x2) (Scalar.ofBits (F := Ideal) .f32 0x3F800000#32)))
      = decT (blkOut x0) (blkCon x2) (blkTgt x1) := by
  funext r c
  refine (bvec_apply _ _ (ix2 r c)).trans ?_
  show bceK (pl (dvec (v307 x2) (v278 x0) (v280 x0) (v309 x2) (Scalar.ofBits (F := Ideal) .f32 0x3F800000#32)) r c) (pl (v5 x1) r c) = _
  rw [pl_dvec, Atoms.pl_v5]
  rfl

variable (j : S1x1.Idx)

theorem v337_eq : v337 (F := Ideal) x0 x1 x2 j = planeSum (decT (blkOut x0) (blkCon x2) (blkTgt x1)) := by
  refine (pay70_eq (v307 x2) (v278 x0) (v280 x0) (v5 x1) (v309 x2) (Scalar.ofBits (F := Ideal) .f32 0x3F800000#32) j).trans ?_
  exact congrArg planeSum (pl_bvec x0 x1 x2)
theorem v342_eq : v342 (F := Ideal) x0 x2 j = planeSum (bimT (blkOut x0) (blkCon x2)) := by
  refine (pay71_eq (v302 x0 x2) j).trans ?_
  exact congrArg planeSum (pl_v302 x0 x2)
theorem v347_eq : v347 (F := Ideal) x0 x2 j = planeSum (cmapT (blkOut x0) (blkCon x2)) := by
  refine (pay72_eq (v262 x0 x2) j).trans ?_
  exact congrArg planeSum ((pl_v262 x0 x2).trans (cm4_eq_cmapT _ _))
theorem v352_eq : v352 (F := Ideal) x0 j = planeSum (glo (blkOut x0)) := by
  refine (pay73_eq (v278 x0) j).trans ?_
  exact congrArg planeSum (pl_v315 x0)
theorem v357_eq : v357 (F := Ideal) x1 j = planeSum (blkTgt x1) := by
  refine (pay75_74_eq (v5 x1) j).trans ?_
  exact congrArg planeSum (Atoms.pl_v5 x1)
theorem v363_eq : v363 (F := Ideal) x0 x1 j = planeSum (interT (blkOut x0) (blkTgt x1)) := by
  refine (pay76_eq (v5 x1) (v315 x0) j).trans ?_
  exact congrArg planeSum (pl_v358 x0 x1)

end Cert.KernelIdeal.Maps

end
-- ==== Proof.KPieces.lean ====
/-
  What one grid point leaves in a lane of each of the six accumulators, at the ideal values: the lane's previous value
  (zero at a point that starts a half of the batch) plus the plane sum of the point's map.
-/
import proofs.«406890_j71588514889850_3_alg».proof.Proof.Gen.KernelIdeal.Frame
import proofs.«406890_j71588514889850_3_alg».proof.Proof.KSums
import Idealize.ShloMosaic.Lib.Pipeline.Value
import Idealize.ShloMosaic.Lib.Tactic

noncomputable section

open Idealize.ShloMosaic Idealize.ShloMosaic.TcCoe Idealize.ShloMosaic.ValueIdx Idealize.SL.Sem

namespace Cert.KernelIdeal.Pieces

open Cert.KernelIdeal Cert.KernelIdeal.Gen Cert.KernelIdeal.Body Cert.Bicon

/-! ## The accumulator blocks as values, for any float values

Each accumulator is stored once at the end of the body, through its whole block, so what the block ends holding is that
store's value: the update (shape the accumulator to a row, add the point's scalar to every lane, shape it back) applied
to the point's scalar and to what the accumulator held.  At a point that does not start a half that is the accumulator's
previous contents; at a point that starts a half it is the block of zeros the body has just stored there and reads back.
The point's scalar is the body's value of that name, a function of the point's three blocks alone. -/

section Generic
variable {F : FTy → Type} [FloatOps F]
variable (c : Dev nD) (i : grid0.Coords) (arg2 : Memref sig .tc .vmem S1x8x352x352 .f32) (harg2 : arg2.IsWhole) (arg3 : Memref sig .tc .vmem S1x1x352x352 .i32) (harg3 : arg3.IsWhole) (arg4 : Memref sig .tc .vmem S1x8x352x352 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole)
variable (x0 : Vec F S1x8x352x352 .f32) (x1 : Vec F S1x1x352x352 .i32) (x2 : Vec F S1x8x352x352 .i32)
variable (p3 p4 p5 p6 p7 p8 : Vec F S1x1x128 .f32)

/-- The zero offsets of a whole [1,1,128] block. -/
theorem hz3 : (![0, 0, 0] : Fin 3 → Nat) = fun _ => 0 := funext fun a => by fin_cases a <;> rfl

/-- Not at the start of a half, the accumulator of the decoupled map's logarithms ends at its update by the point's plane sum. -/
theorem outB_3_eq (hc0 : ¬cond0_0 i) :
    out0_B_3 c i arg2 harg2 arg3 harg3 arg4 harg4 arg5 harg5 arg6 harg6 arg7 harg7 arg8 harg8 arg9 harg9 arg10 harg10 hc0 x0 x1 x2 p3 p4 p5 p6 p7 p8 = k0_pay77 (v337 x0 x1 x2) p3 := by
  unfold out0_B_3
  rw [View.read_writes_eq_canon _ _ _ (cover0_B_3 c i arg2 harg2 arg3 harg3 arg4 harg4 arg5 harg5 arg6 harg6 arg7 harg7 arg8 harg8 arg9 harg9 arg10 harg10 hc0 x0 x1 x2 p3 p4 p5 p6 p7 p8)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread]
  rw [View.ld_unit_zero (S := S1x1x128) hz3]
  rfl

/-- Not at the start of a half, the accumulator of the votes' logarithms ends at its update by the point's plane sum. -/
theorem outB_4_eq (hc0 : ¬cond0_0 i) :
    out0_B_4 c i arg2 harg2 arg3 harg3 arg4 harg4 arg5 harg5 arg6 harg6 arg7 harg7 arg8 harg8 arg9 harg9 arg10 harg10 hc0 x0 x1 x2 p3 p4 p5 p6 p7 p8 = k0_pay78 (v342 x0 x2) p4 := by
  unfold out0_B_4
  rw [View.read_writes_eq_canon _ _ _ (cover0_B_4 c i arg2 harg2 arg3 harg3 arg4 harg4 arg5 harg5 arg6 harg6 arg7 harg7 arg8 harg8 arg9 harg9 arg10 harg10 hc0 x0 x1 x2 p3 p4 p5 p6 p7 p8)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread]
  rw [View.ld_unit_zero (S := S1x1x128) hz3]
  rfl

/-- Not at the start of a half, the accumulator of the sigmoids' logarithms ends at its update by the point's plane sum. -/
theorem outB_5_eq (hc0 : ¬cond0_0 i) :
    out0_B_5 c i arg2 harg2 arg3 harg3 arg4 harg4 arg5 harg5 arg6 harg6 arg7 harg7 arg8 harg8 arg9 harg9 arg10 harg10 hc0 x0 x1 x2 p3 p4 p5 p6 p7 p8 = k0_pay79 (v347 x0 x2) p5 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 p3 p4 p5 p6 p7 p8)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread]
  rw [View.ld_unit_zero (S := S1x1x128) hz3]
  rfl

/-- Not at the start of a half, the accumulator of the mean vote ends at its update by the point's plane sum. -/
theorem outB_6_eq (hc0 : ¬cond0_0 i) :
    out0_B_6 c i arg2 harg2 arg3 harg3 arg4 harg4 arg5 harg5 arg6 harg6 arg7 harg7 arg8 harg8 arg9 harg9 arg10 harg10 hc0 x0 x1 x2 p3 p4 p5 p6 p7 p8 = k0_pay1 (k0_pay80 (v352 x0) p6) := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 p3 p4 p5 p6 p7 p8)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread]
  rw [View.ld_unit_zero (S := S1x1x128) hz3]
  rfl

/-- Not at the start of a half, the accumulator of the labels ends at its update by the point's plane sum. -/
theorem outB_7_eq (hc0 : ¬cond0_0 i) :
    out0_B_7 c i arg2 harg2 arg3 harg3 arg4 harg4 arg5 harg5 arg6 harg6 arg7 harg7 arg8 harg8 arg9 harg9 arg10 harg10 hc0 x0 x1 x2 p3 p4 p5 p6 p7 p8 = k0_pay2 (v357 x1) p7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 p3 p4 p5 p6 p7 p8)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread]
  rw [View.ld_unit_zero (S := S1x1x128) hz3]
  rfl

/-- Not at the start of a half, the accumulator of the mean vote times the labels ends at its update by the point's plane sum. -/
theorem outB_8_eq (hc0 : ¬cond0_0 i) :
    out0_B_8 c i arg2 harg2 arg3 harg3 arg4 harg4 arg5 harg5 arg6 harg6 arg7 harg7 arg8 harg8 arg9 harg9 arg10 harg10 hc0 x0 x1 x2 p3 p4 p5 p6 p7 p8 = k0_pay3 (v363 x0 x1) p8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 p3 p4 p5 p6 p7 p8)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread]
  rw [View.ld_unit_zero (S := S1x1x128) hz3]
  rfl

/-- At the start of a half, the accumulator of the decoupled map's logarithms ends at the update of the zero block by the point's plane sum. -/
theorem outA_3_eq (hc0 : cond0_0 i) :
    out0_A_3 c i arg2 harg2 arg3 harg3 arg4 harg4 arg5 harg5 arg6 harg6 arg7 harg7 arg8 harg8 arg9 harg9 arg10 harg10 hc0 x0 x1 x2 = k0_pay77 (v337 x0 x1 x2) k0_pay4 := by
  unfold out0_A_3
  rw [View.read_writes_eq_canon _ _ _ (cover0_A_3 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, harg7.read_unread, harg8.read_unread, harg9.read_unread, harg10.read_unread]
  rfl

/-- At the start of a half, the accumulator of the votes' logarithms ends at the update of the zero block by the point's plane sum. -/
theorem outA_4_eq (hc0 : cond0_0 i) :
    out0_A_4 c i arg2 harg2 arg3 harg3 arg4 harg4 arg5 harg5 arg6 harg6 arg7 harg7 arg8 harg8 arg9 harg9 arg10 harg10 hc0 x0 x1 x2 = k0_pay78 (v342 x0 x2) k0_pay5 := by
  unfold out0_A_4
  rw [View.read_writes_eq_canon _ _ _ (cover0_A_4 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, harg7.read_unread, harg8.read_unread, harg9.read_unread, harg10.read_unread]
  rfl

/-- At the start of a half, the accumulator of the sigmoids' logarithms ends at the update of the zero block by the point's plane sum. -/
theorem outA_5_eq (hc0 : cond0_0 i) :
    out0_A_5 c i arg2 harg2 arg3 harg3 arg4 harg4 arg5 harg5 arg6 harg6 arg7 harg7 arg8 harg8 arg9 harg9 arg10 harg10 hc0 x0 x1 x2 = k0_pay79 (v347 x0 x2) k0_pay6 := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, harg7.read_unread, harg8.read_unread, harg9.read_unread, harg10.read_unread]
  rfl

/-- At the start of a half, the accumulator of the mean vote ends at the update of the zero block by the point's plane sum. -/
theorem outA_6_eq (hc0 : cond0_0 i) :
    out0_A_6 c i arg2 harg2 arg3 harg3 arg4 harg4 arg5 harg5 arg6 harg6 arg7 harg7 arg8 harg8 arg9 harg9 arg10 harg10 hc0 x0 x1 x2 = k0_pay1 (k0_pay80 (v352 x0) k0_pay7) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, harg7.read_unread, harg8.read_unread, harg9.read_unread, harg10.read_unread]
  rfl

/-- At the start of a half, the accumulator of the labels ends at the update of the zero block by the point's plane sum. -/
theorem outA_7_eq (hc0 : cond0_0 i) :
    out0_A_7 c i arg2 harg2 arg3 harg3 arg4 harg4 arg5 harg5 arg6 harg6 arg7 harg7 arg8 harg8 arg9 harg9 arg10 harg10 hc0 x0 x1 x2 = k0_pay2 (v357 x1) k0_pay8 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, harg7.read_unread, harg8.read_unread, harg9.read_unread, harg10.read_unread]
  rfl

/-- At the start of a half, the accumulator of the mean vote times the labels ends at the update of the zero block by the point's plane sum. -/
theorem outA_8_eq (hc0 : cond0_0 i) :
    out0_A_8 c i arg2 harg2 arg3 harg3 arg4 harg4 arg5 harg5 arg6 harg6 arg7 harg7 arg8 harg8 arg9 harg9 arg10 harg10 hc0 x0 x1 x2 = k0_pay3 (v363 x0 x1) k0_pay9 := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, harg7.read_unread, harg8.read_unread, harg9.read_unread, harg10.read_unread]
  rfl

end Generic

/-! ## A lane of each accumulator, at the ideal values -/

variable (c : Dev nD) (i : grid0.Coords) (arg2 : Memref sig .tc .vmem S1x8x352x352 .f32) (harg2 : arg2.IsWhole) (arg3 : Memref sig .tc .vmem S1x1x352x352 .i32) (harg3 : arg3.IsWhole) (arg4 : Memref sig .tc .vmem S1x8x352x352 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole)
variable (x0 : Vec Ideal S1x8x352x352 .f32) (x1 : Vec Ideal S1x1x352x352 .i32) (x2 : Vec Ideal S1x8x352x352 .i32)
variable (p3 p4 p5 p6 p7 p8 : Vec Ideal S1x1x128 .f32) (l : Fin 128)

/-! ## A point that does not start a half: each accumulator's lane gains the point's plane sum -/
theorem outB_3_lane (hc0 : ¬cond0_0 i) :
    out0_B_3 (F := Ideal) c i arg2 harg2 arg3 harg3 arg4 harg4 arg5 harg5 arg6 harg6 arg7 harg7 arg8 harg8 arg9 harg9 arg10 harg10 hc0 x0 x1 x2 p3 p4 p5 p6 p7 p8 (ix3 0 0 l) = p3 (ix3 0 0 l) + planeSum (decT (blkOut x0) (blkCon x2) (blkTgt x1)) := by
  rw [outB_3_eq c i arg2 harg2 arg3 harg3 arg4 harg4 arg5 harg5 arg6 harg6 arg7 harg7 arg8 harg8 arg9 harg9 arg10 harg10 x0 x1 x2 p3 p4 p5 p6 p7 p8 hc0, Atoms.pay77_apply, Maps.v337_eq]
theorem outB_4_lane (hc0 : ¬cond0_0 i) :
    out0_B_4 (F := Ideal) c i arg2 harg2 arg3 harg3 arg4 harg4 arg5 harg5 arg6 harg6 arg7 harg7 arg8 harg8 arg9 harg9 arg10 harg10 hc0 x0 x1 x2 p3 p4 p5 p6 p7 p8 (ix3 0 0 l) = p4 (ix3 0 0 l) + planeSum (bimT (blkOut x0) (blkCon x2)) := by
  rw [outB_4_eq c i arg2 harg2 arg3 harg3 arg4 harg4 arg5 harg5 arg6 harg6 arg7 harg7 arg8 harg8 arg9 harg9 arg10 harg10 x0 x1 x2 p3 p4 p5 p6 p7 p8 hc0, Atoms.pay78_apply, Maps.v342_eq]
theorem outB_5_lane (hc0 : ¬cond0_0 i) :
    out0_B_5 (F := Ideal) c i arg2 harg2 arg3 harg3 arg4 harg4 arg5 harg5 arg6 harg6 arg7 harg7 arg8 harg8 arg9 harg9 arg10 harg10 hc0 x0 x1 x2 p3 p4 p5 p6 p7 p8 (ix3 0 0 l) = p5 (ix3 0 0 l) + planeSum (cmapT (blkOut x0) (blkCon x2)) := by
  rw [outB_5_eq c i arg2 harg2 arg3 harg3 arg4 harg4 arg5 harg5 arg6 harg6 arg7 harg7 arg8 harg8 arg9 harg9 arg10 harg10 x0 x1 x2 p3 p4 p5 p6 p7 p8 hc0, Atoms.pay79_apply, Maps.v347_eq]
theorem outB_6_lane (hc0 : ¬cond0_0 i) :
    out0_B_6 (F := Ideal) c i arg2 harg2 arg3 harg3 arg4 harg4 arg5 harg5 arg6 harg6 arg7 harg7 arg8 harg8 arg9 harg9 arg10 harg10 hc0 x0 x1 x2 p3 p4 p5 p6 p7 p8 (ix3 0 0 l) = p6 (ix3 0 0 l) + planeSum (glo (blkOut x0)) := by
  rw [outB_6_eq c i arg2 harg2 arg3 harg3 arg4 harg4 arg5 harg5 arg6 harg6 arg7 harg7 arg8 harg8 arg9 harg9 arg10 harg10 x0 x1 x2 p3 p4 p5 p6 p7 p8 hc0, Atoms.pay1_80_apply, Maps.v352_eq]
theorem outB_7_lane (hc0 : ¬cond0_0 i) :
    out0_B_7 (F := Ideal) c i arg2 harg2 arg3 harg3 arg4 harg4 arg5 harg5 arg6 harg6 arg7 harg7 arg8 harg8 arg9 harg9 arg10 harg10 hc0 x0 x1 x2 p3 p4 p5 p6 p7 p8 (ix3 0 0 l) = p7 (ix3 0 0 l) + planeSum (blkTgt x1) := by
  rw [outB_7_eq c i arg2 harg2 arg3 harg3 arg4 harg4 arg5 harg5 arg6 harg6 arg7 harg7 arg8 harg8 arg9 harg9 arg10 harg10 x0 x1 x2 p3 p4 p5 p6 p7 p8 hc0, Atoms.pay2_apply, Maps.v357_eq]
theorem outB_8_lane (hc0 : ¬cond0_0 i) :
    out0_B_8 (F := Ideal) c i arg2 harg2 arg3 harg3 arg4 harg4 arg5 harg5 arg6 harg6 arg7 harg7 arg8 harg8 arg9 harg9 arg10 harg10 hc0 x0 x1 x2 p3 p4 p5 p6 p7 p8 (ix3 0 0 l) = p8 (ix3 0 0 l) + planeSum (interT (blkOut x0) (blkTgt x1)) := by
  rw [outB_8_eq c i arg2 harg2 arg3 harg3 arg4 harg4 arg5 harg5 arg6 harg6 arg7 harg7 arg8 harg8 arg9 harg9 arg10 harg10 x0 x1 x2 p3 p4 p5 p6 p7 p8 hc0, Atoms.pay3_apply, Maps.v363_eq]

/-! ## A point that starts a half: each accumulator's lane is reset to zero and gains the point's plane sum -/
theorem outA_3_lane (hc0 : cond0_0 i) :
    out0_A_3 (F := Ideal) c i arg2 harg2 arg3 harg3 arg4 harg4 arg5 harg5 arg6 harg6 arg7 harg7 arg8 harg8 arg9 harg9 arg10 harg10 hc0 x0 x1 x2 (ix3 0 0 l) = 0 + planeSum (decT (blkOut x0) (blkCon x2) (blkTgt x1)) := by
  rw [outA_3_eq c i arg2 harg2 arg3 harg3 arg4 harg4 arg5 harg5 arg6 harg6 arg7 harg7 arg8 harg8 arg9 harg9 arg10 harg10 x0 x1 x2 hc0, Atoms.pay77_apply, Atoms.pay4_apply, Maps.v337_eq]
theorem outA_4_lane (hc0 : cond0_0 i) :
    out0_A_4 (F := Ideal) c i arg2 harg2 arg3 harg3 arg4 harg4 arg5 harg5 arg6 harg6 arg7 harg7 arg8 harg8 arg9 harg9 arg10 harg10 hc0 x0 x1 x2 (ix3 0 0 l) = 0 + planeSum (bimT (blkOut x0) (blkCon x2)) := by
  rw [outA_4_eq c i arg2 harg2 arg3 harg3 arg4 harg4 arg5 harg5 arg6 harg6 arg7 harg7 arg8 harg8 arg9 harg9 arg10 harg10 x0 x1 x2 hc0, Atoms.pay78_apply, Atoms.pay5_apply, Maps.v342_eq]
theorem outA_5_lane (hc0 : cond0_0 i) :
    out0_A_5 (F := Ideal) c i arg2 harg2 arg3 harg3 arg4 harg4 arg5 harg5 arg6 harg6 arg7 harg7 arg8 harg8 arg9 harg9 arg10 harg10 hc0 x0 x1 x2 (ix3 0 0 l) = 0 + planeSum (cmapT (blkOut x0) (blkCon x2)) := by
  rw [outA_5_eq c i arg2 harg2 arg3 harg3 arg4 harg4 arg5 harg5 arg6 harg6 arg7 harg7 arg8 harg8 arg9 harg9 arg10 harg10 x0 x1 x2 hc0, Atoms.pay79_apply, Atoms.pay6_apply, Maps.v347_eq]
theorem outA_6_lane (hc0 : cond0_0 i) :
    out0_A_6 (F := Ideal) c i arg2 harg2 arg3 harg3 arg4 harg4 arg5 harg5 arg6 harg6 arg7 harg7 arg8 harg8 arg9 harg9 arg10 harg10 hc0 x0 x1 x2 (ix3 0 0 l) = 0 + planeSum (glo (blkOut x0)) := by
  rw [outA_6_eq c i arg2 harg2 arg3 harg3 arg4 harg4 arg5 harg5 arg6 harg6 arg7 harg7 arg8 harg8 arg9 harg9 arg10 harg10 x0 x1 x2 hc0, Atoms.pay1_80_apply, Atoms.pay7_apply, Maps.v352_eq]
theorem outA_7_lane (hc0 : cond0_0 i) :
    out0_A_7 (F := Ideal) c i arg2 harg2 arg3 harg3 arg4 harg4 arg5 harg5 arg6 harg6 arg7 harg7 arg8 harg8 arg9 harg9 arg10 harg10 hc0 x0 x1 x2 (ix3 0 0 l) = 0 + planeSum (blkTgt x1) := by
  rw [outA_7_eq c i arg2 harg2 arg3 harg3 arg4 harg4 arg5 harg5 arg6 harg6 arg7 harg7 arg8 harg8 arg9 harg9 arg10 harg10 x0 x1 x2 hc0, Atoms.pay2_apply, Atoms.pay8_apply, Maps.v357_eq]
theorem outA_8_lane (hc0 : cond0_0 i) :
    out0_A_8 (F := Ideal) c i arg2 harg2 arg3 harg3 arg4 harg4 arg5 harg5 arg6 harg6 arg7 harg7 arg8 harg8 arg9 harg9 arg10 harg10 hc0 x0 x1 x2 (ix3 0 0 l) = 0 + planeSum (interT (blkOut x0) (blkTgt x1)) := by
  rw [outA_8_eq c i arg2 harg2 arg3 harg3 arg4 harg4 arg5 harg5 arg6 harg6 arg7 harg7 arg8 harg8 arg9 harg9 arg10 harg10 x0 x1 x2 hc0, Atoms.pay3_apply, Atoms.pay9_apply, Maps.v363_eq]

end Cert.KernelIdeal.Pieces

end
-- ==== Proof.KArrays.lean ====
/-
  What the six output arrays of the idealized kernel hold after the grid.  The grid walks the sixteen batch elements in
  two halves of eight; at the first point of a half each accumulator block is reset to zero and gains the point's plane
  sum, at every later point it gains that point's plane sum, and after the eighth point the block is written to row
  `q` of its [2,1,128] array.  So row `q` of each array holds, in every lane, zero plus the plane sums of the batch
  elements 8q … 8q+7 in order; the plane sums are those of the six maps of the batch element's slabs of the argument
  arrays (a grid point's blocks are the slabs of batch element 8·core + j).
-/
import proofs.«406890_j71588514889850_3_alg».proof.Proof.KPieces
import Idealize.ShloMosaic.Lib.Pipeline.Value

set_option Elab.async false

noncomputable section

open Idealize.ShloMosaic Idealize.ShloMosaic.TcCoe Idealize.ShloMosaic.ValueIdx Idealize.SL.Sem

namespace Cert.KernelIdeal.Arrays

open Cert.KernelIdeal Cert.KernelIdeal.Gen Cert.Bicon
open Idealize.ShloMosaic.Pipeline (Dat)

variable (m : (ℓ : Loc nD τ sig) → Buf (Elt Ideal) ℓ)

/-! ## The argument arrays, the six sums of a batch element, and the contents of an output array -/

/-- The three argument arrays on a core, at their literal types. -/
abbrev arrO (c : Dev nD) : Vec Ideal S16x8x352x352 .f32 := m ((c.tc : Thread nD τ).loc main_arg0)
abbrev arrT (c : Dev nD) : Vec Ideal S16x1x352x352 .i32 := m ((c.tc : Thread nD τ).loc main_arg1)
abbrev arrC (c : Dev nD) : Vec Ideal S16x8x352x352 .i32 := m ((c.tc : Thread nD τ).loc main_arg2)

/-- The plane sums of the six maps of batch element `b`. -/
def s3 (c : Dev nD) (b : Fin 16) : EReal := planeSum (decT (outSlab (arrO m c) b) (conSlab (arrC m c) b) (tgtPlane (arrT m c) b))
def s4 (c : Dev nD) (b : Fin 16) : EReal := planeSum (bimT (outSlab (arrO m c) b) (conSlab (arrC m c) b))
def s5 (c : Dev nD) (b : Fin 16) : EReal := planeSum (cmapT (outSlab (arrO m c) b) (conSlab (arrC m c) b))
def s6 (c : Dev nD) (b : Fin 16) : EReal := planeSum (glo (outSlab (arrO m c) b))
def s7 (c : Dev nD) (b : Fin 16) : EReal := planeSum (tgtPlane (arrT m c) b)
def s8 (c : Dev nD) (b : Fin 16) : EReal := planeSum (interT (outSlab (arrO m c) b) (tgtPlane (arrT m c) b))

/-- An output array whose row `q` holds in every lane the ordered sum of the half `q` of a family over the batch. -/
def rows (s : Fin 16 → EReal) : Vec Ideal S2x1x128 .f32 := fun i => half8 s (i 0)

/-- A grid point's number is below sixteen. -/
theorem lt16 {n : ℕ} (h : n < cfg0.N) : n < 16 := by have : cfg0.N = 16 := N_0; omega

/-- The three input blocks of a grid point, at their literal types. -/
abbrev xb0 (c : Dev nD) (t : Fin cfg0.N) : Vec Ideal S1x8x352x352 .f32 := iblk m c 0 t
abbrev xb1 (c : Dev nD) (t : Fin cfg0.N) : Vec Ideal S1x1x352x352 .i32 := iblk m c 1 t
abbrev xb2 (c : Dev nD) (t : Fin cfg0.N) : Vec Ideal S1x8x352x352 .i32 := iblk m c 2 t

/-! ## The six plane sums of a grid point, over its blocks -/
def q3 (c : Dev nD) (n : ℕ) (h : n < cfg0.N) : EReal := planeSum (decT (blkOut (xb0 m c ⟨n, h⟩)) (blkCon (xb2 m c ⟨n, h⟩)) (blkTgt (xb1 m c ⟨n, h⟩)))
def q4 (c : Dev nD) (n : ℕ) (h : n < cfg0.N) : EReal := planeSum (bimT (blkOut (xb0 m c ⟨n, h⟩)) (blkCon (xb2 m c ⟨n, h⟩)))
def q5 (c : Dev nD) (n : ℕ) (h : n < cfg0.N) : EReal := planeSum (cmapT (blkOut (xb0 m c ⟨n, h⟩)) (blkCon (xb2 m c ⟨n, h⟩)))
def q6 (c : Dev nD) (n : ℕ) (h : n < cfg0.N) : EReal := planeSum (glo (blkOut (xb0 m c ⟨n, h⟩)))
def q7 (c : Dev nD) (n : ℕ) (h : n < cfg0.N) : EReal := planeSum (blkTgt (xb1 m c ⟨n, h⟩))
def q8 (c : Dev nD) (n : ℕ) (h : n < cfg0.N) : EReal := planeSum (interT (blkOut (xb0 m c ⟨n, h⟩)) (blkTgt (xb1 m c ⟨n, h⟩)))

/-- The running sum of a point-indexed family within its half of eight: zero plus the first point's term at a point
    that starts a half, the previous point's running sum plus the point's term elsewhere. -/
def run8 (s : (n : ℕ) → n < cfg0.N → EReal) : (n : ℕ) → n < cfg0.N → EReal
  | 0, h => 0 + s 0 h
  | n + 1, h => if (n + 1) % 8 = 0 then 0 + s (n + 1) h else run8 s n (Nat.lt_of_succ_lt h) + s (n + 1) h

/-- At a point that starts a half every lane of the six accumulators holds zero plus the point's plane sum. -/
theorem ptA (c : Dev nD) (t : Fin cfg0.N) (l : Fin 128) (h0 : t.val % 8 = 0) :
    (outsAt0 m c t.val t.isLt).1 (ix3 0 0 l) = 0 + q3 m c t.val t.isLt
    ∧ (outsAt0 m c t.val t.isLt).2.1 (ix3 0 0 l) = 0 + q4 m c t.val t.isLt
    ∧ (outsAt0 m c t.val t.isLt).2.2.1 (ix3 0 0 l) = 0 + q5 m c t.val t.isLt
    ∧ (outsAt0 m c t.val t.isLt).2.2.2.1 (ix3 0 0 l) = 0 + q6 m c t.val t.isLt
    ∧ (outsAt0 m c t.val t.isLt).2.2.2.2.1 (ix3 0 0 l) = 0 + q7 m c t.val t.isLt
    ∧ (outsAt0 m c t.val t.isLt).2.2.2.2.2 (ix3 0 0 l) = 0 + q8 m c t.val t.isLt := by
  rw [outsAt0_A m c t h0]
  dsimp only
  exact ⟨Pieces.outA_3_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) l ((hcond0_0 t).mpr h0),
    Pieces.outA_4_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) l ((hcond0_0 t).mpr h0),
    Pieces.outA_5_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) l ((hcond0_0 t).mpr h0),
    Pieces.outA_6_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) l ((hcond0_0 t).mpr h0),
    Pieces.outA_7_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) l ((hcond0_0 t).mpr h0),
    Pieces.outA_8_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) l ((hcond0_0 t).mpr h0)⟩

/-- At any other point every lane holds what the point before left there plus the point's plane sum. -/
theorem ptB (c : Dev nD) (t : Fin cfg0.N) (l : Fin 128) (h0 : ¬t.val % 8 = 0) :
    (outsAt0 m c t.val t.isLt).1 (ix3 0 0 l) = (outsAt0 m c (t.val - 1) (Nat.lt_of_le_of_lt (Nat.sub_le _ _) t.isLt)).1 (ix3 0 0 l) + q3 m c t.val t.isLt
    ∧ (outsAt0 m c t.val t.isLt).2.1 (ix3 0 0 l) = (outsAt0 m c (t.val - 1) (Nat.lt_of_le_of_lt (Nat.sub_le _ _) t.isLt)).2.1 (ix3 0 0 l) + q4 m c t.val t.isLt
    ∧ (outsAt0 m c t.val t.isLt).2.2.1 (ix3 0 0 l) = (outsAt0 m c (t.val - 1) (Nat.lt_of_le_of_lt (Nat.sub_le _ _) t.isLt)).2.2.1 (ix3 0 0 l) + q5 m c t.val t.isLt
    ∧ (outsAt0 m c t.val t.isLt).2.2.2.1 (ix3 0 0 l) = (outsAt0 m c (t.val - 1) (Nat.lt_of_le_of_lt (Nat.sub_le _ _) t.isLt)).2.2.2.1 (ix3 0 0 l) + q6 m c t.val t.isLt
    ∧ (outsAt0 m c t.val t.isLt).2.2.2.2.1 (ix3 0 0 l) = (outsAt0 m c (t.val - 1) (Nat.lt_of_le_of_lt (Nat.sub_le _ _) t.isLt)).2.2.2.2.1 (ix3 0 0 l) + q7 m c t.val t.isLt
    ∧ (outsAt0 m c t.val t.isLt).2.2.2.2.2 (ix3 0 0 l) = (outsAt0 m c (t.val - 1) (Nat.lt_of_le_of_lt (Nat.sub_le _ _) t.isLt)).2.2.2.2.2 (ix3 0 0 l) + q8 m c t.val t.isLt := by
  rw [outsAt0_B m c t h0]
  dsimp only
  exact ⟨Pieces.outB_3_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 l (fun h => h0 ((hcond0_0 t).mp h)),
    Pieces.outB_4_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 l (fun h => h0 ((hcond0_0 t).mp h)),
    Pieces.outB_5_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 l (fun h => h0 ((hcond0_0 t).mp h)),
    Pieces.outB_6_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 l (fun h => h0 ((hcond0_0 t).mp h)),
    Pieces.outB_7_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 l (fun h => h0 ((hcond0_0 t).mp h)),
    Pieces.outB_8_lane c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (xb0 m c t) (xb1 m c t) (xb2 m c t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 l (fun h => h0 ((hcond0_0 t).mp h))⟩

/-- So every lane of the six accumulators holds, after each point, the running sum of the point's half. -/
theorem lanes (c : Dev nD) (l : Fin 128) : ∀ (n : ℕ) (h : n < cfg0.N),
    (outsAt0 m c n h).1 (ix3 0 0 l) = run8 (q3 m c) n h
    ∧ (outsAt0 m c n h).2.1 (ix3 0 0 l) = run8 (q4 m c) n h
    ∧ (outsAt0 m c n h).2.2.1 (ix3 0 0 l) = run8 (q5 m c) n h
    ∧ (outsAt0 m c n h).2.2.2.1 (ix3 0 0 l) = run8 (q6 m c) n h
    ∧ (outsAt0 m c n h).2.2.2.2.1 (ix3 0 0 l) = run8 (q7 m c) n h
    ∧ (outsAt0 m c n h).2.2.2.2.2 (ix3 0 0 l) = run8 (q8 m c) n h
  | 0, h => ptA m c ⟨0, h⟩ l rfl
  | n + 1, h => by
    by_cases h0 : (n + 1) % 8 = 0
    · have hA := ptA m c ⟨n + 1, h⟩ l h0
      simp only [run8, if_pos h0]
      exact hA
    · obtain ⟨a3, a4, a5, a6, a7, a8⟩ := ptB m c ⟨n + 1, h⟩ l h0
      obtain ⟨i3, i4, i5, i6, i7, i8⟩ := lanes c l n (Nat.lt_of_succ_lt h)
      simp only [run8, if_neg h0]
      exact ⟨a3.trans (congrArg (· + q3 m c (n + 1) h) i3), a4.trans (congrArg (· + q4 m c (n + 1) h) i4), a5.trans (congrArg (· + q5 m c (n + 1) h) i5), a6.trans (congrArg (· + q6 m c (n + 1) h) i6), a7.trans (congrArg (· + q7 m c (n + 1) h) i7), a8.trans (congrArg (· + q8 m c (n + 1) h) i8)⟩

/-! ## A grid point's blocks are the slabs of its batch element -/

/-- The index maps of the input windows, decided over the grid: the blocks of point `t` sit at batch element `t`. -/
theorem idx_in : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0)
    ∧ (win0_2.index t 0 = t.val ∧ win0_2.index t 1 = 0 ∧ win0_2.index t 2 = 0 ∧ win0_2.index t 3 = 0) :=
  (by decide +kernel : ∀ t : Fin grid0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0)
    ∧ (win0_2.index t 0 = t.val ∧ win0_2.index t 1 = 0 ∧ win0_2.index t 2 = 0 ∧ win0_2.index t 3 = 0))

theorem xb0_apply (c : Dev nD) (t : Fin cfg0.N) (ch : Fin 8) (r col : Fin 352) :
    xb0 m c t (ix4 0 ch r col) = arrO m c (ix4 ⟨t.val, lt16 t.isLt⟩ ch r col) := by
  obtain ⟨h0, h1, h2, h3⟩ := (idx_in t).1
  show iblk m c 0 t (ix4 0 ch r col) = _
  unfold iblk
  rw [View.read_apply]
  show m ((c.tc : Thread nD τ).loc main_arg0) _ = m ((c.tc : Thread nD τ).loc main_arg0) _
  refine congrArg _ ?_
  funext a
  apply Fin.ext
  match a with
  | ⟨0, _⟩ => show win0_0.index t 0 * 1 + 1 * 0 = t.val; rw [h0]; omega
  | ⟨1, _⟩ => show win0_0.index t 1 * 8 + 1 * ch.val = ch.val; rw [h1]; omega
  | ⟨2, _⟩ => show win0_0.index t 2 * 352 + 1 * r.val = r.val; rw [h2]; omega
  | ⟨3, _⟩ => show win0_0.index t 3 * 352 + 1 * col.val = col.val; rw [h3]; omega

theorem xb1_apply (c : Dev nD) (t : Fin cfg0.N) (r col : Fin 352) :
    xb1 m c t (ix4 0 0 r col) = arrT m c (ix4 ⟨t.val, lt16 t.isLt⟩ 0 r col) := by
  obtain ⟨h0, h1, h2, h3⟩ := (idx_in t).2.1
  show iblk m c 1 t (ix4 0 0 r col) = _
  unfold iblk
  rw [View.read_apply]
  show m ((c.tc : Thread nD τ).loc main_arg1) _ = m ((c.tc : Thread nD τ).loc main_arg1) _
  refine congrArg _ ?_
  funext a
  apply Fin.ext
  match a with
  | ⟨0, _⟩ => show win0_1.index t 0 * 1 + 1 * 0 = t.val; rw [h0]; omega
  | ⟨1, _⟩ => show win0_1.index t 1 * 1 + 1 * 0 = 0; rw [h1]
  | ⟨2, _⟩ => show win0_1.index t 2 * 352 + 1 * r.val = r.val; rw [h2]; omega
  | ⟨3, _⟩ => show win0_1.index t 3 * 352 + 1 * col.val = col.val; rw [h3]; omega

theorem xb2_apply (c : Dev nD) (t : Fin cfg0.N) (ch : Fin 8) (r col : Fin 352) :
    xb2 m c t (ix4 0 ch r col) = arrC m c (ix4 ⟨t.val, lt16 t.isLt⟩ ch r col) := by
  obtain ⟨h0, h1, h2, h3⟩ := (idx_in t).2.2
  show iblk m c 2 t (ix4 0 ch r col) = _
  unfold iblk
  rw [View.read_apply]
  show m ((c.tc : Thread nD τ).loc main_arg2) _ = m ((c.tc : Thread nD τ).loc main_arg2) _
  refine congrArg _ ?_
  funext a
  apply Fin.ext
  match a with
  | ⟨0, _⟩ => show win0_2.index t 0 * 1 + 1 * 0 = t.val; rw [h0]; omega
  | ⟨1, _⟩ => show win0_2.index t 1 * 8 + 1 * ch.val = ch.val; rw [h1]; omega
  | ⟨2, _⟩ => show win0_2.index t 2 * 352 + 1 * r.val = r.val; rw [h2]; omega
  | ⟨3, _⟩ => show win0_2.index t 3 * 352 + 1 * col.val = col.val; rw [h3]; omega

theorem blkOut_eq (c : Dev nD) (t : Fin cfg0.N) : blkOut (xb0 m c t) = outSlab (arrO m c) ⟨t.val, lt16 t.isLt⟩ :=
  funext fun ch => funext fun r => funext fun col => xb0_apply m c t ch r col
theorem blkTgt_eq (c : Dev nD) (t : Fin cfg0.N) : blkTgt (xb1 m c t) = tgtPlane (arrT m c) ⟨t.val, lt16 t.isLt⟩ :=
  funext fun r => funext fun col =>
    congrArg (fun b : BitVec 32 => (((b.toInt : ℝ)) : EReal)) (xb1_apply m c t r col)
theorem blkCon_eq (c : Dev nD) (t : Fin cfg0.N) : blkCon (xb2 m c t) = conSlab (arrC m c) ⟨t.val, lt16 t.isLt⟩ :=
  funext fun ch => funext fun r => funext fun col =>
    congrArg (fun b : BitVec 32 => (((b.toInt : ℝ)) : EReal)) (xb2_apply m c t ch r col)

/-- So a point's six plane sums are those of its batch element. -/
theorem q3_fun (c : Dev nD) : q3 m c = fun k hk => s3 m c ⟨k, lt16 hk⟩ :=
  funext fun k => funext fun hk => by unfold q3 s3; simp only [blkOut_eq, blkCon_eq, blkTgt_eq]
theorem q4_fun (c : Dev nD) : q4 m c = fun k hk => s4 m c ⟨k, lt16 hk⟩ :=
  funext fun k => funext fun hk => by unfold q4 s4; simp only [blkOut_eq, blkCon_eq, blkTgt_eq]
theorem q5_fun (c : Dev nD) : q5 m c = fun k hk => s5 m c ⟨k, lt16 hk⟩ :=
  funext fun k => funext fun hk => by unfold q5 s5; simp only [blkOut_eq, blkCon_eq, blkTgt_eq]
theorem q6_fun (c : Dev nD) : q6 m c = fun k hk => s6 m c ⟨k, lt16 hk⟩ :=
  funext fun k => funext fun hk => by unfold q6 s6; simp only [blkOut_eq, blkCon_eq, blkTgt_eq]
theorem q7_fun (c : Dev nD) : q7 m c = fun k hk => s7 m c ⟨k, lt16 hk⟩ :=
  funext fun k => funext fun hk => by unfold q7 s7; simp only [blkOut_eq, blkCon_eq, blkTgt_eq]
theorem q8_fun (c : Dev nD) : q8 m c = fun k hk => s8 m c ⟨k, lt16 hk⟩ :=
  funext fun k => funext fun hk => by unfold q8 s8; simp only [blkOut_eq, blkCon_eq, blkTgt_eq]

/-! ## The accumulators at the last point of a half, and the write-backs -/

/-- Every index of an accumulator block is a lane of its one row. -/
theorem idx_lane (j : S1x1x128.Idx) : j = ix3 0 0 (j 2) := by
  funext a
  match a with
  | ⟨0, _⟩ => exact Fin.ext (by have : (j 0).val < 1 := (j 0).isLt; show (j 0).val = 0; omega)
  | ⟨1, _⟩ => exact Fin.ext (by have : (j 1).val < 1 := (j 1).isLt; show (j 1).val = 0; omega)
  | ⟨2, _⟩ => rfl

theorem lanes_all (c : Dev nD) (n : ℕ) (h : n < cfg0.N) (j : S1x1x128.Idx) :
    (outsAt0 m c n h).1 j = run8 (q3 m c) n h
    ∧ (outsAt0 m c n h).2.1 j = run8 (q4 m c) n h
    ∧ (outsAt0 m c n h).2.2.1 j = run8 (q5 m c) n h
    ∧ (outsAt0 m c n h).2.2.2.1 j = run8 (q6 m c) n h
    ∧ (outsAt0 m c n h).2.2.2.2.1 j = run8 (q7 m c) n h
    ∧ (outsAt0 m c n h).2.2.2.2.2 j = run8 (q8 m c) n h := by
  rw [idx_lane j]; exact lanes m c (j 2) n h

/-- At the last point of half `q` the running sum is the ordered sum of the half. -/
theorem run8_half (s : Fin 16 → EReal) (n : ℕ) (h : n < cfg0.N) (h7 : n % 8 = 7) (q : Fin 2) (hq : q.val = n / 8) :
    run8 (fun k hk => s ⟨k, lt16 hk⟩) n h = half8 s q := by
  have h16 := lt16 h
  have hn : n = 7 ∨ n = 15 := by omega
  rcases hn with rfl | rfl
  · obtain rfl : q = 0 := Fin.ext (by omega)
    rfl
  · obtain rfl : q = 1 := Fin.ext (by omega)
    rfl

theorem rows_apply (s : Fin 16 → EReal) (i : S2x1x128.Idx) (q : Fin 2) (h : (i 0).val = q.val) : rows s i = half8 s q :=
  congrArg (half8 s) (Fin.ext h)

/-- The index maps of the output windows, decided over the grid: point `t` writes row `t / 8`. -/
theorem idx_out : ∀ t : Fin cfg0.N,
    (win0_3.index t 0 = t.val / 8 ∧ win0_3.index t 1 = 0 ∧ win0_3.index t 2 = 0)
    ∧ (win0_4.index t 0 = t.val / 8 ∧ win0_4.index t 1 = 0 ∧ win0_4.index t 2 = 0)
    ∧ (win0_5.index t 0 = t.val / 8 ∧ win0_5.index t 1 = 0 ∧ win0_5.index t 2 = 0)
    ∧ (win0_6.index t 0 = t.val / 8 ∧ win0_6.index t 1 = 0 ∧ win0_6.index t 2 = 0)
    ∧ (win0_7.index t 0 = t.val / 8 ∧ win0_7.index t 1 = 0 ∧ win0_7.index t 2 = 0)
    ∧ (win0_8.index t 0 = t.val / 8 ∧ win0_8.index t 1 = 0 ∧ win0_8.index t 2 = 0) :=
  (by decide +kernel : ∀ t : Fin grid0.N,
    (win0_3.index t 0 = t.val / 8 ∧ win0_3.index t 1 = 0 ∧ win0_3.index t 2 = 0)
    ∧ (win0_4.index t 0 = t.val / 8 ∧ win0_4.index t 1 = 0 ∧ win0_4.index t 2 = 0)
    ∧ (win0_5.index t 0 = t.val / 8 ∧ win0_5.index t 1 = 0 ∧ win0_5.index t 2 = 0)
    ∧ (win0_6.index t 0 = t.val / 8 ∧ win0_6.index t 1 = 0 ∧ win0_6.index t 2 = 0)
    ∧ (win0_7.index t 0 = t.val / 8 ∧ win0_7.index t 1 = 0 ∧ win0_7.index t 2 = 0)
    ∧ (win0_8.index t 0 = t.val / 8 ∧ win0_8.index t 1 = 0 ∧ win0_8.index t 2 = 0))

/-! ## What each flushing point writes, the cover, and the six output arrays after the grid -/

/-- What a flushing point writes to output 0: its row of the array of ordered half sums, for any family `s` that the
    point's plane sums follow. -/
theorem flushed_3_of (c : Dev nD) (Q : (n : ℕ) → n < cfg0.N → EReal) (s : Fin 16 → EReal)
    (hQ : Q = fun k hk => s ⟨k, lt16 hk⟩)
    (hX : ∀ (n : ℕ) (h : n < cfg0.N) (j : S1x1x128.Idx), (outsAt0 m c n h).1 j = run8 Q n h)
    (t : Fin cfg0.N) (hf : (cfg0.win 3).flush t = true) :
    (dats m 0 c).flushed 3 t = ((cfg0.win 3).blk t).view.read (Elt Ideal) (rows s) := by
  subst hQ
  have h7 : t.val % 8 = 7 := (flush0_3 t).mp hf
  have h16 : t.val < 16 := lt16 t.isLt
  funext j
  show (cfg0.win 3).cut (grid0.coords t) ((dats m 0 c).after 3 t) j = _
  rw [after0_3, View.read_apply]
  show (outsAt0 m c t.val t.isLt).1 j = rows s (((cfg0.win 3).blk t).view.emb j)
  refine ((hX t.val t.isLt j).trans (run8_half s t.val t.isLt h7 ⟨t.val / 8, by omega⟩ rfl)).trans
    (rows_apply s _ ⟨t.val / 8, by omega⟩ ?_).symm
  have h0 : (j 0).val < 1 := (j 0).isLt
  show win0_3.index t 0 * 1 + 1 * (j 0).val = t.val / 8
  rw [(idx_out t).1.1]; omega

theorem flushed_3 (c : Dev nD) (t : Fin cfg0.N) (hf : (cfg0.win 3).flush t = true) :
    (dats m 0 c).flushed 3 t = ((cfg0.win 3).blk t).view.read (Elt Ideal) (rows (s3 m c)) :=
  flushed_3_of m c (q3 m c) (s3 m c) (q3_fun m c) (fun n h j => (lanes_all m c n h j).1) t hf

theorem cover_3 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 16 := N_0
  have h0 : (i 0 : ℕ) < 2 := (i 0).isLt
  have h1 : (i 1 : ℕ) < 1 := (i 1).isLt
  have h2 : (i 2 : ℕ) < 128 := (i 2).isLt
  obtain ⟨t, ht⟩ : ∃ t : Fin cfg0.N, t.val = 8 * (i 0 : ℕ) + 7 := ⟨⟨8 * (i 0 : ℕ) + 7, by omega⟩, rfl⟩
  refine ⟨t, (flush0_3 t).mpr (by omega), ?_⟩
  obtain ⟨e0, e1, e2⟩ := (idx_out t).1
  show i ∈ ((View.whole main_v0_0).slice (win0_3.rect t)).set
  rw [View.set_slice_whole, Rect.mem_set_unit]
  intro a
  match a with
  | ⟨0, _⟩ => show win0_3.index t 0 * 1 ≤ (i 0 : ℕ) ∧ (i 0 : ℕ) < win0_3.index t 0 * 1 + 1; rw [e0]; omega
  | ⟨1, _⟩ => show win0_3.index t 1 * 1 ≤ (i 1 : ℕ) ∧ (i 1 : ℕ) < win0_3.index t 1 * 1 + 1; rw [e1]; omega
  | ⟨2, _⟩ => show win0_3.index t 2 * 128 ≤ (i 2 : ℕ) ∧ (i 2 : ℕ) < win0_3.index t 2 * 128 + 128; rw [e2]; omega

theorem final_3 (c : Dev nD) : (dats m 0 c).arrAt 3 cfg0.N = rows (s3 m c) :=
  (dats m 0 c).arrAt_eq_of_cover 3 (rows (s3 m c)) (flushed_3 m c) (cover_3 c)

/-- What a flushing point writes to output 1: its row of the array of ordered half sums, for any family `s` that the
    point's plane sums follow. -/
theorem flushed_4_of (c : Dev nD) (Q : (n : ℕ) → n < cfg0.N → EReal) (s : Fin 16 → EReal)
    (hQ : Q = fun k hk => s ⟨k, lt16 hk⟩)
    (hX : ∀ (n : ℕ) (h : n < cfg0.N) (j : S1x1x128.Idx), (outsAt0 m c n h).2.1 j = run8 Q n h)
    (t : Fin cfg0.N) (hf : (cfg0.win 4).flush t = true) :
    (dats m 0 c).flushed 4 t = ((cfg0.win 4).blk t).view.read (Elt Ideal) (rows s) := by
  subst hQ
  have h7 : t.val % 8 = 7 := (flush0_4 t).mp hf
  have h16 : t.val < 16 := lt16 t.isLt
  funext j
  show (cfg0.win 4).cut (grid0.coords t) ((dats m 0 c).after 4 t) j = _
  rw [after0_4, View.read_apply]
  show (outsAt0 m c t.val t.isLt).2.1 j = rows s (((cfg0.win 4).blk t).view.emb j)
  refine ((hX t.val t.isLt j).trans (run8_half s t.val t.isLt h7 ⟨t.val / 8, by omega⟩ rfl)).trans
    (rows_apply s _ ⟨t.val / 8, by omega⟩ ?_).symm
  have h0 : (j 0).val < 1 := (j 0).isLt
  show win0_4.index t 0 * 1 + 1 * (j 0).val = t.val / 8
  rw [(idx_out t).2.1.1]; omega

theorem flushed_4 (c : Dev nD) (t : Fin cfg0.N) (hf : (cfg0.win 4).flush t = true) :
    (dats m 0 c).flushed 4 t = ((cfg0.win 4).blk t).view.read (Elt Ideal) (rows (s4 m c)) :=
  flushed_4_of m c (q4 m c) (s4 m c) (q4_fun m c) (fun n h j => (lanes_all m c n h j).2.1) t hf

theorem cover_4 (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 16 := N_0
  have h0 : (i 0 : ℕ) < 2 := (i 0).isLt
  have h1 : (i 1 : ℕ) < 1 := (i 1).isLt
  have h2 : (i 2 : ℕ) < 128 := (i 2).isLt
  obtain ⟨t, ht⟩ : ∃ t : Fin cfg0.N, t.val = 8 * (i 0 : ℕ) + 7 := ⟨⟨8 * (i 0 : ℕ) + 7, by omega⟩, rfl⟩
  refine ⟨t, (flush0_4 t).mpr (by omega), ?_⟩
  obtain ⟨e0, e1, e2⟩ := (idx_out t).2.1
  show i ∈ ((View.whole main_v0_1).slice (win0_4.rect t)).set
  rw [View.set_slice_whole, Rect.mem_set_unit]
  intro a
  match a with
  | ⟨0, _⟩ => show win0_4.index t 0 * 1 ≤ (i 0 : ℕ) ∧ (i 0 : ℕ) < win0_4.index t 0 * 1 + 1; rw [e0]; omega
  | ⟨1, _⟩ => show win0_4.index t 1 * 1 ≤ (i 1 : ℕ) ∧ (i 1 : ℕ) < win0_4.index t 1 * 1 + 1; rw [e1]; omega
  | ⟨2, _⟩ => show win0_4.index t 2 * 128 ≤ (i 2 : ℕ) ∧ (i 2 : ℕ) < win0_4.index t 2 * 128 + 128; rw [e2]; omega

theorem final_4 (c : Dev nD) : (dats m 0 c).arrAt 4 cfg0.N = rows (s4 m c) :=
  (dats m 0 c).arrAt_eq_of_cover 4 (rows (s4 m c)) (flushed_4 m c) (cover_4 c)

/-- What a flushing point writes to output 2: its row of the array of ordered half sums, for any family `s` that the
    point's plane sums follow. -/
theorem flushed_5_of (c : Dev nD) (Q : (n : ℕ) → n < cfg0.N → EReal) (s : Fin 16 → EReal)
    (hQ : Q = fun k hk => s ⟨k, lt16 hk⟩)
    (hX : ∀ (n : ℕ) (h : n < cfg0.N) (j : S1x1x128.Idx), (outsAt0 m c n h).2.2.1 j = run8 Q n h)
    (t : Fin cfg0.N) (hf : (cfg0.win 5).flush t = true) :
    (dats m 0 c).flushed 5 t = ((cfg0.win 5).blk t).view.read (Elt Ideal) (rows s) := by
  subst hQ
  have h7 : t.val % 8 = 7 := (flush0_5 t).mp hf
  have h16 : t.val < 16 := lt16 t.isLt
  funext j
  show (cfg0.win 5).cut (grid0.coords t) ((dats m 0 c).after 5 t) j = _
  rw [after0_5, View.read_apply]
  show (outsAt0 m c t.val t.isLt).2.2.1 j = rows s (((cfg0.win 5).blk t).view.emb j)
  refine ((hX t.val t.isLt j).trans (run8_half s t.val t.isLt h7 ⟨t.val / 8, by omega⟩ rfl)).trans
    (rows_apply s _ ⟨t.val / 8, by omega⟩ ?_).symm
  have h0 : (j 0).val < 1 := (j 0).isLt
  show win0_5.index t 0 * 1 + 1 * (j 0).val = t.val / 8
  rw [(idx_out t).2.2.1.1]; omega

theorem flushed_5 (c : Dev nD) (t : Fin cfg0.N) (hf : (cfg0.win 5).flush t = true) :
    (dats m 0 c).flushed 5 t = ((cfg0.win 5).blk t).view.read (Elt Ideal) (rows (s5 m c)) :=
  flushed_5_of m c (q5 m c) (s5 m c) (q5_fun m c) (fun n h j => (lanes_all m c n h j).2.2.1) t hf

theorem cover_5 (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 16 := N_0
  have h0 : (i 0 : ℕ) < 2 := (i 0).isLt
  have h1 : (i 1 : ℕ) < 1 := (i 1).isLt
  have h2 : (i 2 : ℕ) < 128 := (i 2).isLt
  obtain ⟨t, ht⟩ : ∃ t : Fin cfg0.N, t.val = 8 * (i 0 : ℕ) + 7 := ⟨⟨8 * (i 0 : ℕ) + 7, by omega⟩, rfl⟩
  refine ⟨t, (flush0_5 t).mpr (by omega), ?_⟩
  obtain ⟨e0, e1, e2⟩ := (idx_out t).2.2.1
  show i ∈ ((View.whole main_v0_2).slice (win0_5.rect t)).set
  rw [View.set_slice_whole, Rect.mem_set_unit]
  intro a
  match a with
  | ⟨0, _⟩ => show win0_5.index t 0 * 1 ≤ (i 0 : ℕ) ∧ (i 0 : ℕ) < win0_5.index t 0 * 1 + 1; rw [e0]; omega
  | ⟨1, _⟩ => show win0_5.index t 1 * 1 ≤ (i 1 : ℕ) ∧ (i 1 : ℕ) < win0_5.index t 1 * 1 + 1; rw [e1]; omega
  | ⟨2, _⟩ => show win0_5.index t 2 * 128 ≤ (i 2 : ℕ) ∧ (i 2 : ℕ) < win0_5.index t 2 * 128 + 128; rw [e2]; omega

theorem final_5 (c : Dev nD) : (dats m 0 c).arrAt 5 cfg0.N = rows (s5 m c) :=
  (dats m 0 c).arrAt_eq_of_cover 5 (rows (s5 m c)) (flushed_5 m c) (cover_5 c)

/-- What a flushing point writes to output 3: its row of the array of ordered half sums, for any family `s` that the
    point's plane sums follow. -/
theorem flushed_6_of (c : Dev nD) (Q : (n : ℕ) → n < cfg0.N → EReal) (s : Fin 16 → EReal)
    (hQ : Q = fun k hk => s ⟨k, lt16 hk⟩)
    (hX : ∀ (n : ℕ) (h : n < cfg0.N) (j : S1x1x128.Idx), (outsAt0 m c n h).2.2.2.1 j = run8 Q n h)
    (t : Fin cfg0.N) (hf : (cfg0.win 6).flush t = true) :
    (dats m 0 c).flushed 6 t = ((cfg0.win 6).blk t).view.read (Elt Ideal) (rows s) := by
  subst hQ
  have h7 : t.val % 8 = 7 := (flush0_6 t).mp hf
  have h16 : t.val < 16 := lt16 t.isLt
  funext j
  show (cfg0.win 6).cut (grid0.coords t) ((dats m 0 c).after 6 t) j = _
  rw [after0_6, View.read_apply]
  show (outsAt0 m c t.val t.isLt).2.2.2.1 j = rows s (((cfg0.win 6).blk t).view.emb j)
  refine ((hX t.val t.isLt j).trans (run8_half s t.val t.isLt h7 ⟨t.val / 8, by omega⟩ rfl)).trans
    (rows_apply s _ ⟨t.val / 8, by omega⟩ ?_).symm
  have h0 : (j 0).val < 1 := (j 0).isLt
  show win0_6.index t 0 * 1 + 1 * (j 0).val = t.val / 8
  rw [(idx_out t).2.2.2.1.1]; omega

theorem flushed_6 (c : Dev nD) (t : Fin cfg0.N) (hf : (cfg0.win 6).flush t = true) :
    (dats m 0 c).flushed 6 t = ((cfg0.win 6).blk t).view.read (Elt Ideal) (rows (s6 m c)) :=
  flushed_6_of m c (q6 m c) (s6 m c) (q6_fun m c) (fun n h j => (lanes_all m c n h j).2.2.2.1) t hf

theorem cover_6 (c : Dev nD) (i : ((cfg0.win 6).arr.view.loc (c.tc : Thread nD τ)).2.ty.Idx) :
    ∃ t : Fin cfg0.N, (cfg0.win 6).flush t = true ∧ i ∈ ((cfg0.win 6).blk t).view.set := by
  have hN : cfg0.N = 16 := N_0
  have h0 : (i 0 : ℕ) < 2 := (i 0).isLt
  have h1 : (i 1 : ℕ) < 1 := (i 1).isLt
  have h2 : (i 2 : ℕ) < 128 := (i 2).isLt
  obtain ⟨t, ht⟩ : ∃ t : Fin cfg0.N, t.val = 8 * (i 0 : ℕ) + 7 := ⟨⟨8 * (i 0 : ℕ) + 7, by omega⟩, rfl⟩
  refine ⟨t, (flush0_6 t).mpr (by omega), ?_⟩
  obtain ⟨e0, e1, e2⟩ := (idx_out t).2.2.2.1
  show i ∈ ((View.whole main_v0_3).slice (win0_6.rect t)).set
  rw [View.set_slice_whole, Rect.mem_set_unit]
  intro a
  match a with
  | ⟨0, _⟩ => show win0_6.index t 0 * 1 ≤ (i 0 : ℕ) ∧ (i 0 : ℕ) < win0_6.index t 0 * 1 + 1; rw [e0]; omega
  | ⟨1, _⟩ => show win0_6.index t 1 * 1 ≤ (i 1 : ℕ) ∧ (i 1 : ℕ) < win0_6.index t 1 * 1 + 1; rw [e1]; omega
  | ⟨2, _⟩ => show win0_6.index t 2 * 128 ≤ (i 2 : ℕ) ∧ (i 2 : ℕ) < win0_6.index t 2 * 128 + 128; rw [e2]; omega

theorem final_6 (c : Dev nD) : (dats m 0 c).arrAt 6 cfg0.N = rows (s6 m c) :=
  (dats m 0 c).arrAt_eq_of_cover 6 (rows (s6 m c)) (flushed_6 m c) (cover_6 c)

/-- What a flushing point writes to output 4: its row of the array of ordered half sums, for any family `s` that the
    point's plane sums follow. -/
theorem flushed_7_of (c : Dev nD) (Q : (n : ℕ) → n < cfg0.N → EReal) (s : Fin 16 → EReal)
    (hQ : Q = fun k hk => s ⟨k, lt16 hk⟩)
    (hX : ∀ (n : ℕ) (h : n < cfg0.N) (j : S1x1x128.Idx), (outsAt0 m c n h).2.2.2.2.1 j = run8 Q n h)
    (t : Fin cfg0.N) (hf : (cfg0.win 7).flush t = true) :
    (dats m 0 c).flushed 7 t = ((cfg0.win 7).blk t).view.read (Elt Ideal) (rows s) := by
  subst hQ
  have h7 : t.val % 8 = 7 := (flush0_7 t).mp hf
  have h16 : t.val < 16 := lt16 t.isLt
  funext j
  show (cfg0.win 7).cut (grid0.coords t) ((dats m 0 c).after 7 t) j = _
  rw [after0_7, View.read_apply]
  show (outsAt0 m c t.val t.isLt).2.2.2.2.1 j = rows s (((cfg0.win 7).blk t).view.emb j)
  refine ((hX t.val t.isLt j).trans (run8_half s t.val t.isLt h7 ⟨t.val / 8, by omega⟩ rfl)).trans
    (rows_apply s _ ⟨t.val / 8, by omega⟩ ?_).symm
  have h0 : (j 0).val < 1 := (j 0).isLt
  show win0_7.index t 0 * 1 + 1 * (j 0).val = t.val / 8
  rw [(idx_out t).2.2.2.2.1.1]; omega

theorem flushed_7 (c : Dev nD) (t : Fin cfg0.N) (hf : (cfg0.win 7).flush t = true) :
    (dats m 0 c).flushed 7 t = ((cfg0.win 7).blk t).view.read (Elt Ideal) (rows (s7 m c)) :=
  flushed_7_of m c (q7 m c) (s7 m c) (q7_fun m c) (fun n h j => (lanes_all m c n h j).2.2.2.2.1) t hf

theorem cover_7 (c : Dev nD) (i : ((cfg0.win 7).arr.view.loc (c.tc : Thread nD τ)).2.ty.Idx) :
    ∃ t : Fin cfg0.N, (cfg0.win 7).flush t = true ∧ i ∈ ((cfg0.win 7).blk t).view.set := by
  have hN : cfg0.N = 16 := N_0
  have h0 : (i 0 : ℕ) < 2 := (i 0).isLt
  have h1 : (i 1 : ℕ) < 1 := (i 1).isLt
  have h2 : (i 2 : ℕ) < 128 := (i 2).isLt
  obtain ⟨t, ht⟩ : ∃ t : Fin cfg0.N, t.val = 8 * (i 0 : ℕ) + 7 := ⟨⟨8 * (i 0 : ℕ) + 7, by omega⟩, rfl⟩
  refine ⟨t, (flush0_7 t).mpr (by omega), ?_⟩
  obtain ⟨e0, e1, e2⟩ := (idx_out t).2.2.2.2.1
  show i ∈ ((View.whole main_v0_4).slice (win0_7.rect t)).set
  rw [View.set_slice_whole, Rect.mem_set_unit]
  intro a
  match a with
  | ⟨0, _⟩ => show win0_7.index t 0 * 1 ≤ (i 0 : ℕ) ∧ (i 0 : ℕ) < win0_7.index t 0 * 1 + 1; rw [e0]; omega
  | ⟨1, _⟩ => show win0_7.index t 1 * 1 ≤ (i 1 : ℕ) ∧ (i 1 : ℕ) < win0_7.index t 1 * 1 + 1; rw [e1]; omega
  | ⟨2, _⟩ => show win0_7.index t 2 * 128 ≤ (i 2 : ℕ) ∧ (i 2 : ℕ) < win0_7.index t 2 * 128 + 128; rw [e2]; omega

theorem final_7 (c : Dev nD) : (dats m 0 c).arrAt 7 cfg0.N = rows (s7 m c) :=
  (dats m 0 c).arrAt_eq_of_cover 7 (rows (s7 m c)) (flushed_7 m c) (cover_7 c)

/-- What a flushing point writes to output 5: its row of the array of ordered half sums, for any family `s` that the
    point's plane sums follow. -/
theorem flushed_8_of (c : Dev nD) (Q : (n : ℕ) → n < cfg0.N → EReal) (s : Fin 16 → EReal)
    (hQ : Q = fun k hk => s ⟨k, lt16 hk⟩)
    (hX : ∀ (n : ℕ) (h : n < cfg0.N) (j : S1x1x128.Idx), (outsAt0 m c n h).2.2.2.2.2 j = run8 Q n h)
    (t : Fin cfg0.N) (hf : (cfg0.win 8).flush t = true) :
    (dats m 0 c).flushed 8 t = ((cfg0.win 8).blk t).view.read (Elt Ideal) (rows s) := by
  subst hQ
  have h7 : t.val % 8 = 7 := (flush0_8 t).mp hf
  have h16 : t.val < 16 := lt16 t.isLt
  funext j
  show (cfg0.win 8).cut (grid0.coords t) ((dats m 0 c).after 8 t) j = _
  rw [after0_8, View.read_apply]
  show (outsAt0 m c t.val t.isLt).2.2.2.2.2 j = rows s (((cfg0.win 8).blk t).view.emb j)
  refine ((hX t.val t.isLt j).trans (run8_half s t.val t.isLt h7 ⟨t.val / 8, by omega⟩ rfl)).trans
    (rows_apply s _ ⟨t.val / 8, by omega⟩ ?_).symm
  have h0 : (j 0).val < 1 := (j 0).isLt
  show win0_8.index t 0 * 1 + 1 * (j 0).val = t.val / 8
  rw [(idx_out t).2.2.2.2.2.1]; omega

theorem flushed_8 (c : Dev nD) (t : Fin cfg0.N) (hf : (cfg0.win 8).flush t = true) :
    (dats m 0 c).flushed 8 t = ((cfg0.win 8).blk t).view.read (Elt Ideal) (rows (s8 m c)) :=
  flushed_8_of m c (q8 m c) (s8 m c) (q8_fun m c) (fun n h j => (lanes_all m c n h j).2.2.2.2.2) t hf

theorem cover_8 (c : Dev nD) (i : ((cfg0.win 8).arr.view.loc (c.tc : Thread nD τ)).2.ty.Idx) :
    ∃ t : Fin cfg0.N, (cfg0.win 8).flush t = true ∧ i ∈ ((cfg0.win 8).blk t).view.set := by
  have hN : cfg0.N = 16 := N_0
  have h0 : (i 0 : ℕ) < 2 := (i 0).isLt
  have h1 : (i 1 : ℕ) < 1 := (i 1).isLt
  have h2 : (i 2 : ℕ) < 128 := (i 2).isLt
  obtain ⟨t, ht⟩ : ∃ t : Fin cfg0.N, t.val = 8 * (i 0 : ℕ) + 7 := ⟨⟨8 * (i 0 : ℕ) + 7, by omega⟩, rfl⟩
  refine ⟨t, (flush0_8 t).mpr (by omega), ?_⟩
  obtain ⟨e0, e1, e2⟩ := (idx_out t).2.2.2.2.2
  show i ∈ ((View.whole main_v0_5).slice (win0_8.rect t)).set
  rw [View.set_slice_whole, Rect.mem_set_unit]
  intro a
  match a with
  | ⟨0, _⟩ => show win0_8.index t 0 * 1 ≤ (i 0 : ℕ) ∧ (i 0 : ℕ) < win0_8.index t 0 * 1 + 1; rw [e0]; omega
  | ⟨1, _⟩ => show win0_8.index t 1 * 1 ≤ (i 1 : ℕ) ∧ (i 1 : ℕ) < win0_8.index t 1 * 1 + 1; rw [e1]; omega
  | ⟨2, _⟩ => show win0_8.index t 2 * 128 ≤ (i 2 : ℕ) ∧ (i 2 : ℕ) < win0_8.index t 2 * 128 + 128; rw [e2]; omega

theorem final_8 (c : Dev nD) : (dats m 0 c).arrAt 8 cfg0.N = rows (s8 m c) :=
  (dats m 0 c).arrAt_eq_of_cover 8 (rows (s8 m c)) (flushed_8 m c) (cover_8 c)

end Cert.KernelIdeal.Arrays

end
-- ==== Proof.KRun.lean ====
/-
  The idealized kernel's run, read: the grid walks the sixteen batch elements in two halves of eight, each half's six
  accumulators end at zero plus the eight plane sums of its elements in order, lane 0 of the two halves is summed on the
  host, and the host's scalar arithmetic makes the loss of the six sums.
-/
import proofs.«406890_j71588514889850_3_alg».proof.Proof.KPieces
import proofs.«406890_j71588514889850_3_alg».proof.Proof.KArrays
import Idealize.ShloMosaic.Lib.StableHlo.Run
import Idealize.ShloMosaic.Lib.IdealHost

noncomputable section

open Idealize.ShloMosaic Idealize.ShloMosaic.TcCoe Idealize.ShloMosaic.ValueIdx Idealize.SL.Sem

namespace Cert.KernelIdeal.RunValue

open Cert.KernelIdeal Cert.KernelIdeal.Gen Cert.Bicon

variable (m : (ℓ : Loc nD τ sig) → Buf (Elt Ideal) ℓ) (ρ : Dev nD → PrngReg)

/-! ## The host's reading of one output array

Lane 0 of the two rows, as a vector of two, summed from zero. -/

def rowSum (A : Vec Ideal S2x1x128 .f32) : Vec Ideal S_ .f32 :=
  Host.reduceAdd (shapeCast S2 (extractStridedSlice S2x1x1 ![0, 0, 0] A slices_S2x1x128_S2x1x1_0_0_0) shapeCasts_S2x1x1_S2)
    (constant (F := Ideal) S_ .f32 0x00000000#32) reducesTo_S2_S_d0 h_S_

/-- A sum over the indices of a vector is the sum over its coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

/-- Of an array whose row `q` holds the ordered sum of half `q` of a family in every lane, that is the family's sum. -/
theorem rowSum_rows (s : Fin 16 → EReal) (j : S_.Idx) : rowSum (Arrays.rows s) j = ∑ b : Fin 16, s b := by
  unfold rowSum
  rw [hostReduceAdd_apply, Ideal.hostReduceAdd_total reducesTo_S2_S_d0 (fun b => b.elim0)]
  have e : ∀ q : Fin 2, shapeCast S2 (extractStridedSlice S2x1x1 ![0, 0, 0] (Arrays.rows s) slices_S2x1x128_S2x1x1_0_0_0) shapeCasts_S2x1x1_S2 (ix1 q)
      = half8 s q := fun q => by
    refine (shapeCast_apply _ _ _ (ix3 q 0 0) ?_).trans ?_
    · rw [Shape.rowMajor_val_three, Shape.rowMajor_val_one]
      show (q.val * 1 + 0) * 1 + 0 = q.val
      omega
    · refine (extractStridedSlice_apply _ _ _ _ (ix3 q 0 0) ?_).trans rfl
      intro a
      fin_cases a
      · exact (Nat.zero_add _).symm
      · rfl
      · rfl
  rw [sum_idx1]
  simp only [e]
  show Ideal.ofBits .f32 0x00000000#32 + _ = _
  rw [ofBits_zero]
  exact halves_eq_sum s

/-! ## The host's arithmetic on the six sums -/

/-- The lines after the region, as one function of the six output arrays. -/
def tailFn (A3 A4 A5 A6 A7 A8 : Vec Ideal S2x1x128 .f32) : Vec Ideal S_ .f32 :=
  addf (addf (addf
      (mulf (constant (F := Ideal) S_ .f32 0x3F4CCCCD#32) (Host.divf (Host.negf (rowSum A5)) (constant (F := Ideal) S_ .f32 0x4B720000#32)))
      (mulf (constant (F := Ideal) S_ .f32 0x3E4CCCCD#32) (Host.divf (Host.negf (rowSum A4)) (constant (F := Ideal) S_ .f32 0x4B720000#32))))
      (Host.divf (Host.negf (rowSum A3)) (constant (F := Ideal) S_ .f32 0x49F20000#32)))
    (Host.divf (subf (addf (rowSum A6) (rowSum A7)) (mulf (constant (F := Ideal) S_ .f32 0x40000000#32) (rowSum A8)))
      (addf (addf (rowSum A6) (rowSum A7)) (constant (F := Ideal) S_ .f32 0x358637BD#32)))

/-- On arrays that hold the halves' ordered sums of six families it is the loss of the families' sums. -/
theorem tailFn_rows (s3 s4 s5 s6 s7 s8 : Fin 16 → EReal) :
    tailFn (Arrays.rows s3) (Arrays.rows s4) (Arrays.rows s5) (Arrays.rows s6) (Arrays.rows s7) (Arrays.rows s8)
      = fun _ => lossK (∑ b, s3 b) (∑ b, s4 b) (∑ b, s5 b) (∑ b, s6 b) (∑ b, s7 b) (∑ b, s8 b) := by
  funext j
  show Ideal.ofBits .f32 0x3F4CCCCD#32 * Ideal.div (-(rowSum (Arrays.rows s5) j)) (Ideal.ofBits .f32 0x4B720000#32)
      + Ideal.ofBits .f32 0x3E4CCCCD#32 * Ideal.div (-(rowSum (Arrays.rows s4) j)) (Ideal.ofBits .f32 0x4B720000#32)
      + Ideal.div (-(rowSum (Arrays.rows s3) j)) (Ideal.ofBits .f32 0x49F20000#32)
      + Ideal.div (rowSum (Arrays.rows s6) j + rowSum (Arrays.rows s7) j - Ideal.ofBits .f32 0x40000000#32 * rowSum (Arrays.rows s8) j)
          (rowSum (Arrays.rows s6) j + rowSum (Arrays.rows s7) j + Ideal.ofBits .f32 0x358637BD#32) = _
  rw [rowSum_rows, rowSum_rows, rowSum_rows, rowSum_rows, rowSum_rows, rowSum_rows, ofBits_two]
  rfl

/-! ## The lines after the region, from any contents -/

theorem tail_after (W : Valuation τ sig (Elt Ideal)) :
    (StableHlo.after (hostOps1 (F := Ideal)) W (Proc.devRef .tc main_v35) : Vec Ideal S_ .f32)
      = tailFn (W (Proc.devRef .tc main_v0_0)) (W (Proc.devRef .tc main_v0_1)) (W (Proc.devRef .tc main_v0_2))
          (W (Proc.devRef .tc main_v0_3)) (W (Proc.devRef .tc main_v0_4)) (W (Proc.devRef .tc main_v0_5)) := by
  after_results_simp
  rfl

/-! ## The run -/

/-- The six sums of the argument arrays are the sums over the batch of the batch elements' plane sums. -/
theorem loss_of_sums (c : Dev nD) :
    (fun _ : S_.Idx => lossK (∑ b, Arrays.s3 m c b) (∑ b, Arrays.s4 m c b) (∑ b, Arrays.s5 m c b) (∑ b, Arrays.s6 m c b)
        (∑ b, Arrays.s7 m c b) (∑ b, Arrays.s8 m c b))
      = fun _ => lossK (sDec (Arrays.arrO m c) (Arrays.arrT m c) (Arrays.arrC m c)) (sBim (Arrays.arrO m c) (Arrays.arrC m c))
          (sCmap (Arrays.arrO m c) (Arrays.arrC m c)) (sGm (Arrays.arrO m c)) (sTgt (Arrays.arrT m c))
          (sInter (Arrays.arrO m c) (Arrays.arrT m c)) := rfl

/-- Every weakly fair execution of the idealized kernel terminates with its result at the loss of the six sums of the
    argument arrays, and the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v35)
        = (fun _ => lossK (sDec (m ((c.tc : Thread nD τ).loc main_arg0)) (m ((c.tc : Thread nD τ).loc main_arg1)) (m ((c.tc : Thread nD τ).loc main_arg2)))
            (sBim (m ((c.tc : Thread nD τ).loc main_arg0)) (m ((c.tc : Thread nD τ).loc main_arg2)))
            (sCmap (m ((c.tc : Thread nD τ).loc main_arg0)) (m ((c.tc : Thread nD τ).loc main_arg2)))
            (sGm (m ((c.tc : Thread nD τ).loc main_arg0)))
            (sTgt (m ((c.tc : Thread nD τ).loc main_arg1)))
            (sInter (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main m ρ)
  · -- the result is what the lines after the region make of the six output arrays as the grid leaves them
    refine ((h c).2 main_v35 (Pipeline.mem_restRefs_of main_v35 (by decide) (by decide))).trans ?_
    unfold Pipeline.afterTail₀
    show StableHlo.after hostOps1 _ (Proc.devRef .tc main_v35) = _
    refine (tail_after _).trans ?_
    refine Eq.trans ?_ ((tailFn_rows _ _ _ _ _ _).trans (loss_of_sums m c))
    exact congr (congr (congr (congr (congr (congrArg tailFn
      ((Pipeline.withArrays_arr spec0 launch0.win.arr_inj c _ _ 3).trans (Arrays.final_3 m c)))
      ((Pipeline.withArrays_arr spec0 launch0.win.arr_inj c _ _ 4).trans (Arrays.final_4 m c)))
      ((Pipeline.withArrays_arr spec0 launch0.win.arr_inj c _ _ 5).trans (Arrays.final_5 m c)))
      ((Pipeline.withArrays_arr spec0 launch0.win.arr_inj c _ _ 6).trans (Arrays.final_6 m c)))
      ((Pipeline.withArrays_arr spec0 launch0.win.arr_inj c _ _ 7).trans (Arrays.final_7 m c)))
      ((Pipeline.withArrays_arr spec0 launch0.win.arr_inj c _ _ 8).trans (Arrays.final_8 m c))
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))

end Cert.KernelIdeal.RunValue

end
-- ==== Proof.RefRunW0.lean ====
/- The reference program's operations 1 … 72 (its window 0), read stage by stage. For contents V of the device's
  buffers at which every buffer written earlier and read later holds its stage value of the arguments x0 x1 x2 (the
  argument buffers holding x0 x1 x2 themselves), the contents after the window's operations have the same property.
  The window is cut into lists of at most eight operations; `st_k` is the statement for one list: a buffer the list
  does not write keeps its contents, and a buffer it writes holds its operation's function of the operands' contents,
  which is the stage value by definition once the operands' contents are rewritten to their stage values.
-/
import proofs.«406890_j71588514889850_3_alg».proof.Proof.RefRead
import proofs.«406890_j71588514889850_3_alg».proof.Proof.RefRunOps
import Idealize.ShloMosaic.Lib.StableHlo.Run
import Idealize.ShloMosaic.Lib.Pipeline.Frame

noncomputable section

namespace Cert.ReferenceIdeal.RefRunW0

open Cert.ReferenceIdeal Cert.ReferenceIdeal.Gen Cert.ReferenceIdeal.RefRead Cert.ReferenceIdeal.RefRunOps Idealize.ShloMosaic Idealize.ShloMosaic.TcCoe Idealize.SL.Sem Idealize.ShloMosaic.StableHlo

variable {F : FTy → Type} [FloatOps F]

/-- Operations 1 … 8: from contents at which the buffers read later hold their stage values, to contents at which they do. -/
theorem st_0 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    :
    after ops_0 V (Proc.devRef .tc main_arg0) = x0
    ∧ after ops_0 V (Proc.devRef .tc main_arg1) = x1
    ∧ after ops_0 V (Proc.devRef .tc main_arg2) = x2
    ∧ after ops_0 V (Proc.devRef .tc main_v0) = val_main_v0 (F := F) x1
    ∧ after ops_0 V (Proc.devRef .tc main_v1) = val_main_v1 (F := F) x2
    ∧ after ops_0 V (Proc.devRef .tc main_v5) = val_main_v5 (F := F) x0
    ∧ after ops_0 V (Proc.devRef .tc main_cst_0) = val_main_cst_0 (F := F) := by
  refine ⟨?_, ?_, ?_, ?_, ?_, ?_, ?_⟩
  · simp only [ops_0]; after_results_simp; exact h_arg0
  · simp only [ops_0]; after_results_simp; exact h_arg1
  · simp only [ops_0]; after_results_simp; exact h_arg2
  · simp only [ops_0]; after_results_simp; rw [h_arg1]; try rfl
  · simp only [ops_0]; after_results_simp; rw [h_arg2]; try rfl
  · simp only [ops_0]; after_results_simp; rw [h_arg0]; try rfl
  · simp only [ops_0]; after_results_simp; try rfl

/-- Operations 9 … 16: from contents at which the buffers read later hold their stage values, to contents at which they do. -/
theorem st_1 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v5 : V (Proc.devRef .tc main_v5) = val_main_v5 (F := F) x0)
    (h_cst_0 : V (Proc.devRef .tc main_cst_0) = val_main_cst_0 (F := F))
    :
    after ops_1 V (Proc.devRef .tc main_arg0) = x0
    ∧ after ops_1 V (Proc.devRef .tc main_arg1) = x1
    ∧ after ops_1 V (Proc.devRef .tc main_arg2) = x2
    ∧ after ops_1 V (Proc.devRef .tc main_v0) = val_main_v0 (F := F) x1
    ∧ after ops_1 V (Proc.devRef .tc main_v1) = val_main_v1 (F := F) x2
    ∧ after ops_1 V (Proc.devRef .tc main_v7) = val_main_v7 (F := F) x0
    ∧ after ops_1 V (Proc.devRef .tc main_v8) = val_main_v8 (F := F) x2
    ∧ after ops_1 V (Proc.devRef .tc main_v10) = val_main_v10 (F := F) x2
    ∧ after ops_1 V (Proc.devRef .tc main_cst_3) = val_main_cst_3 (F := F) := by
  refine ⟨?_, ?_, ?_, ?_, ?_, ?_, ?_, ?_, ?_⟩
  · simp only [ops_1]; after_results_simp; exact h_arg0
  · simp only [ops_1]; after_results_simp; exact h_arg1
  · simp only [ops_1]; after_results_simp; exact h_arg2
  · simp only [ops_1]; after_results_simp; exact h_v0
  · simp only [ops_1]; after_results_simp; exact h_v1
  · simp only [ops_1]; after_results_simp; rw [h_v5, h_cst_0]; try rfl
  · simp only [ops_1]; after_results_simp; rw [h_v1]; try rfl
  · simp only [ops_1]; after_results_simp; rw [h_v1]; try rfl
  · simp only [ops_1]; after_results_simp; try rfl

/-- Operations 17 … 24: from contents at which the buffers read later hold their stage values, to contents at which they do. -/
theorem st_2 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v8 : V (Proc.devRef .tc main_v8) = val_main_v8 (F := F) x2)
    (h_v10 : V (Proc.devRef .tc main_v10) = val_main_v10 (F := F) x2)
    (h_cst_3 : V (Proc.devRef .tc main_cst_3) = val_main_cst_3 (F := F))
    :
    after ops_2 V (Proc.devRef .tc main_arg0) = x0
    ∧ after ops_2 V (Proc.devRef .tc main_arg1) = x1
    ∧ after ops_2 V (Proc.devRef .tc main_arg2) = x2
    ∧ after ops_2 V (Proc.devRef .tc main_v0) = val_main_v0 (F := F) x1
    ∧ after ops_2 V (Proc.devRef .tc main_v1) = val_main_v1 (F := F) x2
    ∧ after ops_2 V (Proc.devRef .tc main_v7) = val_main_v7 (F := F) x0
    ∧ after ops_2 V (Proc.devRef .tc main_v11) = val_main_v11 (F := F) x2
    ∧ after ops_2 V (Proc.devRef .tc main_v13) = val_main_v13 (F := F) x2
    ∧ after ops_2 V (Proc.devRef .tc main_cst_6) = val_main_cst_6 (F := F) := by
  refine ⟨?_, ?_, ?_, ?_, ?_, ?_, ?_, ?_, ?_⟩
  · simp only [ops_2]; after_results_simp; exact h_arg0
  · simp only [ops_2]; after_results_simp; exact h_arg1
  · simp only [ops_2]; after_results_simp; exact h_arg2
  · simp only [ops_2]; after_results_simp; exact h_v0
  · simp only [ops_2]; after_results_simp; exact h_v1
  · simp only [ops_2]; after_results_simp; exact h_v7
  · simp only [ops_2]; after_results_simp; rw [h_cst_3, h_v10]; try rfl
  · simp only [ops_2]; after_results_simp; rw [h_v8]; try rfl
  · simp only [ops_2]; after_results_simp; try rfl

/-- Operations 25 … 32: from contents at which the buffers read later hold their stage values, to contents at which they do. -/
theorem st_3 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v11 : V (Proc.devRef .tc main_v11) = val_main_v11 (F := F) x2)
    (h_v13 : V (Proc.devRef .tc main_v13) = val_main_v13 (F := F) x2)
    (h_cst_6 : V (Proc.devRef .tc main_cst_6) = val_main_cst_6 (F := F))
    :
    after ops_3 V (Proc.devRef .tc main_arg0) = x0
    ∧ after ops_3 V (Proc.devRef .tc main_arg1) = x1
    ∧ after ops_3 V (Proc.devRef .tc main_arg2) = x2
    ∧ after ops_3 V (Proc.devRef .tc main_v0) = val_main_v0 (F := F) x1
    ∧ after ops_3 V (Proc.devRef .tc main_v1) = val_main_v1 (F := F) x2
    ∧ after ops_3 V (Proc.devRef .tc main_v7) = val_main_v7 (F := F) x0
    ∧ after ops_3 V (Proc.devRef .tc main_v15) = val_main_v15 (F := F) x2
    ∧ after ops_3 V (Proc.devRef .tc main_v17) = val_main_v17 (F := F) x0
    ∧ after ops_3 V (Proc.devRef .tc main_c) = val_main_c (F := F) := by
  refine ⟨?_, ?_, ?_, ?_, ?_, ?_, ?_, ?_, ?_⟩
  · simp only [ops_3]; after_results_simp; exact h_arg0
  · simp only [ops_3]; after_results_simp; exact h_arg1
  · simp only [ops_3]; after_results_simp; exact h_arg2
  · simp only [ops_3]; after_results_simp; exact h_v0
  · simp only [ops_3]; after_results_simp; exact h_v1
  · simp only [ops_3]; after_results_simp; exact h_v7
  · simp only [ops_3]; after_results_simp; rw [h_cst_6, h_v13, h_v11]; try rfl
  · simp only [ops_3]; after_results_simp; rw [h_v7]; try rfl
  · simp only [ops_3]; after_results_simp; try rfl

/-- Operations 33 … 40: from contents at which the buffers read later hold their stage values, to contents at which they do. -/
theorem st_4 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v17 : V (Proc.devRef .tc main_v17) = val_main_v17 (F := F) x0)
    (h_c : V (Proc.devRef .tc main_c) = val_main_c (F := F))
    :
    after ops_4 V (Proc.devRef .tc main_arg0) = x0
    ∧ after ops_4 V (Proc.devRef .tc main_arg1) = x1
    ∧ after ops_4 V (Proc.devRef .tc main_arg2) = x2
    ∧ after ops_4 V (Proc.devRef .tc main_v0) = val_main_v0 (F := F) x1
    ∧ after ops_4 V (Proc.devRef .tc main_v1) = val_main_v1 (F := F) x2
    ∧ after ops_4 V (Proc.devRef .tc main_v7) = val_main_v7 (F := F) x0
    ∧ after ops_4 V (Proc.devRef .tc main_v15) = val_main_v15 (F := F) x2
    ∧ after ops_4 V (Proc.devRef .tc main_v19) = val_main_v19 (F := F) x0
    ∧ after ops_4 V (Proc.devRef .tc main_v22) = val_main_v22 (F := F) x0 := by
  refine ⟨?_, ?_, ?_, ?_, ?_, ?_, ?_, ?_, ?_⟩
  · simp only [ops_4]; after_results_simp; exact h_arg0
  · simp only [ops_4]; after_results_simp; exact h_arg1
  · simp only [ops_4]; after_results_simp; exact h_arg2
  · simp only [ops_4]; after_results_simp; exact h_v0
  · simp only [ops_4]; after_results_simp; exact h_v1
  · simp only [ops_4]; after_results_simp; exact h_v7
  · simp only [ops_4]; after_results_simp; exact h_v15
  · simp only [ops_4]; after_results_simp; rw [h_c, h_v17]; try rfl
  · simp only [ops_4]; after_results_simp; rw [h_v7]; try rfl

/-- Operations 41 … 48: from contents at which the buffers read later hold their stage values, to contents at which they do. -/
theorem st_5 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v19 : V (Proc.devRef .tc main_v19) = val_main_v19 (F := F) x0)
    (h_v22 : V (Proc.devRef .tc main_v22) = val_main_v22 (F := F) x0)
    :
    after ops_5 V (Proc.devRef .tc main_arg0) = x0
    ∧ after ops_5 V (Proc.devRef .tc main_arg1) = x1
    ∧ after ops_5 V (Proc.devRef .tc main_arg2) = x2
    ∧ after ops_5 V (Proc.devRef .tc main_v0) = val_main_v0 (F := F) x1
    ∧ after ops_5 V (Proc.devRef .tc main_v1) = val_main_v1 (F := F) x2
    ∧ after ops_5 V (Proc.devRef .tc main_v7) = val_main_v7 (F := F) x0
    ∧ after ops_5 V (Proc.devRef .tc main_v15) = val_main_v15 (F := F) x2
    ∧ after ops_5 V (Proc.devRef .tc main_v19) = val_main_v19 (F := F) x0
    ∧ after ops_5 V (Proc.devRef .tc main_v23) = val_main_v23 (F := F) x0
    ∧ after ops_5 V (Proc.devRef .tc main_v27) = val_main_v27 (F := F) x0
    ∧ after ops_5 V (Proc.devRef .tc main_c_10) = val_main_c_10 (F := F) := by
  refine ⟨?_, ?_, ?_, ?_, ?_, ?_, ?_, ?_, ?_, ?_, ?_⟩
  · simp only [ops_5]; after_results_simp; exact h_arg0
  · simp only [ops_5]; after_results_simp; exact h_arg1
  · simp only [ops_5]; after_results_simp; exact h_arg2
  · simp only [ops_5]; after_results_simp; exact h_v0
  · simp only [ops_5]; after_results_simp; exact h_v1
  · simp only [ops_5]; after_results_simp; exact h_v7
  · simp only [ops_5]; after_results_simp; exact h_v15
  · simp only [ops_5]; after_results_simp; exact h_v19
  · simp only [ops_5]; after_results_simp; rw [h_v22]; try rfl
  · simp only [ops_5]; after_results_simp; rw [h_v7]; try rfl
  · simp only [ops_5]; after_results_simp; try rfl

/-- Operations 49 … 56: from contents at which the buffers read later hold their stage values, to contents at which they do. -/
theorem st_6 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v19 : V (Proc.devRef .tc main_v19) = val_main_v19 (F := F) x0)
    (h_v23 : V (Proc.devRef .tc main_v23) = val_main_v23 (F := F) x0)
    (h_v27 : V (Proc.devRef .tc main_v27) = val_main_v27 (F := F) x0)
    (h_c_10 : V (Proc.devRef .tc main_c_10) = val_main_c_10 (F := F))
    :
    after ops_6 V (Proc.devRef .tc main_arg0) = x0
    ∧ after ops_6 V (Proc.devRef .tc main_arg1) = x1
    ∧ after ops_6 V (Proc.devRef .tc main_arg2) = x2
    ∧ after ops_6 V (Proc.devRef .tc main_v0) = val_main_v0 (F := F) x1
    ∧ after ops_6 V (Proc.devRef .tc main_v1) = val_main_v1 (F := F) x2
    ∧ after ops_6 V (Proc.devRef .tc main_v7) = val_main_v7 (F := F) x0
    ∧ after ops_6 V (Proc.devRef .tc main_v15) = val_main_v15 (F := F) x2
    ∧ after ops_6 V (Proc.devRef .tc main_v19) = val_main_v19 (F := F) x0
    ∧ after ops_6 V (Proc.devRef .tc main_v23) = val_main_v23 (F := F) x0
    ∧ after ops_6 V (Proc.devRef .tc main_v29) = val_main_v29 (F := F) x0
    ∧ after ops_6 V (Proc.devRef .tc main_v32) = val_main_v32 (F := F) x0 := by
  refine ⟨?_, ?_, ?_, ?_, ?_, ?_, ?_, ?_, ?_, ?_, ?_⟩
  · simp only [ops_6]; after_results_simp; exact h_arg0
  · simp only [ops_6]; after_results_simp; exact h_arg1
  · simp only [ops_6]; after_results_simp; exact h_arg2
  · simp only [ops_6]; after_results_simp; exact h_v0
  · simp only [ops_6]; after_results_simp; exact h_v1
  · simp only [ops_6]; after_results_simp; exact h_v7
  · simp only [ops_6]; after_results_simp; exact h_v15
  · simp only [ops_6]; after_results_simp; exact h_v19
  · simp only [ops_6]; after_results_simp; exact h_v23
  · simp only [ops_6]; after_results_simp; rw [h_c_10, h_v27]; try rfl
  · simp only [ops_6]; after_results_simp; rw [h_v7]; try rfl

/-- Operations 57 … 64: from contents at which the buffers read later hold their stage values, to contents at which they do. -/
theorem st_7 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v19 : V (Proc.devRef .tc main_v19) = val_main_v19 (F := F) x0)
    (h_v23 : V (Proc.devRef .tc main_v23) = val_main_v23 (F := F) x0)
    (h_v29 : V (Proc.devRef .tc main_v29) = val_main_v29 (F := F) x0)
    (h_v32 : V (Proc.devRef .tc main_v32) = val_main_v32 (F := F) x0)
    :
    after ops_7 V (Proc.devRef .tc main_arg0) = x0
    ∧ after ops_7 V (Proc.devRef .tc main_arg1) = x1
    ∧ after ops_7 V (Proc.devRef .tc main_arg2) = x2
    ∧ after ops_7 V (Proc.devRef .tc main_v0) = val_main_v0 (F := F) x1
    ∧ after ops_7 V (Proc.devRef .tc main_v1) = val_main_v1 (F := F) x2
    ∧ after ops_7 V (Proc.devRef .tc main_v7) = val_main_v7 (F := F) x0
    ∧ after ops_7 V (Proc.devRef .tc main_v15) = val_main_v15 (F := F) x2
    ∧ after ops_7 V (Proc.devRef .tc main_v19) = val_main_v19 (F := F) x0
    ∧ after ops_7 V (Proc.devRef .tc main_v23) = val_main_v23 (F := F) x0
    ∧ after ops_7 V (Proc.devRef .tc main_v29) = val_main_v29 (F := F) x0
    ∧ after ops_7 V (Proc.devRef .tc main_v35) = val_main_v35 (F := F) x0
    ∧ after ops_7 V (Proc.devRef .tc main_v37) = val_main_v37 (F := F) x0
    ∧ after ops_7 V (Proc.devRef .tc main_c_13) = val_main_c_13 (F := F) := by
  refine ⟨?_, ?_, ?_, ?_, ?_, ?_, ?_, ?_, ?_, ?_, ?_, ?_, ?_⟩
  · simp only [ops_7]; after_results_simp; exact h_arg0
  · simp only [ops_7]; after_results_simp; exact h_arg1
  · simp only [ops_7]; after_results_simp; exact h_arg2
  · simp only [ops_7]; after_results_simp; exact h_v0
  · simp only [ops_7]; after_results_simp; exact h_v1
  · simp only [ops_7]; after_results_simp; exact h_v7
  · simp only [ops_7]; after_results_simp; exact h_v15
  · simp only [ops_7]; after_results_simp; exact h_v19
  · simp only [ops_7]; after_results_simp; exact h_v23
  · simp only [ops_7]; after_results_simp; exact h_v29
  · simp only [ops_7]; after_results_simp; rw [h_v32]; try rfl
  · simp only [ops_7]; after_results_simp; rw [h_v7]; try rfl
  · simp only [ops_7]; after_results_simp; try rfl

/-- Operations 65 … 72: from contents at which the buffers read later hold their stage values, to contents at which they do. -/
theorem st_8 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v19 : V (Proc.devRef .tc main_v19) = val_main_v19 (F := F) x0)
    (h_v23 : V (Proc.devRef .tc main_v23) = val_main_v23 (F := F) x0)
    (h_v29 : V (Proc.devRef .tc main_v29) = val_main_v29 (F := F) x0)
    (h_v35 : V (Proc.devRef .tc main_v35) = val_main_v35 (F := F) x0)
    (h_v37 : V (Proc.devRef .tc main_v37) = val_main_v37 (F := F) x0)
    (h_c_13 : V (Proc.devRef .tc main_c_13) = val_main_c_13 (F := F))
    :
    after ops_8 V (Proc.devRef .tc main_arg0) = x0
    ∧ after ops_8 V (Proc.devRef .tc main_arg1) = x1
    ∧ after ops_8 V (Proc.devRef .tc main_arg2) = x2
    ∧ after ops_8 V (Proc.devRef .tc main_v0) = val_main_v0 (F := F) x1
    ∧ after ops_8 V (Proc.devRef .tc main_v1) = val_main_v1 (F := F) x2
    ∧ after ops_8 V (Proc.devRef .tc main_v7) = val_main_v7 (F := F) x0
    ∧ after ops_8 V (Proc.devRef .tc main_v15) = val_main_v15 (F := F) x2
    ∧ after ops_8 V (Proc.devRef .tc main_v19) = val_main_v19 (F := F) x0
    ∧ after ops_8 V (Proc.devRef .tc main_v23) = val_main_v23 (F := F) x0
    ∧ after ops_8 V (Proc.devRef .tc main_v29) = val_main_v29 (F := F) x0
    ∧ after ops_8 V (Proc.devRef .tc main_v35) = val_main_v35 (F := F) x0
    ∧ after ops_8 V (Proc.devRef .tc main_v41) = val_main_v41 (F := F) x0
    ∧ after ops_8 V (Proc.devRef .tc main_v42) = val_main_v42 (F := F) x0 := by
  refine ⟨?_, ?_, ?_, ?_, ?_, ?_, ?_, ?_, ?_, ?_, ?_, ?_, ?_⟩
  · simp only [ops_8]; after_results_simp; exact h_arg0
  · simp only [ops_8]; after_results_simp; exact h_arg1
  · simp only [ops_8]; after_results_simp; exact h_arg2
  · simp only [ops_8]; after_results_simp; exact h_v0
  · simp only [ops_8]; after_results_simp; exact h_v1
  · simp only [ops_8]; after_results_simp; exact h_v7
  · simp only [ops_8]; after_results_simp; exact h_v15
  · simp only [ops_8]; after_results_simp; exact h_v19
  · simp only [ops_8]; after_results_simp; exact h_v23
  · simp only [ops_8]; after_results_simp; exact h_v29
  · simp only [ops_8]; after_results_simp; exact h_v35
  · simp only [ops_8]; after_results_simp; rw [h_c_13, h_v37]; try rfl
  · simp only [ops_8]; after_results_simp; rw [h_v7]; try rfl

/-- The window: the stages in order. -/
theorem win_0 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    :
    after opsP0 V (Proc.devRef .tc main_arg0) = x0
    ∧ after opsP0 V (Proc.devRef .tc main_arg1) = x1
    ∧ after opsP0 V (Proc.devRef .tc main_arg2) = x2
    ∧ after opsP0 V (Proc.devRef .tc main_v0) = val_main_v0 (F := F) x1
    ∧ after opsP0 V (Proc.devRef .tc main_v1) = val_main_v1 (F := F) x2
    ∧ after opsP0 V (Proc.devRef .tc main_v7) = val_main_v7 (F := F) x0
    ∧ after opsP0 V (Proc.devRef .tc main_v15) = val_main_v15 (F := F) x2
    ∧ after opsP0 V (Proc.devRef .tc main_v19) = val_main_v19 (F := F) x0
    ∧ after opsP0 V (Proc.devRef .tc main_v23) = val_main_v23 (F := F) x0
    ∧ after opsP0 V (Proc.devRef .tc main_v29) = val_main_v29 (F := F) x0
    ∧ after opsP0 V (Proc.devRef .tc main_v35) = val_main_v35 (F := F) x0
    ∧ after opsP0 V (Proc.devRef .tc main_v41) = val_main_v41 (F := F) x0
    ∧ after opsP0 V (Proc.devRef .tc main_v42) = val_main_v42 (F := F) x0 := by
  simp only [opsP0, after_append]
  obtain ⟨h_arg0, h_arg1, h_arg2, h_v0, h_v1, h_v5, h_cst_0⟩ := st_0 V x0 x1 x2 h_arg0 h_arg1 h_arg2
  obtain ⟨h_arg0, h_arg1, h_arg2, h_v0, h_v1, h_v7, h_v8, h_v10, h_cst_3⟩ := st_1 _ x0 x1 x2 h_arg0 h_arg1 h_arg2 h_v0 h_v1 h_v5 h_cst_0
  obtain ⟨h_arg0, h_arg1, h_arg2, h_v0, h_v1, h_v7, h_v11, h_v13, h_cst_6⟩ := st_2 _ x0 x1 x2 h_arg0 h_arg1 h_arg2 h_v0 h_v1 h_v7 h_v8 h_v10 h_cst_3
  obtain ⟨h_arg0, h_arg1, h_arg2, h_v0, h_v1, h_v7, h_v15, h_v17, h_c⟩ := st_3 _ x0 x1 x2 h_arg0 h_arg1 h_arg2 h_v0 h_v1 h_v7 h_v11 h_v13 h_cst_6
  obtain ⟨h_arg0, h_arg1, h_arg2, h_v0, h_v1, h_v7, h_v15, h_v19, h_v22⟩ := st_4 _ x0 x1 x2 h_arg0 h_arg1 h_arg2 h_v0 h_v1 h_v7 h_v15 h_v17 h_c
  obtain ⟨h_arg0, h_arg1, h_arg2, h_v0, h_v1, h_v7, h_v15, h_v19, h_v23, h_v27, h_c_10⟩ := st_5 _ x0 x1 x2 h_arg0 h_arg1 h_arg2 h_v0 h_v1 h_v7 h_v15 h_v19 h_v22
  obtain ⟨h_arg0, h_arg1, h_arg2, h_v0, h_v1, h_v7, h_v15, h_v19, h_v23, h_v29, h_v32⟩ := st_6 _ x0 x1 x2 h_arg0 h_arg1 h_arg2 h_v0 h_v1 h_v7 h_v15 h_v19 h_v23 h_v27 h_c_10
  obtain ⟨h_arg0, h_arg1, h_arg2, h_v0, h_v1, h_v7, h_v15, h_v19, h_v23, h_v29, h_v35, h_v37, h_c_13⟩ := st_7 _ x0 x1 x2 h_arg0 h_arg1 h_arg2 h_v0 h_v1 h_v7 h_v15 h_v19 h_v23 h_v29 h_v32
  obtain ⟨h_arg0, h_arg1, h_arg2, h_v0, h_v1, h_v7, h_v15, h_v19, h_v23, h_v29, h_v35, h_v41, h_v42⟩ := st_8 _ x0 x1 x2 h_arg0 h_arg1 h_arg2 h_v0 h_v1 h_v7 h_v15 h_v19 h_v23 h_v29 h_v35 h_v37 h_c_13
  exact ⟨h_arg0, h_arg1, h_arg2, h_v0, h_v1, h_v7, h_v15, h_v19, h_v23, h_v29, h_v35, h_v41, h_v42⟩

end Cert.ReferenceIdeal.RefRunW0

end
-- ==== Proof.RefRunW1.lean ====
/- The reference program's operations 73 … 136 (its window 1), read stage by stage. For contents V of the device's
  buffers at which every buffer written earlier and read later holds its stage value of the arguments x0 x1 x2 (the
  argument buffers holding x0 x1 x2 themselves), the contents after the window's operations have the same property.
  The window is cut into lists of at most eight operations; `st_k` is the statement for one list: a buffer the list
  does not write keeps its contents, and a buffer it writes holds its operation's function of the operands' contents,
  which is the stage value by definition once the operands' contents are rewritten to their stage values.
-/
import proofs.«406890_j71588514889850_3_alg».proof.Proof.RefRead
import proofs.«406890_j71588514889850_3_alg».proof.Proof.RefRunOps
import Idealize.ShloMosaic.Lib.StableHlo.Run
import Idealize.ShloMosaic.Lib.Pipeline.Frame

noncomputable section

namespace Cert.ReferenceIdeal.RefRunW1

open Cert.ReferenceIdeal Cert.ReferenceIdeal.Gen Cert.ReferenceIdeal.RefRead Cert.ReferenceIdeal.RefRunOps Idealize.ShloMosaic Idealize.ShloMosaic.TcCoe Idealize.SL.Sem Idealize.ShloMosaic.StableHlo

variable {F : FTy → Type} [FloatOps F]

/-- Operations 73 … 80: from contents at which the buffers read later hold their stage values, to contents at which they do. -/
theorem st_9 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v19 : V (Proc.devRef .tc main_v19) = val_main_v19 (F := F) x0)
    (h_v23 : V (Proc.devRef .tc main_v23) = val_main_v23 (F := F) x0)
    (h_v29 : V (Proc.devRef .tc main_v29) = val_main_v29 (F := F) x0)
    (h_v35 : V (Proc.devRef .tc main_v35) = val_main_v35 (F := F) x0)
    (h_v41 : V (Proc.devRef .tc main_v41) = val_main_v41 (F := F) x0)
    (h_v42 : V (Proc.devRef .tc main_v42) = val_main_v42 (F := F) x0)
    :
    after ops_9 V (Proc.devRef .tc main_arg0) = x0
    ∧ after ops_9 V (Proc.devRef .tc main_arg1) = x1
    ∧ after ops_9 V (Proc.devRef .tc main_arg2) = x2
    ∧ after ops_9 V (Proc.devRef .tc main_v0) = val_main_v0 (F := F) x1
    ∧ after ops_9 V (Proc.devRef .tc main_v1) = val_main_v1 (F := F) x2
    ∧ after ops_9 V (Proc.devRef .tc main_v7) = val_main_v7 (F := F) x0
    ∧ after ops_9 V (Proc.devRef .tc main_v15) = val_main_v15 (F := F) x2
    ∧ after ops_9 V (Proc.devRef .tc main_v19) = val_main_v19 (F := F) x0
    ∧ after ops_9 V (Proc.devRef .tc main_v23) = val_main_v23 (F := F) x0
    ∧ after ops_9 V (Proc.devRef .tc main_v29) = val_main_v29 (F := F) x0
    ∧ after ops_9 V (Proc.devRef .tc main_v35) = val_main_v35 (F := F) x0
    ∧ after ops_9 V (Proc.devRef .tc main_v41) = val_main_v41 (F := F) x0
    ∧ after ops_9 V (Proc.devRef .tc main_v45) = val_main_v45 (F := F) x0
    ∧ after ops_9 V (Proc.devRef .tc main_v47) = val_main_v47 (F := F) x0
    ∧ after ops_9 V (Proc.devRef .tc main_c_16) = val_main_c_16 (F := F) := by
  refine ⟨?_, ?_, ?_, ?_, ?_, ?_, ?_, ?_, ?_, ?_, ?_, ?_, ?_, ?_, ?_⟩
  · simp only [ops_9]; after_results_simp; exact h_arg0
  · simp only [ops_9]; after_results_simp; exact h_arg1
  · simp only [ops_9]; after_results_simp; exact h_arg2
  · simp only [ops_9]; after_results_simp; exact h_v0
  · simp only [ops_9]; after_results_simp; exact h_v1
  · simp only [ops_9]; after_results_simp; exact h_v7
  · simp only [ops_9]; after_results_simp; exact h_v15
  · simp only [ops_9]; after_results_simp; exact h_v19
  · simp only [ops_9]; after_results_simp; exact h_v23
  · simp only [ops_9]; after_results_simp; exact h_v29
  · simp only [ops_9]; after_results_simp; exact h_v35
  · simp only [ops_9]; after_results_simp; exact h_v41
  · simp only [ops_9]; after_results_simp; rw [h_v42]; try rfl
  · simp only [ops_9]; after_results_simp; rw [h_v7]; try rfl
  · simp only [ops_9]; after_results_simp; try rfl

/-- Operations 81 … 88: from contents at which the buffers read later hold their stage values, to contents at which they do. -/
theorem st_10 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v19 : V (Proc.devRef .tc main_v19) = val_main_v19 (F := F) x0)
    (h_v23 : V (Proc.devRef .tc main_v23) = val_main_v23 (F := F) x0)
    (h_v29 : V (Proc.devRef .tc main_v29) = val_main_v29 (F := F) x0)
    (h_v35 : V (Proc.devRef .tc main_v35) = val_main_v35 (F := F) x0)
    (h_v41 : V (Proc.devRef .tc main_v41) = val_main_v41 (F := F) x0)
    (h_v45 : V (Proc.devRef .tc main_v45) = val_main_v45 (F := F) x0)
    (h_v47 : V (Proc.devRef .tc main_v47) = val_main_v47 (F := F) x0)
    (h_c_16 : V (Proc.devRef .tc main_c_16) = val_main_c_16 (F := F))
    :
    after ops_10 V (Proc.devRef .tc main_arg0) = x0
    ∧ after ops_10 V (Proc.devRef .tc main_arg1) = x1
    ∧ after ops_10 V (Proc.devRef .tc main_arg2) = x2
    ∧ after ops_10 V (Proc.devRef .tc main_v0) = val_main_v0 (F := F) x1
    ∧ after ops_10 V (Proc.devRef .tc main_v1) = val_main_v1 (F := F) x2
    ∧ after ops_10 V (Proc.devRef .tc main_v7) = val_main_v7 (F := F) x0
    ∧ after ops_10 V (Proc.devRef .tc main_v15) = val_main_v15 (F := F) x2
    ∧ after ops_10 V (Proc.devRef .tc main_v19) = val_main_v19 (F := F) x0
    ∧ after ops_10 V (Proc.devRef .tc main_v23) = val_main_v23 (F := F) x0
    ∧ after ops_10 V (Proc.devRef .tc main_v29) = val_main_v29 (F := F) x0
    ∧ after ops_10 V (Proc.devRef .tc main_v35) = val_main_v35 (F := F) x0
    ∧ after ops_10 V (Proc.devRef .tc main_v41) = val_main_v41 (F := F) x0
    ∧ after ops_10 V (Proc.devRef .tc main_v45) = val_main_v45 (F := F) x0
    ∧ after ops_10 V (Proc.devRef .tc main_v49) = val_main_v49 (F := F) x0
    ∧ after ops_10 V (Proc.devRef .tc main_v52) = val_main_v52 (F := F) x0 := by
  refine ⟨?_, ?_, ?_, ?_, ?_, ?_, ?_, ?_, ?_, ?_, ?_, ?_, ?_, ?_, ?_⟩
  · simp only [ops_10]; after_results_simp; exact h_arg0
  · simp only [ops_10]; after_results_simp; exact h_arg1
  · simp only [ops_10]; after_results_simp; exact h_arg2
  · simp only [ops_10]; after_results_simp; exact h_v0
  · simp only [ops_10]; after_results_simp; exact h_v1
  · simp only [ops_10]; after_results_simp; exact h_v7
  · simp only [ops_10]; after_results_simp; exact h_v15
  · simp only [ops_10]; after_results_simp; exact h_v19
  · simp only [ops_10]; after_results_simp; exact h_v23
  · simp only [ops_10]; after_results_simp; exact h_v29
  · simp only [ops_10]; after_results_simp; exact h_v35
  · simp only [ops_10]; after_results_simp; exact h_v41
  · simp only [ops_10]; after_results_simp; exact h_v45
  · simp only [ops_10]; after_results_simp; rw [h_c_16, h_v47]; try rfl
  · simp only [ops_10]; after_results_simp; rw [h_v7]; try rfl

/-- Operations 89 … 96: from contents at which the buffers read later hold their stage values, to contents at which they do. -/
theorem st_11 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v19 : V (Proc.devRef .tc main_v19) = val_main_v19 (F := F) x0)
    (h_v23 : V (Proc.devRef .tc main_v23) = val_main_v23 (F := F) x0)
    (h_v29 : V (Proc.devRef .tc main_v29) = val_main_v29 (F := F) x0)
    (h_v35 : V (Proc.devRef .tc main_v35) = val_main_v35 (F := F) x0)
    (h_v41 : V (Proc.devRef .tc main_v41) = val_main_v41 (F := F) x0)
    (h_v45 : V (Proc.devRef .tc main_v45) = val_main_v45 (F := F) x0)
    (h_v49 : V (Proc.devRef .tc main_v49) = val_main_v49 (F := F) x0)
    (h_v52 : V (Proc.devRef .tc main_v52) = val_main_v52 (F := F) x0)
    :
    after ops_11 V (Proc.devRef .tc main_arg0) = x0
    ∧ after ops_11 V (Proc.devRef .tc main_arg1) = x1
    ∧ after ops_11 V (Proc.devRef .tc main_arg2) = x2
    ∧ after ops_11 V (Proc.devRef .tc main_v0) = val_main_v0 (F := F) x1
    ∧ after ops_11 V (Proc.devRef .tc main_v1) = val_main_v1 (F := F) x2
    ∧ after ops_11 V (Proc.devRef .tc main_v7) = val_main_v7 (F := F) x0
    ∧ after ops_11 V (Proc.devRef .tc main_v15) = val_main_v15 (F := F) x2
    ∧ after ops_11 V (Proc.devRef .tc main_v23) = val_main_v23 (F := F) x0
    ∧ after ops_11 V (Proc.devRef .tc main_v29) = val_main_v29 (F := F) x0
    ∧ after ops_11 V (Proc.devRef .tc main_v35) = val_main_v35 (F := F) x0
    ∧ after ops_11 V (Proc.devRef .tc main_v41) = val_main_v41 (F := F) x0
    ∧ after ops_11 V (Proc.devRef .tc main_v45) = val_main_v45 (F := F) x0
    ∧ after ops_11 V (Proc.devRef .tc main_v49) = val_main_v49 (F := F) x0
    ∧ after ops_11 V (Proc.devRef .tc main_v55) = val_main_v55 (F := F) x0
    ∧ after ops_11 V (Proc.devRef .tc main_v58) = val_main_v58 (F := F) x0 := by
  refine ⟨?_, ?_, ?_, ?_, ?_, ?_, ?_, ?_, ?_, ?_, ?_, ?_, ?_, ?_, ?_⟩
  · simp only [ops_11]; after_results_simp; exact h_arg0
  · simp only [ops_11]; after_results_simp; exact h_arg1
  · simp only [ops_11]; after_results_simp; exact h_arg2
  · simp only [ops_11]; after_results_simp; exact h_v0
  · simp only [ops_11]; after_results_simp; exact h_v1
  · simp only [ops_11]; after_results_simp; exact h_v7
  · simp only [ops_11]; after_results_simp; exact h_v15
  · simp only [ops_11]; after_results_simp; exact h_v23
  · simp only [ops_11]; after_results_simp; exact h_v29
  · simp only [ops_11]; after_results_simp; exact h_v35
  · simp only [ops_11]; after_results_simp; exact h_v41
  · simp only [ops_11]; after_results_simp; exact h_v45
  · simp only [ops_11]; after_results_simp; exact h_v49
  · simp only [ops_11]; after_results_simp; rw [h_v52]; try rfl
  · simp only [ops_11]; after_results_simp; rw [h_v19, h_v7]; try rfl

/-- Operations 97 … 104: from contents at which the buffers read later hold their stage values, to contents at which they do. -/
theorem st_12 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v23 : V (Proc.devRef .tc main_v23) = val_main_v23 (F := F) x0)
    (h_v29 : V (Proc.devRef .tc main_v29) = val_main_v29 (F := F) x0)
    (h_v35 : V (Proc.devRef .tc main_v35) = val_main_v35 (F := F) x0)
    (h_v41 : V (Proc.devRef .tc main_v41) = val_main_v41 (F := F) x0)
    (h_v45 : V (Proc.devRef .tc main_v45) = val_main_v45 (F := F) x0)
    (h_v49 : V (Proc.devRef .tc main_v49) = val_main_v49 (F := F) x0)
    (h_v55 : V (Proc.devRef .tc main_v55) = val_main_v55 (F := F) x0)
    (h_v58 : V (Proc.devRef .tc main_v58) = val_main_v58 (F := F) x0)
    :
    after ops_12 V (Proc.devRef .tc main_arg0) = x0
    ∧ after ops_12 V (Proc.devRef .tc main_arg1) = x1
    ∧ after ops_12 V (Proc.devRef .tc main_arg2) = x2
    ∧ after ops_12 V (Proc.devRef .tc main_v0) = val_main_v0 (F := F) x1
    ∧ after ops_12 V (Proc.devRef .tc main_v1) = val_main_v1 (F := F) x2
    ∧ after ops_12 V (Proc.devRef .tc main_v7) = val_main_v7 (F := F) x0
    ∧ after ops_12 V (Proc.devRef .tc main_v15) = val_main_v15 (F := F) x2
    ∧ after ops_12 V (Proc.devRef .tc main_v29) = val_main_v29 (F := F) x0
    ∧ after ops_12 V (Proc.devRef .tc main_v35) = val_main_v35 (F := F) x0
    ∧ after ops_12 V (Proc.devRef .tc main_v41) = val_main_v41 (F := F) x0
    ∧ after ops_12 V (Proc.devRef .tc main_v49) = val_main_v49 (F := F) x0
    ∧ after ops_12 V (Proc.devRef .tc main_v55) = val_main_v55 (F := F) x0
    ∧ after ops_12 V (Proc.devRef .tc main_v58) = val_main_v58 (F := F) x0
    ∧ after ops_12 V (Proc.devRef .tc main_v61) = val_main_v61 (F := F) x0
    ∧ after ops_12 V (Proc.devRef .tc main_v64) = val_main_v64 (F := F) x0
    ∧ after ops_12 V (Proc.devRef .tc main_v66) = val_main_v66 (F := F) x0 := by
  refine ⟨?_, ?_, ?_, ?_, ?_, ?_, ?_, ?_, ?_, ?_, ?_, ?_, ?_, ?_, ?_, ?_⟩
  · simp only [ops_12]; after_results_simp; exact h_arg0
  · simp only [ops_12]; after_results_simp; exact h_arg1
  · simp only [ops_12]; after_results_simp; exact h_arg2
  · simp only [ops_12]; after_results_simp; exact h_v0
  · simp only [ops_12]; after_results_simp; exact h_v1
  · simp only [ops_12]; after_results_simp; exact h_v7
  · simp only [ops_12]; after_results_simp; exact h_v15
  · simp only [ops_12]; after_results_simp; exact h_v29
  · simp only [ops_12]; after_results_simp; exact h_v35
  · simp only [ops_12]; after_results_simp; exact h_v41
  · simp only [ops_12]; after_results_simp; exact h_v49
  · simp only [ops_12]; after_results_simp; exact h_v55
  · simp only [ops_12]; after_results_simp; exact h_v58
  · simp only [ops_12]; after_results_simp; rw [h_v23, h_v7]; try rfl
  · simp only [ops_12]; after_results_simp; rw [h_v45, h_v7]; try rfl
  · simp only [ops_12]; after_results_simp; rw [h_v7]; try rfl

/-- Operations 105 … 112: from contents at which the buffers read later hold their stage values, to contents at which they do. -/
theorem st_13 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v29 : V (Proc.devRef .tc main_v29) = val_main_v29 (F := F) x0)
    (h_v35 : V (Proc.devRef .tc main_v35) = val_main_v35 (F := F) x0)
    (h_v41 : V (Proc.devRef .tc main_v41) = val_main_v41 (F := F) x0)
    (h_v49 : V (Proc.devRef .tc main_v49) = val_main_v49 (F := F) x0)
    (h_v55 : V (Proc.devRef .tc main_v55) = val_main_v55 (F := F) x0)
    (h_v58 : V (Proc.devRef .tc main_v58) = val_main_v58 (F := F) x0)
    (h_v61 : V (Proc.devRef .tc main_v61) = val_main_v61 (F := F) x0)
    (h_v64 : V (Proc.devRef .tc main_v64) = val_main_v64 (F := F) x0)
    (h_v66 : V (Proc.devRef .tc main_v66) = val_main_v66 (F := F) x0)
    :
    after ops_13 V (Proc.devRef .tc main_arg0) = x0
    ∧ after ops_13 V (Proc.devRef .tc main_arg1) = x1
    ∧ after ops_13 V (Proc.devRef .tc main_arg2) = x2
    ∧ after ops_13 V (Proc.devRef .tc main_v0) = val_main_v0 (F := F) x1
    ∧ after ops_13 V (Proc.devRef .tc main_v1) = val_main_v1 (F := F) x2
    ∧ after ops_13 V (Proc.devRef .tc main_v7) = val_main_v7 (F := F) x0
    ∧ after ops_13 V (Proc.devRef .tc main_v15) = val_main_v15 (F := F) x2
    ∧ after ops_13 V (Proc.devRef .tc main_v41) = val_main_v41 (F := F) x0
    ∧ after ops_13 V (Proc.devRef .tc main_v55) = val_main_v55 (F := F) x0
    ∧ after ops_13 V (Proc.devRef .tc main_v58) = val_main_v58 (F := F) x0
    ∧ after ops_13 V (Proc.devRef .tc main_v61) = val_main_v61 (F := F) x0
    ∧ after ops_13 V (Proc.devRef .tc main_v64) = val_main_v64 (F := F) x0
    ∧ after ops_13 V (Proc.devRef .tc main_v67) = val_main_v67 (F := F) x0
    ∧ after ops_13 V (Proc.devRef .tc main_v70) = val_main_v70 (F := F) x0
    ∧ after ops_13 V (Proc.devRef .tc main_v73) = val_main_v73 (F := F) x0
    ∧ after ops_13 V (Proc.devRef .tc main_v74) = val_main_v74 (F := F) x0 := by
  refine ⟨?_, ?_, ?_, ?_, ?_, ?_, ?_, ?_, ?_, ?_, ?_, ?_, ?_, ?_, ?_, ?_⟩
  · simp only [ops_13]; after_results_simp; exact h_arg0
  · simp only [ops_13]; after_results_simp; exact h_arg1
  · simp only [ops_13]; after_results_simp; exact h_arg2
  · simp only [ops_13]; after_results_simp; exact h_v0
  · simp only [ops_13]; after_results_simp; exact h_v1
  · simp only [ops_13]; after_results_simp; exact h_v7
  · simp only [ops_13]; after_results_simp; exact h_v15
  · simp only [ops_13]; after_results_simp; exact h_v41
  · simp only [ops_13]; after_results_simp; exact h_v55
  · simp only [ops_13]; after_results_simp; exact h_v58
  · simp only [ops_13]; after_results_simp; exact h_v61
  · simp only [ops_13]; after_results_simp; exact h_v64
  · simp only [ops_13]; after_results_simp; rw [h_v49, h_v66]; try rfl
  · simp only [ops_13]; after_results_simp; rw [h_v29, h_v7]; try rfl
  · simp only [ops_13]; after_results_simp; rw [h_v35, h_v7]; try rfl
  · simp only [ops_13]; after_results_simp; rw [h_v7]; try rfl

/-- Operations 113 … 120: from contents at which the buffers read later hold their stage values, to contents at which they do. -/
theorem st_14 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v41 : V (Proc.devRef .tc main_v41) = val_main_v41 (F := F) x0)
    (h_v55 : V (Proc.devRef .tc main_v55) = val_main_v55 (F := F) x0)
    (h_v58 : V (Proc.devRef .tc main_v58) = val_main_v58 (F := F) x0)
    (h_v61 : V (Proc.devRef .tc main_v61) = val_main_v61 (F := F) x0)
    (h_v64 : V (Proc.devRef .tc main_v64) = val_main_v64 (F := F) x0)
    (h_v67 : V (Proc.devRef .tc main_v67) = val_main_v67 (F := F) x0)
    (h_v70 : V (Proc.devRef .tc main_v70) = val_main_v70 (F := F) x0)
    (h_v73 : V (Proc.devRef .tc main_v73) = val_main_v73 (F := F) x0)
    (h_v74 : V (Proc.devRef .tc main_v74) = val_main_v74 (F := F) x0)
    :
    after ops_14 V (Proc.devRef .tc main_arg0) = x0
    ∧ after ops_14 V (Proc.devRef .tc main_arg1) = x1
    ∧ after ops_14 V (Proc.devRef .tc main_arg2) = x2
    ∧ after ops_14 V (Proc.devRef .tc main_v0) = val_main_v0 (F := F) x1
    ∧ after ops_14 V (Proc.devRef .tc main_v1) = val_main_v1 (F := F) x2
    ∧ after ops_14 V (Proc.devRef .tc main_v7) = val_main_v7 (F := F) x0
    ∧ after ops_14 V (Proc.devRef .tc main_v15) = val_main_v15 (F := F) x2
    ∧ after ops_14 V (Proc.devRef .tc main_v58) = val_main_v58 (F := F) x0
    ∧ after ops_14 V (Proc.devRef .tc main_v61) = val_main_v61 (F := F) x0
    ∧ after ops_14 V (Proc.devRef .tc main_v67) = val_main_v67 (F := F) x0
    ∧ after ops_14 V (Proc.devRef .tc main_v73) = val_main_v73 (F := F) x0
    ∧ after ops_14 V (Proc.devRef .tc main_v79) = val_main_v79 (F := F) x0
    ∧ after ops_14 V (Proc.devRef .tc main_v80) = val_main_v80 (F := F) x0
    ∧ after ops_14 V (Proc.devRef .tc main_v81) = val_main_v81 (F := F) x0
    ∧ after ops_14 V (Proc.devRef .tc main_v82) = val_main_v82 (F := F) x0 := by
  refine ⟨?_, ?_, ?_, ?_, ?_, ?_, ?_, ?_, ?_, ?_, ?_, ?_, ?_, ?_, ?_⟩
  · simp only [ops_14]; after_results_simp; exact h_arg0
  · simp only [ops_14]; after_results_simp; exact h_arg1
  · simp only [ops_14]; after_results_simp; exact h_arg2
  · simp only [ops_14]; after_results_simp; exact h_v0
  · simp only [ops_14]; after_results_simp; exact h_v1
  · simp only [ops_14]; after_results_simp; exact h_v7
  · simp only [ops_14]; after_results_simp; exact h_v15
  · simp only [ops_14]; after_results_simp; exact h_v58
  · simp only [ops_14]; after_results_simp; exact h_v61
  · simp only [ops_14]; after_results_simp; exact h_v67
  · simp only [ops_14]; after_results_simp; exact h_v73
  · simp only [ops_14]; after_results_simp; rw [h_v41, h_v7]; try rfl
  · simp only [ops_14]; after_results_simp; rw [h_v55, h_v74]; try rfl
  · simp only [ops_14]; after_results_simp; rw [h_v64]; try rfl
  · simp only [ops_14]; after_results_simp; rw [h_v70]; try rfl

/-- Operations 121 … 125: from contents at which the buffers read later hold their stage values, to contents at which they do. -/
theorem st_15 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v58 : V (Proc.devRef .tc main_v58) = val_main_v58 (F := F) x0)
    (h_v61 : V (Proc.devRef .tc main_v61) = val_main_v61 (F := F) x0)
    (h_v67 : V (Proc.devRef .tc main_v67) = val_main_v67 (F := F) x0)
    (h_v73 : V (Proc.devRef .tc main_v73) = val_main_v73 (F := F) x0)
    (h_v79 : V (Proc.devRef .tc main_v79) = val_main_v79 (F := F) x0)
    (h_v80 : V (Proc.devRef .tc main_v80) = val_main_v80 (F := F) x0)
    (h_v81 : V (Proc.devRef .tc main_v81) = val_main_v81 (F := F) x0)
    (h_v82 : V (Proc.devRef .tc main_v82) = val_main_v82 (F := F) x0)
    :
    after ops_15 V (Proc.devRef .tc main_arg0) = x0
    ∧ after ops_15 V (Proc.devRef .tc main_arg1) = x1
    ∧ after ops_15 V (Proc.devRef .tc main_arg2) = x2
    ∧ after ops_15 V (Proc.devRef .tc main_v0) = val_main_v0 (F := F) x1
    ∧ after ops_15 V (Proc.devRef .tc main_v1) = val_main_v1 (F := F) x2
    ∧ after ops_15 V (Proc.devRef .tc main_v7) = val_main_v7 (F := F) x0
    ∧ after ops_15 V (Proc.devRef .tc main_v15) = val_main_v15 (F := F) x2
    ∧ after ops_15 V (Proc.devRef .tc main_v80) = val_main_v80 (F := F) x0
    ∧ after ops_15 V (Proc.devRef .tc main_v81) = val_main_v81 (F := F) x0
    ∧ after ops_15 V (Proc.devRef .tc main_v82) = val_main_v82 (F := F) x0
    ∧ after ops_15 V (Proc.devRef .tc main_v83) = val_main_v83 (F := F) x0
    ∧ after ops_15 V (Proc.devRef .tc main_v84) = val_main_v84 (F := F) x0
    ∧ after ops_15 V (Proc.devRef .tc main_v85) = val_main_v85 (F := F) x0
    ∧ after ops_15 V (Proc.devRef .tc main_v86) = val_main_v86 (F := F) x0
    ∧ after ops_15 V (Proc.devRef .tc main_v87) = val_main_v87 (F := F) x0 := by
  refine ⟨?_, ?_, ?_, ?_, ?_, ?_, ?_, ?_, ?_, ?_, ?_, ?_, ?_, ?_, ?_⟩
  · simp only [ops_15]; after_results_simp; exact h_arg0
  · simp only [ops_15]; after_results_simp; exact h_arg1
  · simp only [ops_15]; after_results_simp; exact h_arg2
  · simp only [ops_15]; after_results_simp; exact h_v0
  · simp only [ops_15]; after_results_simp; exact h_v1
  · simp only [ops_15]; after_results_simp; exact h_v7
  · simp only [ops_15]; after_results_simp; exact h_v15
  · simp only [ops_15]; after_results_simp; exact h_v80
  · simp only [ops_15]; after_results_simp; exact h_v81
  · simp only [ops_15]; after_results_simp; exact h_v82
  · simp only [ops_15]; after_results_simp; rw [h_v58]; try rfl
  · simp only [ops_15]; after_results_simp; rw [h_v61]; try rfl
  · simp only [ops_15]; after_results_simp; rw [h_v73]; try rfl
  · simp only [ops_15]; after_results_simp; rw [h_v67]; try rfl
  · simp only [ops_15]; after_results_simp; rw [h_v79]; try rfl

/-- Operations 126 … 126: from contents at which the buffers read later hold their stage values, to contents at which they do. -/
theorem st_16 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v80 : V (Proc.devRef .tc main_v80) = val_main_v80 (F := F) x0)
    (h_v81 : V (Proc.devRef .tc main_v81) = val_main_v81 (F := F) x0)
    (h_v82 : V (Proc.devRef .tc main_v82) = val_main_v82 (F := F) x0)
    (h_v83 : V (Proc.devRef .tc main_v83) = val_main_v83 (F := F) x0)
    (h_v84 : V (Proc.devRef .tc main_v84) = val_main_v84 (F := F) x0)
    (h_v85 : V (Proc.devRef .tc main_v85) = val_main_v85 (F := F) x0)
    (h_v86 : V (Proc.devRef .tc main_v86) = val_main_v86 (F := F) x0)
    (h_v87 : V (Proc.devRef .tc main_v87) = val_main_v87 (F := F) x0)
    :
    after ops_16 V (Proc.devRef .tc main_arg0) = x0
    ∧ after ops_16 V (Proc.devRef .tc main_arg1) = x1
    ∧ after ops_16 V (Proc.devRef .tc main_arg2) = x2
    ∧ after ops_16 V (Proc.devRef .tc main_v0) = val_main_v0 (F := F) x1
    ∧ after ops_16 V (Proc.devRef .tc main_v1) = val_main_v1 (F := F) x2
    ∧ after ops_16 V (Proc.devRef .tc main_v7) = val_main_v7 (F := F) x0
    ∧ after ops_16 V (Proc.devRef .tc main_v15) = val_main_v15 (F := F) x2
    ∧ after ops_16 V (Proc.devRef .tc main_v88) = val_main_v88 (F := F) x0 := by
  refine ⟨?_, ?_, ?_, ?_, ?_, ?_, ?_, ?_⟩
  · simp only [ops_16]; after_results_simp; exact h_arg0
  · simp only [ops_16]; after_results_simp; exact h_arg1
  · simp only [ops_16]; after_results_simp; exact h_arg2
  · simp only [ops_16]; after_results_simp; exact h_v0
  · simp only [ops_16]; after_results_simp; exact h_v1
  · simp only [ops_16]; after_results_simp; exact h_v7
  · simp only [ops_16]; after_results_simp; exact h_v15
  · simp only [ops_16]; after_results_simp; dsimp only [Matrix.cons_val]; rw [h_v87, h_v86, h_v85, h_v84, h_v83, h_v82, h_v81, h_v80]; try rfl

/-- Operations 127 … 128: from contents at which the buffers read later hold their stage values, to contents at which they do. -/
theorem st_17 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v88 : V (Proc.devRef .tc main_v88) = val_main_v88 (F := F) x0)
    :
    after ops_17 V (Proc.devRef .tc main_arg0) = x0
    ∧ after ops_17 V (Proc.devRef .tc main_arg1) = x1
    ∧ after ops_17 V (Proc.devRef .tc main_arg2) = x2
    ∧ after ops_17 V (Proc.devRef .tc main_v0) = val_main_v0 (F := F) x1
    ∧ after ops_17 V (Proc.devRef .tc main_v1) = val_main_v1 (F := F) x2
    ∧ after ops_17 V (Proc.devRef .tc main_v7) = val_main_v7 (F := F) x0
    ∧ after ops_17 V (Proc.devRef .tc main_v15) = val_main_v15 (F := F) x2
    ∧ after ops_17 V (Proc.devRef .tc main_v88) = val_main_v88 (F := F) x0
    ∧ after ops_17 V (Proc.devRef .tc main_v89) = val_main_v89 (F := F) x0 := by
  refine ⟨?_, ?_, ?_, ?_, ?_, ?_, ?_, ?_, ?_⟩
  · simp only [ops_17]; after_results_simp; exact h_arg0
  · simp only [ops_17]; after_results_simp; exact h_arg1
  · simp only [ops_17]; after_results_simp; exact h_arg2
  · simp only [ops_17]; after_results_simp; exact h_v0
  · simp only [ops_17]; after_results_simp; exact h_v1
  · simp only [ops_17]; after_results_simp; exact h_v7
  · simp only [ops_17]; after_results_simp; exact h_v15
  · simp only [ops_17]; after_results_simp; exact h_v88
  · simp only [ops_17]; after_results_simp; rw [h_v88]; try rfl

/-- Operations 129 … 136: from contents at which the buffers read later hold their stage values, to contents at which they do. -/
theorem st_18 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v88 : V (Proc.devRef .tc main_v88) = val_main_v88 (F := F) x0)
    (h_v89 : V (Proc.devRef .tc main_v89) = val_main_v89 (F := F) x0)
    :
    after ops_18 V (Proc.devRef .tc main_arg0) = x0
    ∧ after ops_18 V (Proc.devRef .tc main_arg1) = x1
    ∧ after ops_18 V (Proc.devRef .tc main_arg2) = x2
    ∧ after ops_18 V (Proc.devRef .tc main_v0) = val_main_v0 (F := F) x1
    ∧ after ops_18 V (Proc.devRef .tc main_v1) = val_main_v1 (F := F) x2
    ∧ after ops_18 V (Proc.devRef .tc main_v7) = val_main_v7 (F := F) x0
    ∧ after ops_18 V (Proc.devRef .tc main_v15) = val_main_v15 (F := F) x2
    ∧ after ops_18 V (Proc.devRef .tc main_v88) = val_main_v88 (F := F) x0
    ∧ after ops_18 V (Proc.devRef .tc main_v91) = val_main_v91 (F := F) x0
    ∧ after ops_18 V (Proc.devRef .tc main_v94) = val_main_v94 (F := F) x0 := by
  refine ⟨?_, ?_, ?_, ?_, ?_, ?_, ?_, ?_, ?_, ?_⟩
  · simp only [ops_18]; after_results_simp; exact h_arg0
  · simp only [ops_18]; after_results_simp; exact h_arg1
  · simp only [ops_18]; after_results_simp; exact h_arg2
  · simp only [ops_18]; after_results_simp; exact h_v0
  · simp only [ops_18]; after_results_simp; exact h_v1
  · simp only [ops_18]; after_results_simp; exact h_v7
  · simp only [ops_18]; after_results_simp; exact h_v15
  · simp only [ops_18]; after_results_simp; exact h_v88
  · simp only [ops_18]; after_results_simp; rw [h_v89]; try rfl
  · simp only [ops_18]; after_results_simp; rw [h_v88]; try rfl

/-- The window: the stages in order. -/
theorem win_1 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v19 : V (Proc.devRef .tc main_v19) = val_main_v19 (F := F) x0)
    (h_v23 : V (Proc.devRef .tc main_v23) = val_main_v23 (F := F) x0)
    (h_v29 : V (Proc.devRef .tc main_v29) = val_main_v29 (F := F) x0)
    (h_v35 : V (Proc.devRef .tc main_v35) = val_main_v35 (F := F) x0)
    (h_v41 : V (Proc.devRef .tc main_v41) = val_main_v41 (F := F) x0)
    (h_v42 : V (Proc.devRef .tc main_v42) = val_main_v42 (F := F) x0)
    :
    after opsP1 V (Proc.devRef .tc main_arg0) = x0
    ∧ after opsP1 V (Proc.devRef .tc main_arg1) = x1
    ∧ after opsP1 V (Proc.devRef .tc main_arg2) = x2
    ∧ after opsP1 V (Proc.devRef .tc main_v0) = val_main_v0 (F := F) x1
    ∧ after opsP1 V (Proc.devRef .tc main_v1) = val_main_v1 (F := F) x2
    ∧ after opsP1 V (Proc.devRef .tc main_v7) = val_main_v7 (F := F) x0
    ∧ after opsP1 V (Proc.devRef .tc main_v15) = val_main_v15 (F := F) x2
    ∧ after opsP1 V (Proc.devRef .tc main_v88) = val_main_v88 (F := F) x0
    ∧ after opsP1 V (Proc.devRef .tc main_v91) = val_main_v91 (F := F) x0
    ∧ after opsP1 V (Proc.devRef .tc main_v94) = val_main_v94 (F := F) x0 := by
  simp only [opsP1, after_append]
  obtain ⟨h_arg0, h_arg1, h_arg2, h_v0, h_v1, h_v7, h_v15, h_v19, h_v23, h_v29, h_v35, h_v41, h_v45, h_v47, h_c_16⟩ := st_9 V x0 x1 x2 h_arg0 h_arg1 h_arg2 h_v0 h_v1 h_v7 h_v15 h_v19 h_v23 h_v29 h_v35 h_v41 h_v42
  obtain ⟨h_arg0, h_arg1, h_arg2, h_v0, h_v1, h_v7, h_v15, h_v19, h_v23, h_v29, h_v35, h_v41, h_v45, h_v49, h_v52⟩ := st_10 _ x0 x1 x2 h_arg0 h_arg1 h_arg2 h_v0 h_v1 h_v7 h_v15 h_v19 h_v23 h_v29 h_v35 h_v41 h_v45 h_v47 h_c_16
  obtain ⟨h_arg0, h_arg1, h_arg2, h_v0, h_v1, h_v7, h_v15, h_v23, h_v29, h_v35, h_v41, h_v45, h_v49, h_v55, h_v58⟩ := st_11 _ x0 x1 x2 h_arg0 h_arg1 h_arg2 h_v0 h_v1 h_v7 h_v15 h_v19 h_v23 h_v29 h_v35 h_v41 h_v45 h_v49 h_v52
  obtain ⟨h_arg0, h_arg1, h_arg2, h_v0, h_v1, h_v7, h_v15, h_v29, h_v35, h_v41, h_v49, h_v55, h_v58, h_v61, h_v64, h_v66⟩ := st_12 _ x0 x1 x2 h_arg0 h_arg1 h_arg2 h_v0 h_v1 h_v7 h_v15 h_v23 h_v29 h_v35 h_v41 h_v45 h_v49 h_v55 h_v58
  obtain ⟨h_arg0, h_arg1, h_arg2, h_v0, h_v1, h_v7, h_v15, h_v41, h_v55, h_v58, h_v61, h_v64, h_v67, h_v70, h_v73, h_v74⟩ := st_13 _ x0 x1 x2 h_arg0 h_arg1 h_arg2 h_v0 h_v1 h_v7 h_v15 h_v29 h_v35 h_v41 h_v49 h_v55 h_v58 h_v61 h_v64 h_v66
  obtain ⟨h_arg0, h_arg1, h_arg2, h_v0, h_v1, h_v7, h_v15, h_v58, h_v61, h_v67, h_v73, h_v79, h_v80, h_v81, h_v82⟩ := st_14 _ x0 x1 x2 h_arg0 h_arg1 h_arg2 h_v0 h_v1 h_v7 h_v15 h_v41 h_v55 h_v58 h_v61 h_v64 h_v67 h_v70 h_v73 h_v74
  obtain ⟨h_arg0, h_arg1, h_arg2, h_v0, h_v1, h_v7, h_v15, h_v80, h_v81, h_v82, h_v83, h_v84, h_v85, h_v86, h_v87⟩ := st_15 _ x0 x1 x2 h_arg0 h_arg1 h_arg2 h_v0 h_v1 h_v7 h_v15 h_v58 h_v61 h_v67 h_v73 h_v79 h_v80 h_v81 h_v82
  obtain ⟨h_arg0, h_arg1, h_arg2, h_v0, h_v1, h_v7, h_v15, h_v88⟩ := st_16 _ x0 x1 x2 h_arg0 h_arg1 h_arg2 h_v0 h_v1 h_v7 h_v15 h_v80 h_v81 h_v82 h_v83 h_v84 h_v85 h_v86 h_v87
  obtain ⟨h_arg0, h_arg1, h_arg2, h_v0, h_v1, h_v7, h_v15, h_v88, h_v89⟩ := st_17 _ x0 x1 x2 h_arg0 h_arg1 h_arg2 h_v0 h_v1 h_v7 h_v15 h_v88
  obtain ⟨h_arg0, h_arg1, h_arg2, h_v0, h_v1, h_v7, h_v15, h_v88, h_v91, h_v94⟩ := st_18 _ x0 x1 x2 h_arg0 h_arg1 h_arg2 h_v0 h_v1 h_v7 h_v15 h_v88 h_v89
  exact ⟨h_arg0, h_arg1, h_arg2, h_v0, h_v1, h_v7, h_v15, h_v88, h_v91, h_v94⟩

end Cert.ReferenceIdeal.RefRunW1

end
-- ==== Proof.RefRunW2.lean ====
/- The reference program's operations 137 … 206 (its window 2), read stage by stage. For contents V of the device's
  buffers at which every buffer written earlier and read later holds its stage value of the arguments x0 x1 x2 (the
  argument buffers holding x0 x1 x2 themselves), the contents after the window's operations have the same property.
  The window is cut into lists of at most eight operations; `st_k` is the statement for one list: a buffer the list
  does not write keeps its contents, and a buffer it writes holds its operation's function of the operands' contents,
  which is the stage value by definition once the operands' contents are rewritten to their stage values.
-/
import proofs.«406890_j71588514889850_3_alg».proof.Proof.RefRead
import proofs.«406890_j71588514889850_3_alg».proof.Proof.RefRunOps
import Idealize.ShloMosaic.Lib.StableHlo.Run
import Idealize.ShloMosaic.Lib.Pipeline.Frame

noncomputable section

namespace Cert.ReferenceIdeal.RefRunW2

open Cert.ReferenceIdeal Cert.ReferenceIdeal.Gen Cert.ReferenceIdeal.RefRead Cert.ReferenceIdeal.RefRunOps Idealize.ShloMosaic Idealize.ShloMosaic.TcCoe Idealize.SL.Sem Idealize.ShloMosaic.StableHlo

variable {F : FTy → Type} [FloatOps F]

/-- Operations 137 … 144: from contents at which the buffers read later hold their stage values, to contents at which they do. -/
theorem st_19 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v88 : V (Proc.devRef .tc main_v88) = val_main_v88 (F := F) x0)
    (h_v91 : V (Proc.devRef .tc main_v91) = val_main_v91 (F := F) x0)
    (h_v94 : V (Proc.devRef .tc main_v94) = val_main_v94 (F := F) x0)
    :
    after ops_19 V (Proc.devRef .tc main_arg0) = x0
    ∧ after ops_19 V (Proc.devRef .tc main_arg1) = x1
    ∧ after ops_19 V (Proc.devRef .tc main_arg2) = x2
    ∧ after ops_19 V (Proc.devRef .tc main_v0) = val_main_v0 (F := F) x1
    ∧ after ops_19 V (Proc.devRef .tc main_v1) = val_main_v1 (F := F) x2
    ∧ after ops_19 V (Proc.devRef .tc main_v7) = val_main_v7 (F := F) x0
    ∧ after ops_19 V (Proc.devRef .tc main_v88) = val_main_v88 (F := F) x0
    ∧ after ops_19 V (Proc.devRef .tc main_v91) = val_main_v91 (F := F) x0
    ∧ after ops_19 V (Proc.devRef .tc main_v101) = val_main_v101 (F := F) x0 x2 := by
  refine ⟨?_, ?_, ?_, ?_, ?_, ?_, ?_, ?_, ?_⟩
  · simp only [ops_19]; after_results_simp; exact h_arg0
  · simp only [ops_19]; after_results_simp; exact h_arg1
  · simp only [ops_19]; after_results_simp; exact h_arg2
  · simp only [ops_19]; after_results_simp; exact h_v0
  · simp only [ops_19]; after_results_simp; exact h_v1
  · simp only [ops_19]; after_results_simp; exact h_v7
  · simp only [ops_19]; after_results_simp; exact h_v88
  · simp only [ops_19]; after_results_simp; exact h_v91
  · simp only [ops_19]; after_results_simp; rw [h_v15, h_v94, h_v91]; try rfl

/-- Operations 145 … 152: from contents at which the buffers read later hold their stage values, to contents at which they do. -/
theorem st_20 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v88 : V (Proc.devRef .tc main_v88) = val_main_v88 (F := F) x0)
    (h_v91 : V (Proc.devRef .tc main_v91) = val_main_v91 (F := F) x0)
    (h_v101 : V (Proc.devRef .tc main_v101) = val_main_v101 (F := F) x0 x2)
    :
    after ops_20 V (Proc.devRef .tc main_arg0) = x0
    ∧ after ops_20 V (Proc.devRef .tc main_arg1) = x1
    ∧ after ops_20 V (Proc.devRef .tc main_arg2) = x2
    ∧ after ops_20 V (Proc.devRef .tc main_v0) = val_main_v0 (F := F) x1
    ∧ after ops_20 V (Proc.devRef .tc main_v1) = val_main_v1 (F := F) x2
    ∧ after ops_20 V (Proc.devRef .tc main_v7) = val_main_v7 (F := F) x0
    ∧ after ops_20 V (Proc.devRef .tc main_v88) = val_main_v88 (F := F) x0
    ∧ after ops_20 V (Proc.devRef .tc main_v91) = val_main_v91 (F := F) x0
    ∧ after ops_20 V (Proc.devRef .tc main_call14_v2) = val_main_call14_v2 (F := F) x0 x2
    ∧ after ops_20 V (Proc.devRef .tc main_call14_v4) = val_main_call14_v4 (F := F) := by
  refine ⟨?_, ?_, ?_, ?_, ?_, ?_, ?_, ?_, ?_, ?_⟩
  · simp only [ops_20]; after_results_simp; exact h_arg0
  · simp only [ops_20]; after_results_simp; exact h_arg1
  · simp only [ops_20]; after_results_simp; exact h_arg2
  · simp only [ops_20]; after_results_simp; exact h_v0
  · simp only [ops_20]; after_results_simp; exact h_v1
  · simp only [ops_20]; after_results_simp; exact h_v7
  · simp only [ops_20]; after_results_simp; exact h_v88
  · simp only [ops_20]; after_results_simp; exact h_v91
  · simp only [ops_20]; after_results_simp; rw [h_v101]; try rfl
  · simp only [ops_20]; after_results_simp; try rfl

/-- Operations 153 … 160: from contents at which the buffers read later hold their stage values, to contents at which they do. -/
theorem st_21 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v88 : V (Proc.devRef .tc main_v88) = val_main_v88 (F := F) x0)
    (h_v91 : V (Proc.devRef .tc main_v91) = val_main_v91 (F := F) x0)
    (h_call14_v2 : V (Proc.devRef .tc main_call14_v2) = val_main_call14_v2 (F := F) x0 x2)
    (h_call14_v4 : V (Proc.devRef .tc main_call14_v4) = val_main_call14_v4 (F := F))
    :
    after ops_21 V (Proc.devRef .tc main_arg0) = x0
    ∧ after ops_21 V (Proc.devRef .tc main_arg1) = x1
    ∧ after ops_21 V (Proc.devRef .tc main_arg2) = x2
    ∧ after ops_21 V (Proc.devRef .tc main_v0) = val_main_v0 (F := F) x1
    ∧ after ops_21 V (Proc.devRef .tc main_v1) = val_main_v1 (F := F) x2
    ∧ after ops_21 V (Proc.devRef .tc main_v7) = val_main_v7 (F := F) x0
    ∧ after ops_21 V (Proc.devRef .tc main_v88) = val_main_v88 (F := F) x0
    ∧ after ops_21 V (Proc.devRef .tc main_v91) = val_main_v91 (F := F) x0
    ∧ after ops_21 V (Proc.devRef .tc main_v105) = val_main_v105 (F := F) x0 x1 x2
    ∧ after ops_21 V (Proc.devRef .tc main_v107) = val_main_v107 (F := F) x1
    ∧ after ops_21 V (Proc.devRef .tc main_v109) = val_main_v109 (F := F) x0 x2 := by
  refine ⟨?_, ?_, ?_, ?_, ?_, ?_, ?_, ?_, ?_, ?_, ?_⟩
  · simp only [ops_21]; after_results_simp; exact h_arg0
  · simp only [ops_21]; after_results_simp; exact h_arg1
  · simp only [ops_21]; after_results_simp; exact h_arg2
  · simp only [ops_21]; after_results_simp; exact h_v0
  · simp only [ops_21]; after_results_simp; exact h_v1
  · simp only [ops_21]; after_results_simp; exact h_v7
  · simp only [ops_21]; after_results_simp; exact h_v88
  · simp only [ops_21]; after_results_simp; exact h_v91
  · simp only [ops_21]; after_results_simp; rw [h_call14_v2, h_call14_v4, h_v0]; try rfl
  · simp only [ops_21]; after_results_simp; rw [h_v0]; try rfl
  · simp only [ops_21]; after_results_simp; rw [h_call14_v2, h_call14_v4]; try rfl

/-- Operations 161 … 168: from contents at which the buffers read later hold their stage values, to contents at which they do. -/
theorem st_22 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v88 : V (Proc.devRef .tc main_v88) = val_main_v88 (F := F) x0)
    (h_v91 : V (Proc.devRef .tc main_v91) = val_main_v91 (F := F) x0)
    (h_v105 : V (Proc.devRef .tc main_v105) = val_main_v105 (F := F) x0 x1 x2)
    (h_v107 : V (Proc.devRef .tc main_v107) = val_main_v107 (F := F) x1)
    (h_v109 : V (Proc.devRef .tc main_v109) = val_main_v109 (F := F) x0 x2)
    :
    after ops_22 V (Proc.devRef .tc main_arg0) = x0
    ∧ after ops_22 V (Proc.devRef .tc main_arg1) = x1
    ∧ after ops_22 V (Proc.devRef .tc main_arg2) = x2
    ∧ after ops_22 V (Proc.devRef .tc main_v0) = val_main_v0 (F := F) x1
    ∧ after ops_22 V (Proc.devRef .tc main_v1) = val_main_v1 (F := F) x2
    ∧ after ops_22 V (Proc.devRef .tc main_v7) = val_main_v7 (F := F) x0
    ∧ after ops_22 V (Proc.devRef .tc main_v88) = val_main_v88 (F := F) x0
    ∧ after ops_22 V (Proc.devRef .tc main_v114) = val_main_v114 (F := F) x0 x1 x2
    ∧ after ops_22 V (Proc.devRef .tc main_v115) = val_main_v115 (F := F) x0 := by
  refine ⟨?_, ?_, ?_, ?_, ?_, ?_, ?_, ?_, ?_⟩
  · simp only [ops_22]; after_results_simp; exact h_arg0
  · simp only [ops_22]; after_results_simp; exact h_arg1
  · simp only [ops_22]; after_results_simp; exact h_arg2
  · simp only [ops_22]; after_results_simp; exact h_v0
  · simp only [ops_22]; after_results_simp; exact h_v1
  · simp only [ops_22]; after_results_simp; exact h_v7
  · simp only [ops_22]; after_results_simp; exact h_v88
  · simp only [ops_22]; after_results_simp; rw [h_v109, h_v107, h_v105]; try rfl
  · simp only [ops_22]; after_results_simp; rw [h_v91]; try rfl

/-- Operations 169 … 176: from contents at which the buffers read later hold their stage values, to contents at which they do. -/
theorem st_23 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v88 : V (Proc.devRef .tc main_v88) = val_main_v88 (F := F) x0)
    (h_v114 : V (Proc.devRef .tc main_v114) = val_main_v114 (F := F) x0 x1 x2)
    (h_v115 : V (Proc.devRef .tc main_v115) = val_main_v115 (F := F) x0)
    :
    after ops_23 V (Proc.devRef .tc main_arg0) = x0
    ∧ after ops_23 V (Proc.devRef .tc main_arg1) = x1
    ∧ after ops_23 V (Proc.devRef .tc main_arg2) = x2
    ∧ after ops_23 V (Proc.devRef .tc main_v0) = val_main_v0 (F := F) x1
    ∧ after ops_23 V (Proc.devRef .tc main_v1) = val_main_v1 (F := F) x2
    ∧ after ops_23 V (Proc.devRef .tc main_v7) = val_main_v7 (F := F) x0
    ∧ after ops_23 V (Proc.devRef .tc main_v88) = val_main_v88 (F := F) x0
    ∧ after ops_23 V (Proc.devRef .tc main_v114) = val_main_v114 (F := F) x0 x1 x2
    ∧ after ops_23 V (Proc.devRef .tc main_v115) = val_main_v115 (F := F) x0
    ∧ after ops_23 V (Proc.devRef .tc main_v121) = val_main_v121 (F := F) x0 x1 := by
  refine ⟨?_, ?_, ?_, ?_, ?_, ?_, ?_, ?_, ?_, ?_⟩
  · simp only [ops_23]; after_results_simp; exact h_arg0
  · simp only [ops_23]; after_results_simp; exact h_arg1
  · simp only [ops_23]; after_results_simp; exact h_arg2
  · simp only [ops_23]; after_results_simp; exact h_v0
  · simp only [ops_23]; after_results_simp; exact h_v1
  · simp only [ops_23]; after_results_simp; exact h_v7
  · simp only [ops_23]; after_results_simp; exact h_v88
  · simp only [ops_23]; after_results_simp; exact h_v114
  · simp only [ops_23]; after_results_simp; exact h_v115
  · simp only [ops_23]; after_results_simp; rw [h_v115, h_v0]; try rfl

/-- Operations 177 … 184: from contents at which the buffers read later hold their stage values, to contents at which they do. -/
theorem st_24 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v88 : V (Proc.devRef .tc main_v88) = val_main_v88 (F := F) x0)
    (h_v114 : V (Proc.devRef .tc main_v114) = val_main_v114 (F := F) x0 x1 x2)
    (h_v115 : V (Proc.devRef .tc main_v115) = val_main_v115 (F := F) x0)
    (h_v121 : V (Proc.devRef .tc main_v121) = val_main_v121 (F := F) x0 x1)
    :
    after ops_24 V (Proc.devRef .tc main_arg0) = x0
    ∧ after ops_24 V (Proc.devRef .tc main_arg1) = x1
    ∧ after ops_24 V (Proc.devRef .tc main_arg2) = x2
    ∧ after ops_24 V (Proc.devRef .tc main_v1) = val_main_v1 (F := F) x2
    ∧ after ops_24 V (Proc.devRef .tc main_v7) = val_main_v7 (F := F) x0
    ∧ after ops_24 V (Proc.devRef .tc main_v88) = val_main_v88 (F := F) x0
    ∧ after ops_24 V (Proc.devRef .tc main_v114) = val_main_v114 (F := F) x0 x1 x2
    ∧ after ops_24 V (Proc.devRef .tc main_v126) = val_main_v126 (F := F) x0 x1 := by
  refine ⟨?_, ?_, ?_, ?_, ?_, ?_, ?_, ?_⟩
  · simp only [ops_24]; after_results_simp; exact h_arg0
  · simp only [ops_24]; after_results_simp; exact h_arg1
  · simp only [ops_24]; after_results_simp; exact h_arg2
  · simp only [ops_24]; after_results_simp; exact h_v1
  · simp only [ops_24]; after_results_simp; exact h_v7
  · simp only [ops_24]; after_results_simp; exact h_v88
  · simp only [ops_24]; after_results_simp; exact h_v114
  · simp only [ops_24]; after_results_simp; rw [h_v0, h_v115, h_v121]; try rfl

/-- Operations 185 … 192: from contents at which the buffers read later hold their stage values, to contents at which they do. -/
theorem st_25 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v1 : V (Proc.devRef .tc main_v1) = val_main_v1 (F := F) x2)
    (h_v7 : V (Proc.devRef .tc main_v7) = val_main_v7 (F := F) x0)
    (h_v88 : V (Proc.devRef .tc main_v88) = val_main_v88 (F := F) x0)
    (h_v114 : V (Proc.devRef .tc main_v114) = val_main_v114 (F := F) x0 x1 x2)
    (h_v126 : V (Proc.devRef .tc main_v126) = val_main_v126 (F := F) x0 x1)
    :
    after ops_25 V (Proc.devRef .tc main_arg0) = x0
    ∧ after ops_25 V (Proc.devRef .tc main_arg1) = x1
    ∧ after ops_25 V (Proc.devRef .tc main_arg2) = x2
    ∧ after ops_25 V (Proc.devRef .tc main_v1) = val_main_v1 (F := F) x2
    ∧ after ops_25 V (Proc.devRef .tc main_v7) = val_main_v7 (F := F) x0
    ∧ after ops_25 V (Proc.devRef .tc main_v114) = val_main_v114 (F := F) x0 x1 x2
    ∧ after ops_25 V (Proc.devRef .tc main_v126) = val_main_v126 (F := F) x0 x1
    ∧ after ops_25 V (Proc.devRef .tc main_v127) = val_main_v127 (F := F) x0 := by
  refine ⟨?_, ?_, ?_, ?_, ?_, ?_, ?_, ?_⟩
  · simp only [ops_25]; after_results_simp; exact h_arg0
  · simp only [ops_25]; after_results_simp; exact h_arg1
  · simp only [ops_25]; after_results_simp; exact h_arg2
  · simp only [ops_25]; after_results_simp; exact h_v1
  · simp only [ops_25]; after_results_simp; exact h_v7
  · simp only [ops_25]; after_results_simp; exact h_v114
  · simp only [ops_25]; after_results_simp; exact h_v126
  · simp only [ops_25]; after_results_simp; rw [h_v88]; try rfl

/-- Operations 193 … 200: from contents at which the buffers read later hold their stage values, to contents at which they do. -/
theorem st_26 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v1 : V (Proc.devRef .tc main_v1) = val_main_v1 (F := F) x2)
    (h_v7 : V (Proc.devRef .tc main_v7) = val_main_v7 (F := F) x0)
    (h_v114 : V (Proc.devRef .tc main_v114) = val_main_v114 (F := F) x0 x1 x2)
    (h_v126 : V (Proc.devRef .tc main_v126) = val_main_v126 (F := F) x0 x1)
    (h_v127 : V (Proc.devRef .tc main_v127) = val_main_v127 (F := F) x0)
    :
    after ops_26 V (Proc.devRef .tc main_arg0) = x0
    ∧ after ops_26 V (Proc.devRef .tc main_arg1) = x1
    ∧ after ops_26 V (Proc.devRef .tc main_arg2) = x2
    ∧ after ops_26 V (Proc.devRef .tc main_v1) = val_main_v1 (F := F) x2
    ∧ after ops_26 V (Proc.devRef .tc main_v7) = val_main_v7 (F := F) x0
    ∧ after ops_26 V (Proc.devRef .tc main_v114) = val_main_v114 (F := F) x0 x1 x2
    ∧ after ops_26 V (Proc.devRef .tc main_v126) = val_main_v126 (F := F) x0 x1
    ∧ after ops_26 V (Proc.devRef .tc main_v129) = val_main_v129 (F := F) x0 x2
    ∧ after ops_26 V (Proc.devRef .tc main_v134) = val_main_v134 (F := F) x0 x2 := by
  refine ⟨?_, ?_, ?_, ?_, ?_, ?_, ?_, ?_, ?_⟩
  · simp only [ops_26]; after_results_simp; exact h_arg0
  · simp only [ops_26]; after_results_simp; exact h_arg1
  · simp only [ops_26]; after_results_simp; exact h_arg2
  · simp only [ops_26]; after_results_simp; exact h_v1
  · simp only [ops_26]; after_results_simp; exact h_v7
  · simp only [ops_26]; after_results_simp; exact h_v114
  · simp only [ops_26]; after_results_simp; exact h_v126
  · simp only [ops_26]; after_results_simp; rw [h_v127, h_v1]; try rfl
  · simp only [ops_26]; after_results_simp; rw [h_v127, h_v1]; try rfl

/-- Operations 201 … 206: from contents at which the buffers read later hold their stage values, to contents at which they do. -/
theorem st_27 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v1 : V (Proc.devRef .tc main_v1) = val_main_v1 (F := F) x2)
    (h_v7 : V (Proc.devRef .tc main_v7) = val_main_v7 (F := F) x0)
    (h_v114 : V (Proc.devRef .tc main_v114) = val_main_v114 (F := F) x0 x1 x2)
    (h_v126 : V (Proc.devRef .tc main_v126) = val_main_v126 (F := F) x0 x1)
    (h_v129 : V (Proc.devRef .tc main_v129) = val_main_v129 (F := F) x0 x2)
    (h_v134 : V (Proc.devRef .tc main_v134) = val_main_v134 (F := F) x0 x2)
    :
    after ops_27 V (Proc.devRef .tc main_arg0) = x0
    ∧ after ops_27 V (Proc.devRef .tc main_arg1) = x1
    ∧ after ops_27 V (Proc.devRef .tc main_arg2) = x2
    ∧ after ops_27 V (Proc.devRef .tc main_v1) = val_main_v1 (F := F) x2
    ∧ after ops_27 V (Proc.devRef .tc main_v7) = val_main_v7 (F := F) x0
    ∧ after ops_27 V (Proc.devRef .tc main_v114) = val_main_v114 (F := F) x0 x1 x2
    ∧ after ops_27 V (Proc.devRef .tc main_v126) = val_main_v126 (F := F) x0 x1
    ∧ after ops_27 V (Proc.devRef .tc main_v138) = val_main_v138 (F := F) x0 x2 := by
  refine ⟨?_, ?_, ?_, ?_, ?_, ?_, ?_, ?_⟩
  · simp only [ops_27]; after_results_simp; exact h_arg0
  · simp only [ops_27]; after_results_simp; exact h_arg1
  · simp only [ops_27]; after_results_simp; exact h_arg2
  · simp only [ops_27]; after_results_simp; exact h_v1
  · simp only [ops_27]; after_results_simp; exact h_v7
  · simp only [ops_27]; after_results_simp; exact h_v114
  · simp only [ops_27]; after_results_simp; exact h_v126
  · simp only [ops_27]; after_results_simp; rw [h_v134, h_v129]; try rfl

/-- The window: the stages in order. -/
theorem win_2 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x1)
    (h_v1 : V (Proc.devRef .tc main_v1) = val_main_v1 (F := F) x2)
    (h_v7 : V (Proc.devRef .tc main_v7) = val_main_v7 (F := F) x0)
    (h_v15 : V (Proc.devRef .tc main_v15) = val_main_v15 (F := F) x2)
    (h_v88 : V (Proc.devRef .tc main_v88) = val_main_v88 (F := F) x0)
    (h_v91 : V (Proc.devRef .tc main_v91) = val_main_v91 (F := F) x0)
    (h_v94 : V (Proc.devRef .tc main_v94) = val_main_v94 (F := F) x0)
    :
    after opsP2 V (Proc.devRef .tc main_arg0) = x0
    ∧ after opsP2 V (Proc.devRef .tc main_arg1) = x1
    ∧ after opsP2 V (Proc.devRef .tc main_arg2) = x2
    ∧ after opsP2 V (Proc.devRef .tc main_v1) = val_main_v1 (F := F) x2
    ∧ after opsP2 V (Proc.devRef .tc main_v7) = val_main_v7 (F := F) x0
    ∧ after opsP2 V (Proc.devRef .tc main_v114) = val_main_v114 (F := F) x0 x1 x2
    ∧ after opsP2 V (Proc.devRef .tc main_v126) = val_main_v126 (F := F) x0 x1
    ∧ after opsP2 V (Proc.devRef .tc main_v138) = val_main_v138 (F := F) x0 x2 := by
  simp only [opsP2, after_append]
  obtain ⟨h_arg0, h_arg1, h_arg2, h_v0, h_v1, h_v7, h_v88, h_v91, h_v101⟩ := st_19 V x0 x1 x2 h_arg0 h_arg1 h_arg2 h_v0 h_v1 h_v7 h_v15 h_v88 h_v91 h_v94
  obtain ⟨h_arg0, h_arg1, h_arg2, h_v0, h_v1, h_v7, h_v88, h_v91, h_call14_v2, h_call14_v4⟩ := st_20 _ x0 x1 x2 h_arg0 h_arg1 h_arg2 h_v0 h_v1 h_v7 h_v88 h_v91 h_v101
  obtain ⟨h_arg0, h_arg1, h_arg2, h_v0, h_v1, h_v7, h_v88, h_v91, h_v105, h_v107, h_v109⟩ := st_21 _ x0 x1 x2 h_arg0 h_arg1 h_arg2 h_v0 h_v1 h_v7 h_v88 h_v91 h_call14_v2 h_call14_v4
  obtain ⟨h_arg0, h_arg1, h_arg2, h_v0, h_v1, h_v7, h_v88, h_v114, h_v115⟩ := st_22 _ x0 x1 x2 h_arg0 h_arg1 h_arg2 h_v0 h_v1 h_v7 h_v88 h_v91 h_v105 h_v107 h_v109
  obtain ⟨h_arg0, h_arg1, h_arg2, h_v0, h_v1, h_v7, h_v88, h_v114, h_v115, h_v121⟩ := st_23 _ x0 x1 x2 h_arg0 h_arg1 h_arg2 h_v0 h_v1 h_v7 h_v88 h_v114 h_v115
  obtain ⟨h_arg0, h_arg1, h_arg2, h_v1, h_v7, h_v88, h_v114, h_v126⟩ := st_24 _ x0 x1 x2 h_arg0 h_arg1 h_arg2 h_v0 h_v1 h_v7 h_v88 h_v114 h_v115 h_v121
  obtain ⟨h_arg0, h_arg1, h_arg2, h_v1, h_v7, h_v114, h_v126, h_v127⟩ := st_25 _ x0 x1 x2 h_arg0 h_arg1 h_arg2 h_v1 h_v7 h_v88 h_v114 h_v126
  obtain ⟨h_arg0, h_arg1, h_arg2, h_v1, h_v7, h_v114, h_v126, h_v129, h_v134⟩ := st_26 _ x0 x1 x2 h_arg0 h_arg1 h_arg2 h_v1 h_v7 h_v114 h_v126 h_v127
  obtain ⟨h_arg0, h_arg1, h_arg2, h_v1, h_v7, h_v114, h_v126, h_v138⟩ := st_27 _ x0 x1 x2 h_arg0 h_arg1 h_arg2 h_v1 h_v7 h_v114 h_v126 h_v129 h_v134
  exact ⟨h_arg0, h_arg1, h_arg2, h_v1, h_v7, h_v114, h_v126, h_v138⟩

end Cert.ReferenceIdeal.RefRunW2

end
-- ==== Proof.RefRunW3.lean ====
/- The reference program's operations 207 … 235 (its window 3), read stage by stage. For contents V of the device's
  buffers at which every buffer written earlier and read later holds its stage value of the arguments x0 x1 x2 (the
  argument buffers holding x0 x1 x2 themselves), the contents after the window's operations have the same property.
  The window is cut into lists of at most eight operations; `st_k` is the statement for one list: a buffer the list
  does not write keeps its contents, and a buffer it writes holds its operation's function of the operands' contents,
  which is the stage value by definition once the operands' contents are rewritten to their stage values.
-/
import proofs.«406890_j71588514889850_3_alg».proof.Proof.RefRead
import proofs.«406890_j71588514889850_3_alg».proof.Proof.RefRunOps
import Idealize.ShloMosaic.Lib.StableHlo.Run
import Idealize.ShloMosaic.Lib.Pipeline.Frame

noncomputable section

namespace Cert.ReferenceIdeal.RefRunW3

open Cert.ReferenceIdeal Cert.ReferenceIdeal.Gen Cert.ReferenceIdeal.RefRead Cert.ReferenceIdeal.RefRunOps Idealize.ShloMosaic Idealize.ShloMosaic.TcCoe Idealize.SL.Sem Idealize.ShloMosaic.StableHlo

variable {F : FTy → Type} [FloatOps F]

/-- Operations 207 … 214: from contents at which the buffers read later hold their stage values, to contents at which they do. -/
theorem st_28 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v1 : V (Proc.devRef .tc main_v1) = val_main_v1 (F := F) x2)
    (h_v7 : V (Proc.devRef .tc main_v7) = val_main_v7 (F := F) x0)
    (h_v114 : V (Proc.devRef .tc main_v114) = val_main_v114 (F := F) x0 x1 x2)
    (h_v126 : V (Proc.devRef .tc main_v126) = val_main_v126 (F := F) x0 x1)
    (h_v138 : V (Proc.devRef .tc main_v138) = val_main_v138 (F := F) x0 x2)
    :
    after ops_28 V (Proc.devRef .tc main_arg0) = x0
    ∧ after ops_28 V (Proc.devRef .tc main_arg1) = x1
    ∧ after ops_28 V (Proc.devRef .tc main_arg2) = x2
    ∧ after ops_28 V (Proc.devRef .tc main_v1) = val_main_v1 (F := F) x2
    ∧ after ops_28 V (Proc.devRef .tc main_v114) = val_main_v114 (F := F) x0 x1 x2
    ∧ after ops_28 V (Proc.devRef .tc main_v126) = val_main_v126 (F := F) x0 x1
    ∧ after ops_28 V (Proc.devRef .tc main_v138) = val_main_v138 (F := F) x0 x2
    ∧ after ops_28 V (Proc.devRef .tc main_v139) = val_main_v139 (F := F) x0 := by
  refine ⟨?_, ?_, ?_, ?_, ?_, ?_, ?_, ?_⟩
  · simp only [ops_28]; after_results_simp; exact h_arg0
  · simp only [ops_28]; after_results_simp; exact h_arg1
  · simp only [ops_28]; after_results_simp; exact h_arg2
  · simp only [ops_28]; after_results_simp; exact h_v1
  · simp only [ops_28]; after_results_simp; exact h_v114
  · simp only [ops_28]; after_results_simp; exact h_v126
  · simp only [ops_28]; after_results_simp; exact h_v138
  · simp only [ops_28]; after_results_simp; rw [h_v7]; try rfl

/-- Operations 215 … 222: from contents at which the buffers read later hold their stage values, to contents at which they do. -/
theorem st_29 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v1 : V (Proc.devRef .tc main_v1) = val_main_v1 (F := F) x2)
    (h_v114 : V (Proc.devRef .tc main_v114) = val_main_v114 (F := F) x0 x1 x2)
    (h_v126 : V (Proc.devRef .tc main_v126) = val_main_v126 (F := F) x0 x1)
    (h_v138 : V (Proc.devRef .tc main_v138) = val_main_v138 (F := F) x0 x2)
    (h_v139 : V (Proc.devRef .tc main_v139) = val_main_v139 (F := F) x0)
    :
    after ops_29 V (Proc.devRef .tc main_arg0) = x0
    ∧ after ops_29 V (Proc.devRef .tc main_arg1) = x1
    ∧ after ops_29 V (Proc.devRef .tc main_arg2) = x2
    ∧ after ops_29 V (Proc.devRef .tc main_v114) = val_main_v114 (F := F) x0 x1 x2
    ∧ after ops_29 V (Proc.devRef .tc main_v126) = val_main_v126 (F := F) x0 x1
    ∧ after ops_29 V (Proc.devRef .tc main_v138) = val_main_v138 (F := F) x0 x2
    ∧ after ops_29 V (Proc.devRef .tc main_v141) = val_main_v141 (F := F) x0 x2
    ∧ after ops_29 V (Proc.devRef .tc main_v146) = val_main_v146 (F := F) x0 x2 := by
  refine ⟨?_, ?_, ?_, ?_, ?_, ?_, ?_, ?_⟩
  · simp only [ops_29]; after_results_simp; exact h_arg0
  · simp only [ops_29]; after_results_simp; exact h_arg1
  · simp only [ops_29]; after_results_simp; exact h_arg2
  · simp only [ops_29]; after_results_simp; exact h_v114
  · simp only [ops_29]; after_results_simp; exact h_v126
  · simp only [ops_29]; after_results_simp; exact h_v138
  · simp only [ops_29]; after_results_simp; rw [h_v139, h_v1]; try rfl
  · simp only [ops_29]; after_results_simp; rw [h_v139, h_v1]; try rfl

/-- Operations 223 … 230: from contents at which the buffers read later hold their stage values, to contents at which they do. -/
theorem st_30 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v114 : V (Proc.devRef .tc main_v114) = val_main_v114 (F := F) x0 x1 x2)
    (h_v126 : V (Proc.devRef .tc main_v126) = val_main_v126 (F := F) x0 x1)
    (h_v138 : V (Proc.devRef .tc main_v138) = val_main_v138 (F := F) x0 x2)
    (h_v141 : V (Proc.devRef .tc main_v141) = val_main_v141 (F := F) x0 x2)
    (h_v146 : V (Proc.devRef .tc main_v146) = val_main_v146 (F := F) x0 x2)
    :
    after ops_30 V (Proc.devRef .tc main_arg0) = x0
    ∧ after ops_30 V (Proc.devRef .tc main_arg1) = x1
    ∧ after ops_30 V (Proc.devRef .tc main_arg2) = x2
    ∧ after ops_30 V (Proc.devRef .tc main_v114) = val_main_v114 (F := F) x0 x1 x2
    ∧ after ops_30 V (Proc.devRef .tc main_v126) = val_main_v126 (F := F) x0 x1
    ∧ after ops_30 V (Proc.devRef .tc main_v138) = val_main_v138 (F := F) x0 x2
    ∧ after ops_30 V (Proc.devRef .tc main_v151) = val_main_v151 (F := F) x0 x2 := by
  refine ⟨?_, ?_, ?_, ?_, ?_, ?_, ?_⟩
  · simp only [ops_30]; after_results_simp; exact h_arg0
  · simp only [ops_30]; after_results_simp; exact h_arg1
  · simp only [ops_30]; after_results_simp; exact h_arg2
  · simp only [ops_30]; after_results_simp; exact h_v114
  · simp only [ops_30]; after_results_simp; exact h_v126
  · simp only [ops_30]; after_results_simp; exact h_v138
  · simp only [ops_30]; after_results_simp; rw [h_v146, h_v141]; try rfl

/-- Operations 231 … 235: from contents at which the buffers read later hold their stage values, to contents at which they do. -/
theorem st_31 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v114 : V (Proc.devRef .tc main_v114) = val_main_v114 (F := F) x0 x1 x2)
    (h_v126 : V (Proc.devRef .tc main_v126) = val_main_v126 (F := F) x0 x1)
    (h_v138 : V (Proc.devRef .tc main_v138) = val_main_v138 (F := F) x0 x2)
    (h_v151 : V (Proc.devRef .tc main_v151) = val_main_v151 (F := F) x0 x2)
    :
    after ops_31 V (Proc.devRef .tc main_arg0) = x0
    ∧ after ops_31 V (Proc.devRef .tc main_arg1) = x1
    ∧ after ops_31 V (Proc.devRef .tc main_arg2) = x2
    ∧ after ops_31 V (Proc.devRef .tc main_v155) = val_main_v155 (F := F) x0 x1 x2 := by
  refine ⟨?_, ?_, ?_, ?_⟩
  · simp only [ops_31]; after_results_simp; exact h_arg0
  · simp only [ops_31]; after_results_simp; exact h_arg1
  · simp only [ops_31]; after_results_simp; exact h_arg2
  · simp only [ops_31]; after_results_simp; rw [h_v126, h_v114, h_v138, h_v151]; try rfl

/-- The window: the stages in order. -/
theorem win_3 (V : Valuation τ sig (Elt F)) (x0 : (⟨S16x8x352x352, .f32⟩ : BufTy).Contents (Elt F)) (x1 : (⟨S16x1x352x352, .i32⟩ : BufTy).Contents (Elt F)) (x2 : (⟨S16x8x352x352, .i32⟩ : BufTy).Contents (Elt F))
    (h_arg0 : V (Proc.devRef .tc main_arg0) = x0)
    (h_arg1 : V (Proc.devRef .tc main_arg1) = x1)
    (h_arg2 : V (Proc.devRef .tc main_arg2) = x2)
    (h_v1 : V (Proc.devRef .tc main_v1) = val_main_v1 (F := F) x2)
    (h_v7 : V (Proc.devRef .tc main_v7) = val_main_v7 (F := F) x0)
    (h_v114 : V (Proc.devRef .tc main_v114) = val_main_v114 (F := F) x0 x1 x2)
    (h_v126 : V (Proc.devRef .tc main_v126) = val_main_v126 (F := F) x0 x1)
    (h_v138 : V (Proc.devRef .tc main_v138) = val_main_v138 (F := F) x0 x2)
    :
    after opsP3 V (Proc.devRef .tc main_arg0) = x0
    ∧ after opsP3 V (Proc.devRef .tc main_arg1) = x1
    ∧ after opsP3 V (Proc.devRef .tc main_arg2) = x2
    ∧ after opsP3 V (Proc.devRef .tc main_v155) = val_main_v155 (F := F) x0 x1 x2 := by
  simp only [opsP3, after_append]
  obtain ⟨h_arg0, h_arg1, h_arg2, h_v1, h_v114, h_v126, h_v138, h_v139⟩ := st_28 V x0 x1 x2 h_arg0 h_arg1 h_arg2 h_v1 h_v7 h_v114 h_v126 h_v138
  obtain ⟨h_arg0, h_arg1, h_arg2, h_v114, h_v126, h_v138, h_v141, h_v146⟩ := st_29 _ x0 x1 x2 h_arg0 h_arg1 h_arg2 h_v1 h_v114 h_v126 h_v138 h_v139
  obtain ⟨h_arg0, h_arg1, h_arg2, h_v114, h_v126, h_v138, h_v151⟩ := st_30 _ x0 x1 x2 h_arg0 h_arg1 h_arg2 h_v114 h_v126 h_v138 h_v141 h_v146
  obtain ⟨h_arg0, h_arg1, h_arg2, h_v155⟩ := st_31 _ x0 x1 x2 h_arg0 h_arg1 h_arg2 h_v114 h_v126 h_v138 h_v151
  exact ⟨h_arg0, h_arg1, h_arg2, h_v155⟩

end Cert.ReferenceIdeal.RefRunW3

end
-- ==== Proof.RefRun.lean ====
/-
  The reference program's run: every weakly fair execution of its @main terminates with its result at the last stage
  of the stage-by-stage reading of the program, as a function of the three argument arrays, and the arguments unchanged.

  @main is a straight line of 235 host operations, each writing one buffer that no other operation writes. The run of
  such a line leaves every buffer at the fold of the operations' results over the launch contents. The fold is read
  window by window: at contents where the buffers written so far (those still read later) hold their stage values of
  the arguments, the next window's operations leave contents with the same property. At the end the result buffer
  holds the last stage value and the three argument buffers, which no operation writes, hold what they held at launch.
-/
import proofs.«406890_j71588514889850_3_alg».proof.Proof.RefRead
import proofs.«406890_j71588514889850_3_alg».proof.Proof.RefRunOps
import proofs.«406890_j71588514889850_3_alg».proof.Proof.RefRunW0
import proofs.«406890_j71588514889850_3_alg».proof.Proof.RefRunW1
import proofs.«406890_j71588514889850_3_alg».proof.Proof.RefRunW2
import proofs.«406890_j71588514889850_3_alg».proof.Proof.RefRunW3
import Idealize.ShloMosaic.Lib.StableHlo.Run
import Idealize.ShloMosaic.Lib.Pipeline.Frame
import Idealize.ShloMosaic.Lib.ValueIdx

noncomputable section

open Idealize.ShloMosaic Idealize.ShloMosaic.TcCoe Idealize.ShloMosaic.ValueIdx Idealize.SL.Sem

namespace Cert.ReferenceIdeal.RefRunValue

open Cert.ReferenceIdeal Cert.ReferenceIdeal.Gen Idealize.ShloMosaic.StableHlo
open Cert.ReferenceIdeal.RefRead Cert.ReferenceIdeal.RefRunOps

variable {F : FTy → Type} [FloatOps F]

/-- The fold of all 235 operations over any contents `V`: the result buffer holds the last stage value of what `V` holds
    at the three argument buffers, and the argument buffers hold what they held. -/
theorem after_ops (V : Valuation τ sig (Elt F)) :
    after ops V (Proc.devRef .tc main_v155)
        = val_main_v155 (F := F) (V (Proc.devRef .tc main_arg0)) (V (Proc.devRef .tc main_arg1)) (V (Proc.devRef .tc main_arg2))
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2) := by
  simp only [ops, after_append]
  obtain ⟨h_arg0, h_arg1, h_arg2, h_v0, h_v1, h_v7, h_v15, h_v19, h_v23, h_v29, h_v35, h_v41, h_v42⟩ := RefRunW0.win_0 V (V (Proc.devRef .tc main_arg0)) (V (Proc.devRef .tc main_arg1)) (V (Proc.devRef .tc main_arg2)) rfl rfl rfl
  obtain ⟨h_arg0, h_arg1, h_arg2, h_v0, h_v1, h_v7, h_v15, h_v88, h_v91, h_v94⟩ := RefRunW1.win_1 _ (V (Proc.devRef .tc main_arg0)) (V (Proc.devRef .tc main_arg1)) (V (Proc.devRef .tc main_arg2)) h_arg0 h_arg1 h_arg2 h_v0 h_v1 h_v7 h_v15 h_v19 h_v23 h_v29 h_v35 h_v41 h_v42
  obtain ⟨h_arg0, h_arg1, h_arg2, h_v1, h_v7, h_v114, h_v126, h_v138⟩ := RefRunW2.win_2 _ (V (Proc.devRef .tc main_arg0)) (V (Proc.devRef .tc main_arg1)) (V (Proc.devRef .tc main_arg2)) h_arg0 h_arg1 h_arg2 h_v0 h_v1 h_v7 h_v15 h_v88 h_v91 h_v94
  obtain ⟨h_arg0, h_arg1, h_arg2, h_v155⟩ := RefRunW3.win_3 _ (V (Proc.devRef .tc main_arg0)) (V (Proc.devRef .tc main_arg1)) (V (Proc.devRef .tc main_arg2)) h_arg0 h_arg1 h_arg2 h_v1 h_v7 h_v114 h_v126 h_v138
  exact ⟨h_v155, h_arg0, h_arg1, h_arg2⟩

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v155)
        = Cert.ReferenceIdeal.RefRead.val_main_v155 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨h1, h2, h3, h4⟩ := after_ops (F := F) (launchContents m c)
      exact ⟨(h c main_v155).trans h1, (h c main_arg0).trans h2, (h c main_arg1).trans h3, (h c main_arg2).trans h4⟩)
    (run_seq scopedRefs_eq scopedSems_eq defs main (fun _ => ops) main_eq (fun _ => ops_sub) m ρ (fun _ => ops_fresh))

end Cert.ReferenceIdeal.RefRunValue

end
-- ==== Proof.RVotes.lean ====
/-
  The reference's sigmoid and its eight stacked votes read at an index, at the ideal values: jax's expansion of the
  sigmoid is the logistic function; a pad by one followed by a slice is a shift with zero fill; the concatenation of the
  eight products along the channel axis is the vote of that channel.
-/
import proofs.«406890_j71588514889850_3_alg».proof.Proof.RefRead
import proofs.«406890_j71588514889850_3_alg».proof.Proof.Spec
import proofs.«406890_j71588514889850_3_alg».proof.Proof.Consts
import Idealize.ShloMosaic.Lib.KernelVsHost
import Idealize.ShloMosaic.Lib.ValueLayout

noncomputable section

open Idealize.ShloMosaic Idealize.ShloMosaic.TcCoe Idealize.ShloMosaic.ValueIdx Idealize.SL.Sem

namespace Cert.ReferenceIdeal.Votes

open Cert.ReferenceIdeal Cert.ReferenceIdeal.Gen Cert.ReferenceIdeal.RefRead Cert.Bicon

variable [Cert.ReferenceIdeal.Facts]
variable (O : S16x8x352x352.Idx → EReal)

/-- The sigmoid of the logits. -/
theorem p_apply (b : Fin 16) (ch : Fin 8) (r c : Fin 352) :
    val_main_v7 (F := Ideal) O (ix4 b ch r c) = sg (outSlab O b) ch r c := by
  rw [val_main_v7_apply, val_main_v6_apply, val_main_cst_0_apply, val_main_v5_apply, val_main_v4_apply,
    val_main_cst_apply, val_main_v3_apply, val_main_v2_apply]
  show Ideal.div (Ideal.ofBits .f32 0x3F800000#32) (Ideal.ofBits .f32 0x3F800000#32 + Ideal.exp (-(O (ix4 b ch r c))))
    = Ideal.logistic (O (ix4 b ch r c))
  rw [Cert.Bicon.ofBits_one]
  rfl

/-- Plane `b` of a [16,352,352] array. -/
def plane3 (y : S16x352x352.Idx → EReal) (b : Fin 16) : Plane := fun r c => y (ix3 b r c)

section Layout
variable {α : Type}

/-- Channel `k` of a [16,8,352,352] array, sliced out and reshaped to [16,352,352], read at (b, r, c). -/
theorem chan_read (y : S16x8x352x352.Idx → α) (k : Nat) (ch : Fin 8) (hch : ch.val = k)
    (hs : S16x8x352x352.Slices ![0, k, 0, 0] S16x1x352x352) (hc : S16x1x352x352.ShapeCasts S16x352x352)
    (b : Fin 16) (r c : Fin 352) :
    shapeCast S16x352x352 (extractStridedSlice S16x1x352x352 ![0, k, 0, 0] y hs) hc (ix3 b r c) = y (ix4 b ch r c) := by
  refine (shapeCast_apply _ hc (ix3 b r c) (ix4 b (0 : Fin 1) r c) ?_).trans ?_
  · rewrite [Shape.rowMajor_val_four, Shape.rowMajor_val_three]
    show ((b.val * 1 + 0) * 352 + r.val) * 352 + c.val = (b.val * 352 + r.val) * 352 + c.val
    omega
  · exact extractStridedSlice_apply _ y hs _ _ (fun a => match a with
      | ⟨0, _⟩ => by show b.val = 0 + b.val; omega
      | ⟨1, _⟩ => by show ch.val = k + 0; omega
      | ⟨2, _⟩ => by show r.val = 0 + r.val; omega
      | ⟨3, _⟩ => by show c.val = 0 + c.val; omega)

end Layout

section Shifts
variable {u : Shape} (y : S16x352x352.Idx → EReal) (v : u.Idx → EReal) (hu : 0 < u.numel)
  (hv : v (Shape.Idx.first hu) = 0)
include hv

/-- A zero column put in front of every row, the last column dropped: the neighbour on the left. -/
theorem shiftR_read (hp : S16x352x352.Pads (![0, 0, 1] : Fin 3 → Nat) ![0, 0, 0] ![0, 0, 0] S16x352x353)
    (hs : S16x352x353.Slices ![0, 0, 0] S16x352x352) (b : Fin 16) (r c : Fin 352) :
    extractStridedSlice S16x352x352 ![0, 0, 0] (pad S16x352x353 ![0, 0, 1] ![0, 0, 0] ![0, 0, 0] y v hp hu) hs (ix3 b r c)
      = sR (plane3 y b) r c := by
  have hc : c.val < 352 := c.isLt
  refine (extractStridedSlice_apply _ _ hs (ix3 b r c) (ix3 b r (⟨c.val, by omega⟩ : Fin 353)) (fun a => match a with
      | ⟨0, _⟩ => by show b.val = 0 + b.val; omega
      | ⟨1, _⟩ => by show r.val = 0 + r.val; omega
      | ⟨2, _⟩ => by show c.val = 0 + c.val; omega)).trans ?_
  unfold sR
  by_cases h : c.val = 0
  · rw [dif_pos h]
    refine (pad_apply_of_not_inside _ _ _ y v hp hu _ (2 : Fin 3) ?_).trans hv
    intro hin
    have e : 1 ≤ c.val := hin.1
    omega
  · rw [dif_neg h]
    exact pad_apply_of_inside _ _ _ y v hp hu _ (ix3 b r (⟨c.val - 1, by omega⟩ : Fin 352)) (fun a => match a with
      | ⟨0, _⟩ => by show b.val = 0 + b.val * (0 + 1); omega
      | ⟨1, _⟩ => by show r.val = 0 + r.val * (0 + 1); omega
      | ⟨2, _⟩ => by show c.val = 1 + (c.val - 1) * (0 + 1); omega)

/-- A zero column put behind every row, the first column dropped: the neighbour on the right. -/
theorem shiftL_read (hp : S16x352x352.Pads (![0, 0, 0] : Fin 3 → Nat) ![0, 0, 1] ![0, 0, 0] S16x352x353)
    (hs : S16x352x353.Slices ![0, 0, 1] S16x352x352) (b : Fin 16) (r c : Fin 352) :
    extractStridedSlice S16x352x352 ![0, 0, 1] (pad S16x352x353 ![0, 0, 0] ![0, 0, 1] ![0, 0, 0] y v hp hu) hs (ix3 b r c)
      = sL (plane3 y b) r c := by
  have hc : c.val < 352 := c.isLt
  refine (extractStridedSlice_apply _ _ hs (ix3 b r c) (ix3 b r (⟨c.val + 1, by omega⟩ : Fin 353)) (fun a => match a with
      | ⟨0, _⟩ => by show b.val = 0 + b.val; omega
      | ⟨1, _⟩ => by show r.val = 0 + r.val; omega
      | ⟨2, _⟩ => by show c.val + 1 = 1 + c.val; omega)).trans ?_
  unfold sL
  by_cases h : c.val = 351
  · rw [dif_pos h]
    refine (pad_apply_of_not_inside _ _ _ y v hp hu _ (2 : Fin 3) ?_).trans hv
    intro hin
    have e : (c.val + 1 - 0) / (0 + 1) < 352 := hin.2.2
    omega
  · rw [dif_neg h]
    exact pad_apply_of_inside _ _ _ y v hp hu _ (ix3 b r (⟨c.val + 1, by omega⟩ : Fin 352)) (fun a => match a with
      | ⟨0, _⟩ => by show b.val = 0 + b.val * (0 + 1); omega
      | ⟨1, _⟩ => by show r.val = 0 + r.val * (0 + 1); omega
      | ⟨2, _⟩ => by show c.val + 1 = 0 + (c.val + 1) * (0 + 1); omega)

/-- A zero row put on top of every plane, the last row dropped: the neighbour above. -/
theorem shiftD_read (hp : S16x352x352.Pads (![0, 1, 0] : Fin 3 → Nat) ![0, 0, 0] ![0, 0, 0] S16x353x352)
    (hs : S16x353x352.Slices ![0, 0, 0] S16x352x352) (b : Fin 16) (r c : Fin 352) :
    extractStridedSlice S16x352x352 ![0, 0, 0] (pad S16x353x352 ![0, 1, 0] ![0, 0, 0] ![0, 0, 0] y v hp hu) hs (ix3 b r c)
      = sD (plane3 y b) r c := by
  have hr : r.val < 352 := r.isLt
  refine (extractStridedSlice_apply _ _ hs (ix3 b r c) (ix3 b (⟨r.val, by omega⟩ : Fin 353) c) (fun a => match a with
      | ⟨0, _⟩ => by show b.val = 0 + b.val; omega
      | ⟨1, _⟩ => by show r.val = 0 + r.val; omega
      | ⟨2, _⟩ => by show c.val = 0 + c.val; omega)).trans ?_
  unfold sD
  by_cases h : r.val = 0
  · rw [dif_pos h]
    refine (pad_apply_of_not_inside _ _ _ y v hp hu _ (1 : Fin 3) ?_).trans hv
    intro hin
    have e : 1 ≤ r.val := hin.1
    omega
  · rw [dif_neg h]
    exact pad_apply_of_inside _ _ _ y v hp hu _ (ix3 b (⟨r.val - 1, by omega⟩ : Fin 352) c) (fun a => match a with
      | ⟨0, _⟩ => by show b.val = 0 + b.val * (0 + 1); omega
      | ⟨1, _⟩ => by show r.val = 1 + (r.val - 1) * (0 + 1); omega
      | ⟨2, _⟩ => by show c.val = 0 + c.val * (0 + 1); omega)

/-- A zero row put under every plane, the first row dropped: the neighbour below. -/
theorem shiftU_read (hp : S16x352x352.Pads (![0, 0, 0] : Fin 3 → Nat) ![0, 1, 0] ![0, 0, 0] S16x353x352)
    (hs : S16x353x352.Slices ![0, 1, 0] S16x352x352) (b : Fin 16) (r c : Fin 352) :
    extractStridedSlice S16x352x352 ![0, 1, 0] (pad S16x353x352 ![0, 0, 0] ![0, 1, 0] ![0, 0, 0] y v hp hu) hs (ix3 b r c)
      = sU (plane3 y b) r c := by
  have hr : r.val < 352 := r.isLt
  refine (extractStridedSlice_apply _ _ hs (ix3 b r c) (ix3 b (⟨r.val + 1, by omega⟩ : Fin 353) c) (fun a => match a with
      | ⟨0, _⟩ => by show b.val = 0 + b.val; omega
      | ⟨1, _⟩ => by show r.val + 1 = 1 + r.val; omega
      | ⟨2, _⟩ => by show c.val = 0 + c.val; omega)).trans ?_
  unfold sU
  by_cases h : r.val = 351
  · rw [dif_pos h]
    refine (pad_apply_of_not_inside _ _ _ y v hp hu _ (1 : Fin 3) ?_).trans hv
    intro hin
    have e : (r.val + 1 - 0) / (0 + 1) < 352 := hin.2.2
    omega
  · rw [dif_neg h]
    exact pad_apply_of_inside _ _ _ y v hp hu _ (ix3 b (⟨r.val + 1, by omega⟩ : Fin 352) c) (fun a => match a with
      | ⟨0, _⟩ => by show b.val = 0 + b.val * (0 + 1); omega
      | ⟨1, _⟩ => by show r.val + 1 = 0 + (r.val + 1) * (0 + 1); omega
      | ⟨2, _⟩ => by show c.val = 0 + c.val * (0 + 1); omega)

end Shifts

/-! ## The pad value of each of the twelve shifts: the integer zero converted -/

theorem hv2 : val_main_call2_v0 (F := Ideal) (Shape.Idx.first h_S_) = 0 := sitofp_zero (φ := .f32)
theorem hv3 : val_main_call3_v0 (F := Ideal) (Shape.Idx.first h_S_) = 0 := sitofp_zero (φ := .f32)
theorem hv4 : val_main_call4_v0 (F := Ideal) (Shape.Idx.first h_S_) = 0 := sitofp_zero (φ := .f32)
theorem hv5 : val_main_call5_v0 (F := Ideal) (Shape.Idx.first h_S_) = 0 := sitofp_zero (φ := .f32)
theorem hv6 : val_main_call6_v0 (F := Ideal) (Shape.Idx.first h_S_) = 0 := sitofp_zero (φ := .f32)
theorem hv7 : val_main_call7_v0 (F := Ideal) (Shape.Idx.first h_S_) = 0 := sitofp_zero (φ := .f32)
theorem hv8 : val_main_call8_v0 (F := Ideal) (Shape.Idx.first h_S_) = 0 := sitofp_zero (φ := .f32)
theorem hv9 : val_main_call9_v0 (F := Ideal) (Shape.Idx.first h_S_) = 0 := sitofp_zero (φ := .f32)
theorem hv10 : val_main_call10_v0 (F := Ideal) (Shape.Idx.first h_S_) = 0 := sitofp_zero (φ := .f32)
theorem hv11 : val_main_call11_v0 (F := Ideal) (Shape.Idx.first h_S_) = 0 := sitofp_zero (φ := .f32)
theorem hv12 : val_main_call12_v0 (F := Ideal) (Shape.Idx.first h_S_) = 0 := sitofp_zero (φ := .f32)
theorem hv13 : val_main_call13_v0 (F := Ideal) (Shape.Idx.first h_S_) = 0 := sitofp_zero (φ := .f32)

/-! ## The sixteen channel planes: each is the sigmoid of its channel -/

theorem v17_plane (b : Fin 16) : plane3 (val_main_v17 (F := Ideal) O) b = sg (outSlab O b) 4 := by
  funext r c
  refine Eq.trans ?_ (p_apply O b 4 r c)
  unfold val_main_v17 val_main_v16
  exact chan_read _ 4 4 rfl _ _ b r c

theorem v21_plane (b : Fin 16) : plane3 (val_main_v21 (F := Ideal) O) b = sg (outSlab O b) 3 := by
  funext r c
  refine Eq.trans ?_ (p_apply O b 3 r c)
  unfold val_main_v21 val_main_v20
  exact chan_read _ 3 3 rfl _ _ b r c

theorem v25_plane (b : Fin 16) : plane3 (val_main_v25 (F := Ideal) O) b = sg (outSlab O b) 5 := by
  funext r c
  refine Eq.trans ?_ (p_apply O b 5 r c)
  unfold val_main_v25 val_main_v24
  exact chan_read _ 5 5 rfl _ _ b r c

theorem v31_plane (b : Fin 16) : plane3 (val_main_v31 (F := Ideal) O) b = sg (outSlab O b) 2 := by
  funext r c
  refine Eq.trans ?_ (p_apply O b 2 r c)
  unfold val_main_v31 val_main_v30
  exact chan_read _ 2 2 rfl _ _ b r c

theorem v37_plane (b : Fin 16) : plane3 (val_main_v37 (F := Ideal) O) b = sg (outSlab O b) 0 := by
  funext r c
  refine Eq.trans ?_ (p_apply O b 0 r c)
  unfold val_main_v37 val_main_v36
  exact chan_read _ 0 0 rfl _ _ b r c

theorem v43_plane (b : Fin 16) : plane3 (val_main_v43 (F := Ideal) O) b = sg (outSlab O b) 6 := by
  funext r c
  refine Eq.trans ?_ (p_apply O b 6 r c)
  unfold val_main_v43 val_main_v42
  exact chan_read _ 6 6 rfl _ _ b r c

theorem v47_plane (b : Fin 16) : plane3 (val_main_v47 (F := Ideal) O) b = sg (outSlab O b) 1 := by
  funext r c
  refine Eq.trans ?_ (p_apply O b 1 r c)
  unfold val_main_v47 val_main_v46
  exact chan_read _ 1 1 rfl _ _ b r c

theorem v51_plane (b : Fin 16) : plane3 (val_main_v51 (F := Ideal) O) b = sg (outSlab O b) 7 := by
  funext r c
  refine Eq.trans ?_ (p_apply O b 7 r c)
  unfold val_main_v51 val_main_v50
  exact chan_read _ 7 7 rfl _ _ b r c

theorem v57_plane (b : Fin 16) : plane3 (val_main_v57 (F := Ideal) O) b = sg (outSlab O b) 3 := by
  funext r c
  refine Eq.trans ?_ (p_apply O b 3 r c)
  unfold val_main_v57 val_main_v56
  exact chan_read _ 3 3 rfl _ _ b r c

theorem v60_plane (b : Fin 16) : plane3 (val_main_v60 (F := Ideal) O) b = sg (outSlab O b) 4 := by
  funext r c
  refine Eq.trans ?_ (p_apply O b 4 r c)
  unfold val_main_v60 val_main_v59
  exact chan_read _ 4 4 rfl _ _ b r c

theorem v63_plane (b : Fin 16) : plane3 (val_main_v63 (F := Ideal) O) b = sg (outSlab O b) 1 := by
  funext r c
  refine Eq.trans ?_ (p_apply O b 1 r c)
  unfold val_main_v63 val_main_v62
  exact chan_read _ 1 1 rfl _ _ b r c

theorem v66_plane (b : Fin 16) : plane3 (val_main_v66 (F := Ideal) O) b = sg (outSlab O b) 6 := by
  funext r c
  refine Eq.trans ?_ (p_apply O b 6 r c)
  unfold val_main_v66 val_main_v65
  exact chan_read _ 6 6 rfl _ _ b r c

theorem v69_plane (b : Fin 16) : plane3 (val_main_v69 (F := Ideal) O) b = sg (outSlab O b) 2 := by
  funext r c
  refine Eq.trans ?_ (p_apply O b 2 r c)
  unfold val_main_v69 val_main_v68
  exact chan_read _ 2 2 rfl _ _ b r c

theorem v72_plane (b : Fin 16) : plane3 (val_main_v72 (F := Ideal) O) b = sg (outSlab O b) 5 := by
  funext r c
  refine Eq.trans ?_ (p_apply O b 5 r c)
  unfold val_main_v72 val_main_v71
  exact chan_read _ 5 5 rfl _ _ b r c

theorem v75_plane (b : Fin 16) : plane3 (val_main_v75 (F := Ideal) O) b = sg (outSlab O b) 0 := by
  funext r c
  refine Eq.trans ?_ (p_apply O b 0 r c)
  unfold val_main_v75 val_main_v74
  exact chan_read _ 0 0 rfl _ _ b r c

theorem v78_plane (b : Fin 16) : plane3 (val_main_v78 (F := Ideal) O) b = sg (outSlab O b) 7 := by
  funext r c
  refine Eq.trans ?_ (p_apply O b 7 r c)
  unfold val_main_v78 val_main_v77
  exact chan_read _ 7 7 rfl _ _ b r c

/-! ## The twelve shifted planes -/

theorem v19_plane (b : Fin 16) : plane3 (val_main_v19 (F := Ideal) O) b = sR (sg (outSlab O b) 4) := by
  funext r c
  refine Eq.trans ?_ (congrFun (congrFun (congrArg sR (v17_plane O b)) r) c)
  unfold val_main_v19 val_main_v18
  exact shiftR_read _ _ _ hv2 _ _ b r c

theorem v23_plane (b : Fin 16) : plane3 (val_main_v23 (F := Ideal) O) b = sL (sg (outSlab O b) 3) := by
  funext r c
  refine Eq.trans ?_ (congrFun (congrFun (congrArg sL (v21_plane O b)) r) c)
  unfold val_main_v23 val_main_v22
  exact shiftL_read _ _ _ hv3 _ _ b r c

theorem v27_plane (b : Fin 16) : plane3 (val_main_v27 (F := Ideal) O) b = sD (sg (outSlab O b) 5) := by
  funext r c
  refine Eq.trans ?_ (congrFun (congrFun (congrArg sD (v25_plane O b)) r) c)
  unfold val_main_v27 val_main_v26
  exact shiftD_read _ _ _ hv4 _ _ b r c

theorem v29_plane (b : Fin 16) : plane3 (val_main_v29 (F := Ideal) O) b = sL (sD (sg (outSlab O b) 5)) := by
  funext r c
  refine Eq.trans ?_ (congrFun (congrFun (congrArg sL (v27_plane O b)) r) c)
  unfold val_main_v29 val_main_v28
  exact shiftL_read _ _ _ hv5 _ _ b r c

theorem v33_plane (b : Fin 16) : plane3 (val_main_v33 (F := Ideal) O) b = sU (sg (outSlab O b) 2) := by
  funext r c
  refine Eq.trans ?_ (congrFun (congrFun (congrArg sU (v31_plane O b)) r) c)
  unfold val_main_v33 val_main_v32
  exact shiftU_read _ _ _ hv6 _ _ b r c

theorem v35_plane (b : Fin 16) : plane3 (val_main_v35 (F := Ideal) O) b = sR (sU (sg (outSlab O b) 2)) := by
  funext r c
  refine Eq.trans ?_ (congrFun (congrFun (congrArg sR (v33_plane O b)) r) c)
  unfold val_main_v35 val_main_v34
  exact shiftR_read _ _ _ hv7 _ _ b r c

theorem v39_plane (b : Fin 16) : plane3 (val_main_v39 (F := Ideal) O) b = sU (sg (outSlab O b) 0) := by
  funext r c
  refine Eq.trans ?_ (congrFun (congrFun (congrArg sU (v37_plane O b)) r) c)
  unfold val_main_v39 val_main_v38
  exact shiftU_read _ _ _ hv8 _ _ b r c

theorem v41_plane (b : Fin 16) : plane3 (val_main_v41 (F := Ideal) O) b = sL (sU (sg (outSlab O b) 0)) := by
  funext r c
  refine Eq.trans ?_ (congrFun (congrFun (congrArg sL (v39_plane O b)) r) c)
  unfold val_main_v41 val_main_v40
  exact shiftL_read _ _ _ hv9 _ _ b r c

theorem v45_plane (b : Fin 16) : plane3 (val_main_v45 (F := Ideal) O) b = sD (sg (outSlab O b) 6) := by
  funext r c
  refine Eq.trans ?_ (congrFun (congrFun (congrArg sD (v43_plane O b)) r) c)
  unfold val_main_v45 val_main_v44
  exact shiftD_read _ _ _ hv10 _ _ b r c

theorem v49_plane (b : Fin 16) : plane3 (val_main_v49 (F := Ideal) O) b = sU (sg (outSlab O b) 1) := by
  funext r c
  refine Eq.trans ?_ (congrFun (congrFun (congrArg sU (v47_plane O b)) r) c)
  unfold val_main_v49 val_main_v48
  exact shiftU_read _ _ _ hv11 _ _ b r c

theorem v53_plane (b : Fin 16) : plane3 (val_main_v53 (F := Ideal) O) b = sD (sg (outSlab O b) 7) := by
  funext r c
  refine Eq.trans ?_ (congrFun (congrFun (congrArg sD (v51_plane O b)) r) c)
  unfold val_main_v53 val_main_v52
  exact shiftD_read _ _ _ hv12 _ _ b r c

theorem v55_plane (b : Fin 16) : plane3 (val_main_v55 (F := Ideal) O) b = sR (sD (sg (outSlab O b) 7)) := by
  funext r c
  refine Eq.trans ?_ (congrFun (congrFun (congrArg sR (v53_plane O b)) r) c)
  unfold val_main_v55 val_main_v54
  exact shiftR_read _ _ _ hv13 _ _ b r c

/-! ## The eight products: the votes -/

theorem v58_read (b : Fin 16) (r c : Fin 352) : val_main_v58 (F := Ideal) O (ix3 b r c) = a1 (outSlab O b) r c := by
  rw [val_main_v58_apply]
  show plane3 (val_main_v57 (F := Ideal) O) b r c * plane3 (val_main_v19 (F := Ideal) O) b r c = _
  rw [v57_plane, v19_plane]; rfl

theorem v61_read (b : Fin 16) (r c : Fin 352) : val_main_v61 (F := Ideal) O (ix3 b r c) = a2 (outSlab O b) r c := by
  rw [val_main_v61_apply]
  show plane3 (val_main_v60 (F := Ideal) O) b r c * plane3 (val_main_v23 (F := Ideal) O) b r c = _
  rw [v60_plane, v23_plane]; rfl

theorem v64_read (b : Fin 16) (r c : Fin 352) : val_main_v64 (F := Ideal) O (ix3 b r c) = a3 (outSlab O b) r c := by
  rw [val_main_v64_apply]
  show plane3 (val_main_v63 (F := Ideal) O) b r c * plane3 (val_main_v45 (F := Ideal) O) b r c = _
  rw [v63_plane, v45_plane]; rfl

theorem v67_read (b : Fin 16) (r c : Fin 352) : val_main_v67 (F := Ideal) O (ix3 b r c) = a4 (outSlab O b) r c := by
  rw [val_main_v67_apply]
  show plane3 (val_main_v66 (F := Ideal) O) b r c * plane3 (val_main_v49 (F := Ideal) O) b r c = _
  rw [v66_plane, v49_plane]; rfl

theorem v70_read (b : Fin 16) (r c : Fin 352) : val_main_v70 (F := Ideal) O (ix3 b r c) = a5 (outSlab O b) r c := by
  rw [val_main_v70_apply]
  show plane3 (val_main_v69 (F := Ideal) O) b r c * plane3 (val_main_v29 (F := Ideal) O) b r c = _
  rw [v69_plane, v29_plane]; rfl

theorem v73_read (b : Fin 16) (r c : Fin 352) : val_main_v73 (F := Ideal) O (ix3 b r c) = a6 (outSlab O b) r c := by
  rw [val_main_v73_apply]
  show plane3 (val_main_v72 (F := Ideal) O) b r c * plane3 (val_main_v35 (F := Ideal) O) b r c = _
  rw [v72_plane, v35_plane]; rfl

theorem v76_read (b : Fin 16) (r c : Fin 352) : val_main_v76 (F := Ideal) O (ix3 b r c) = a7 (outSlab O b) r c := by
  rw [val_main_v76_apply]
  show plane3 (val_main_v75 (F := Ideal) O) b r c * plane3 (val_main_v55 (F := Ideal) O) b r c = _
  rw [v75_plane, v55_plane]; rfl

theorem v79_read (b : Fin 16) (r c : Fin 352) : val_main_v79 (F := Ideal) O (ix3 b r c) = a8 (outSlab O b) r c := by
  rw [val_main_v79_apply]
  show plane3 (val_main_v78 (F := Ideal) O) b r c * plane3 (val_main_v41 (F := Ideal) O) b r c = _
  rw [v78_plane, v41_plane]; rfl

/-! ## The eight broadcasts to [16,1,352,352] and their concatenation along the channel axis -/

/-- A [16,352,352] array given a unit channel axis, read at (b, 0, r, c). -/
theorem bcast_read {α : Type} (y : S16x352x352.Idx → α)
    (h : S16x352x352.BroadcastsInDim S16x1x352x352 (![0, 2, 3] : Fin 3 → Fin S16x1x352x352.rank))
    (b : Fin 16) (r c : Fin 352) :
    broadcastInDim S16x1x352x352 ![0, 2, 3] h y (ix4 b (0 : Fin 1) r c) = y (ix3 b r c) :=
  broadcastInDim_apply _ h y _ _ (fun a => match a with
    | ⟨0, _⟩ => by show b.val = if (16 : Nat) = 1 then 0 else b.val; rw [if_neg (by decide)]
    | ⟨1, _⟩ => by show r.val = if (352 : Nat) = 1 then 0 else r.val; rw [if_neg (by decide)]
    | ⟨2, _⟩ => by show c.val = if (352 : Nat) = 1 then 0 else c.val; rw [if_neg (by decide)])

theorem v80_read (b : Fin 16) (r c : Fin 352) : val_main_v80 (F := Ideal) O (ix4 b 0 r c) = a7 (outSlab O b) r c := by
  unfold val_main_v80
  exact (bcast_read _ _ b r c).trans (v76_read O b r c)

theorem v81_read (b : Fin 16) (r c : Fin 352) : val_main_v81 (F := Ideal) O (ix4 b 0 r c) = a3 (outSlab O b) r c := by
  unfold val_main_v81
  exact (bcast_read _ _ b r c).trans (v64_read O b r c)

theorem v82_read (b : Fin 16) (r c : Fin 352) : val_main_v82 (F := Ideal) O (ix4 b 0 r c) = a5 (outSlab O b) r c := by
  unfold val_main_v82
  exact (bcast_read _ _ b r c).trans (v70_read O b r c)

theorem v83_read (b : Fin 16) (r c : Fin 352) : val_main_v83 (F := Ideal) O (ix4 b 0 r c) = a1 (outSlab O b) r c := by
  unfold val_main_v83
  exact (bcast_read _ _ b r c).trans (v58_read O b r c)

theorem v84_read (b : Fin 16) (r c : Fin 352) : val_main_v84 (F := Ideal) O (ix4 b 0 r c) = a2 (outSlab O b) r c := by
  unfold val_main_v84
  exact (bcast_read _ _ b r c).trans (v61_read O b r c)

theorem v85_read (b : Fin 16) (r c : Fin 352) : val_main_v85 (F := Ideal) O (ix4 b 0 r c) = a6 (outSlab O b) r c := by
  unfold val_main_v85
  exact (bcast_read _ _ b r c).trans (v73_read O b r c)

theorem v86_read (b : Fin 16) (r c : Fin 352) : val_main_v86 (F := Ideal) O (ix4 b 0 r c) = a4 (outSlab O b) r c := by
  unfold val_main_v86
  exact (bcast_read _ _ b r c).trans (v67_read O b r c)

theorem v87_read (b : Fin 16) (r c : Fin 352) : val_main_v87 (F := Ideal) O (ix4 b 0 r c) = a8 (outSlab O b) r c := by
  unfold val_main_v87
  exact (bcast_read _ _ b r c).trans (v79_read O b r c)

/-- Off the channel axis, (b, 0, r, c) and (b, k, r, c) have the same coordinates. -/
theorem off_axis (b : Fin 16) (k : Fin 8) (r c : Fin 352) (b' : Fin S16x1x352x352.rank)
    (hb : b'.cast (rfl : S16x1x352x352.rank = S16x8x352x352.rank) ≠ (1 : Fin S16x8x352x352.rank)) :
    ((ix4 b (0 : Fin 1) r c : S16x1x352x352.Idx) b').val
      = ((ix4 b k r c : S16x8x352x352.Idx) (b'.cast (rfl : S16x1x352x352.rank = S16x8x352x352.rank))).val :=
  match b', hb with
  | ⟨0, _⟩, _ => rfl
  | ⟨1, _⟩, hb => absurd (Fin.ext rfl) hb
  | ⟨2, _⟩, _ => rfl
  | ⟨3, _⟩, _ => rfl

/-- The stacked votes. -/
theorem vote_apply (b : Fin 16) (k : Fin 8) (r c : Fin 352) :
    val_main_v88 (F := Ideal) O (ix4 b k r c) = vote (outSlab O b) k r c := by
  unfold val_main_v88
  match k with
  | ⟨0, hk⟩ =>
    refine Eq.trans ?_ (v80_read O b r c)
    refine concatenate_apply_piece (t := S16x8x352x352) (1 : Fin 4) _ _ (ix4 b ⟨0, hk⟩ r c) 0 ?_ S16x1x352x352
      (val_main_v80 (F := Ideal) O) ?_ rfl 0 ?_ (ix4 b 0 r c) (off_axis b ⟨0, hk⟩ r c) ?_
    · exact (by decide : (0 : Nat) < 8)
    · rfl
    · rfl
    · rfl
  | ⟨1, hk⟩ =>
    refine Eq.trans ?_ (v81_read O b r c)
    refine concatenate_apply_piece (t := S16x8x352x352) (1 : Fin 4) _ _ (ix4 b ⟨1, hk⟩ r c) 1 ?_ S16x1x352x352
      (val_main_v81 (F := Ideal) O) ?_ rfl 1 ?_ (ix4 b 0 r c) (off_axis b ⟨1, hk⟩ r c) ?_
    · exact (by decide : (1 : Nat) < 8)
    · rfl
    · rfl
    · rfl
  | ⟨2, hk⟩ =>
    refine Eq.trans ?_ (v82_read O b r c)
    refine concatenate_apply_piece (t := S16x8x352x352) (1 : Fin 4) _ _ (ix4 b ⟨2, hk⟩ r c) 2 ?_ S16x1x352x352
      (val_main_v82 (F := Ideal) O) ?_ rfl 2 ?_ (ix4 b 0 r c) (off_axis b ⟨2, hk⟩ r c) ?_
    · exact (by decide : (2 : Nat) < 8)
    · rfl
    · rfl
    · rfl
  | ⟨3, hk⟩ =>
    refine Eq.trans ?_ (v83_read O b r c)
    refine concatenate_apply_piece (t := S16x8x352x352) (1 : Fin 4) _ _ (ix4 b ⟨3, hk⟩ r c) 3 ?_ S16x1x352x352
      (val_main_v83 (F := Ideal) O) ?_ rfl 3 ?_ (ix4 b 0 r c) (off_axis b ⟨3, hk⟩ r c) ?_
    · exact (by decide : (3 : Nat) < 8)
    · rfl
    · rfl
    · rfl
  | ⟨4, hk⟩ =>
    refine Eq.trans ?_ (v84_read O b r c)
    refine concatenate_apply_piece (t := S16x8x352x352) (1 : Fin 4) _ _ (ix4 b ⟨4, hk⟩ r c) 4 ?_ S16x1x352x352
      (val_main_v84 (F := Ideal) O) ?_ rfl 4 ?_ (ix4 b 0 r c) (off_axis b ⟨4, hk⟩ r c) ?_
    · exact (by decide : (4 : Nat) < 8)
    · rfl
    · rfl
    · rfl
  | ⟨5, hk⟩ =>
    refine Eq.trans ?_ (v85_read O b r c)
    refine concatenate_apply_piece (t := S16x8x352x352) (1 : Fin 4) _ _ (ix4 b ⟨5, hk⟩ r c) 5 ?_ S16x1x352x352
      (val_main_v85 (F := Ideal) O) ?_ rfl 5 ?_ (ix4 b 0 r c) (off_axis b ⟨5, hk⟩ r c) ?_
    · exact (by decide : (5 : Nat) < 8)
    · rfl
    · rfl
    · rfl
  | ⟨6, hk⟩ =>
    refine Eq.trans ?_ (v86_read O b r c)
    refine concatenate_apply_piece (t := S16x8x352x352) (1 : Fin 4) _ _ (ix4 b ⟨6, hk⟩ r c) 6 ?_ S16x1x352x352
      (val_main_v86 (F := Ideal) O) ?_ rfl 6 ?_ (ix4 b 0 r c) (off_axis b ⟨6, hk⟩ r c) ?_
    · exact (by decide : (6 : Nat) < 8)
    · rfl
    · rfl
    · rfl
  | ⟨7, hk⟩ =>
    refine Eq.trans ?_ (v87_read O b r c)
    refine concatenate_apply_piece (t := S16x8x352x352) (1 : Fin 4) _ _ (ix4 b ⟨7, hk⟩ r c) 7 ?_ S16x1x352x352
      (val_main_v87 (F := Ideal) O) ?_ rfl 7 ?_ (ix4 b 0 r c) (off_axis b ⟨7, hk⟩ r c) ?_
    · exact (by decide : (7 : Nat) < 8)
    · rfl
    · rfl
    · rfl

end Cert.ReferenceIdeal.Votes

end
-- ==== Proof.RLoss.lean ====
/-
  The reference's result, at the ideal values, for finite logits and 0/1 labels: the loss of the six sums of the
  argument arrays.
-/
import proofs.«406890_j71588514889850_3_alg».proof.Proof.RVotes
import proofs.«406890_j71588514889850_3_alg».proof.Proof.LossAlgebra
import Idealize.ShloMosaic.Lib.KernelVsHost.SublaneAllReduce

noncomputable section

open Idealize.ShloMosaic Idealize.ShloMosaic.TcCoe Idealize.ShloMosaic.ValueIdx Idealize.SL.Sem

namespace Cert.ReferenceIdeal.Loss

open Cert.ReferenceIdeal Cert.ReferenceIdeal.Gen Cert.ReferenceIdeal.RefRead Cert.Bicon

variable [Cert.ReferenceIdeal.Facts]

section PerIndex

variable (O : S16x8x352x352.Idx → EReal) (Tg : S16x1x352x352.Idx → BitVec 32) (Cn : S16x8x352x352.Idx → BitVec 32)

/-! ## The index maps of the reductions and broadcasts, at an index given by its coordinates -/

theorem idx8_ix (b : Fin 16) (r c : Fin 352) (k : Fin 8) : idx_main_v8 (ix3 b r c) k = ix4 b k r c := by
  funext a; match a with | ⟨0, _⟩ => rfl | ⟨1, _⟩ => rfl | ⟨2, _⟩ => rfl | ⟨3, _⟩ => rfl
theorem idx89_ix (b : Fin 16) (r c : Fin 352) (k : Fin 8) : idx_main_v89 (ix3 b r c) k = ix4 b k r c := by
  funext a; match a with | ⟨0, _⟩ => rfl | ⟨1, _⟩ => rfl | ⟨2, _⟩ => rfl | ⟨3, _⟩ => rfl
theorem idx102_ix (b : Fin 16) (r c : Fin 352) : idx_main_v102 (ix4 b 0 r c) = ix3 b r c := by
  funext a; match a with | ⟨0, _⟩ => rfl | ⟨1, _⟩ => rfl | ⟨2, _⟩ => rfl
theorem idx115_ix (b : Fin 16) (r c : Fin 352) : idx_main_v115 (ix4 b 0 r c) = ix3 b r c := by
  funext a; match a with | ⟨0, _⟩ => rfl | ⟨1, _⟩ => rfl | ⟨2, _⟩ => rfl

/-- The label plane and the connectivity labels as floats. -/
theorem tgt_apply (b : Fin 16) (r c : Fin 352) :
    val_main_v0 (F := Ideal) Tg (ix4 b 0 r c) = tgtPlane Tg b r c := rfl
theorem con_apply (b : Fin 16) (ch : Fin 8) (r c : Fin 352) :
    val_main_v1 (F := Ideal) Cn (ix4 b ch r c) = conSlab Cn b ch r c := rfl

/-- The sum of the eight connectivity labels of a pixel. -/
theorem sumConn_apply (b : Fin 16) (r c : Fin 352) :
    val_main_v8 (F := Ideal) Cn (ix3 b r c) = sumConn (conSlab Cn b) r c := by
  rw [val_main_v8_apply, val_main_cst_1_apply, Ideal.ofBits_def, ofBits_zero, zero_add, Fin.sum_univ_eight]
  simp only [idx8_ix, con_apply]
  unfold sumConn
  ac_rfl

/-- A select on a decided comparison is an if-then-else on the comparison. -/
theorem sel_ofBool (p : Prop) [Decidable p] (a b : EReal) :
    Scalar.select (BitVec.ofBool (decide p)) a b = if p then a else b := by
  unfold Scalar.select
  by_cases h : p
  · simp [h]
  · simp [h]

/-- The edge indicator: the two selects on sum < 8 and sum > 0, multiplied. -/
theorem edge_apply (b : Fin 16) (r c : Fin 352) :
    val_main_v15 (F := Ideal) Cn (ix3 b r c) = edge (conSlab Cn b) r c := by
  rw [val_main_v15_apply, val_main_v11_apply, val_main_v14_apply, val_main_v10_apply, val_main_v13_apply,
    val_main_v9_apply, val_main_v12_apply, val_main_call0_v0_apply, val_main_call0_v1_apply, val_main_call1_v0_apply,
    val_main_call1_v1_apply, val_main_cst_2_apply, val_main_cst_3_apply, val_main_cst_4_apply, val_main_cst_5_apply,
    val_main_cst_6_apply, val_main_cst_7_apply, sumConn_apply]
  show (Scalar.select (BitVec.ofBool (decide (sumConn (conSlab Cn b) r c < Ideal.ofBits .f32 0x41000000#32)))
        (Ideal.ofBits .f32 0x3F800000#32) (Ideal.ofBits .f32 0x00000000#32))
      * (Scalar.select (BitVec.ofBool (decide (Ideal.ofBits .f32 0x00000000#32 < sumConn (conSlab Cn b) r c)))
        (Ideal.ofBits .f32 0x3F800000#32) (Ideal.ofBits .f32 0x00000000#32)) = _
  rw [sel_ofBool, sel_ofBool, ofBits_eight, ofBits_one, ofBits_zero]
  rfl

/-- The eight stacked votes sum to the sum of the votes. -/
theorem vsum_eq (X : Slab) (r c : Fin 352) : ∑ k : Fin 8, vote X k r c = vsum X r c := by
  rw [Fin.sum_univ_eight]
  show a7 X r c + a3 X r c + a5 X r c + a1 X r c + a2 X r c + a6 X r c + a4 X r c + a8 X r c = _
  unfold vsum
  ac_rfl

/-- The mean vote. -/
theorem glo_apply (b : Fin 16) (r c : Fin 352) :
    val_main_v91 (F := Ideal) O (ix3 b r c) = glo (outSlab O b) r c := by
  rw [val_main_v91_apply, val_main_v89_apply, val_main_v90_apply, val_main_cst_19_apply, val_main_cst_20_apply]
  simp only [idx89_ix, Votes.vote_apply]
  rw [vsum_eq]
  show Ideal.div (Ideal.ofBits .f32 0x00000000#32 + vsum (outSlab O b) r c) (Ideal.ofBits .f32 0x41000000#32) = _
  rw [ofBits_zero, zero_add, div_eight]
  rfl

/-- The pattern of +∞. -/
theorem ofBits_inf : Ideal.ofBits .f32 0x7F800000#32 = ⊤ := by
  simp [Ideal.ofBits, Ideal.ieee]

/-- The minimum of the eight stacked votes, in the pairing of a fold over the channel, is the least vote. -/
theorem vmin_eq (X : Slab) (r c : Fin 352) :
    SublaneAllReduce.combine8 min (fun k : Fin 8 => vote X k r c) = vmin X r c := by
  unfold SublaneAllReduce.combine8 vmin
  show min (min (min (a7 X r c) (a2 X r c)) (min (a5 X r c) (a4 X r c))) (min (min (a3 X r c) (a6 X r c)) (min (a1 X r c) (a8 X r c))) = _
  ac_rfl

/-- A pixel's index with channel k put back on axis 1. -/
theorem lift_ix (h : S16x8x352x352.Reduces [1] S16x352x352) (b : Fin 16) (r c : Fin 352) (k : Fin (S16x8x352x352.size 1)) :
    h.lift (ix3 b r c) k = ix4 b (⟨k.val, k.isLt⟩ : Fin 8) r c := by
  funext a; apply Fin.ext
  fin_cases a <;> rfl

/-- The least vote: the minimum-reduce over the channel axis from +∞. -/
theorem vmin_apply (b : Fin 16) (r c : Fin 352) :
    val_main_v92 (F := Ideal) O (ix3 b r c) = vmin (outSlab O b) r c := by
  have h : S16x8x352x352.Reduces [1] S16x352x352 := by decide
  have e := Host.reduce_eq_fold_single (FloatOps.minimumf (F := Ideal) (φ := .f32))
    (val_main_v88 (F := Ideal) O : S16x8x352x352.Idx → Ideal .f32) (val_main_cst_21 (F := Ideal) : S_.Idx → Ideal .f32)
    reducesTo_S16x8x352x352_S16x352x352_d1 h h_S_ (ix3 b r c)
  have hf : (val_main_v88 (F := Ideal) O ∘ h.lift (ix3 b r c)) = fun k : Fin 8 => vote (outSlab O b) k r c :=
    funext fun k => (congrArg (val_main_v88 (F := Ideal) O) (lift_ix h b r c k)).trans (Votes.vote_apply O b _ r c)
  rw [hf] at e
  refine e.trans ?_
  refine (SublaneAllReduce.fold_univ_fin8 (min : EReal → EReal → EReal) (Ideal.ofBits .f32 0x7F800000#32)
    (fun k : Fin 8 => vote (outSlab O b) k r c)).trans ?_
  rw [vmin_eq, ofBits_inf]
  exact min_top_left _

/-- The decoupled map. -/
theorem dmap_apply (b : Fin 16) (r c : Fin 352) :
    val_main_v101 (F := Ideal) O Cn (ix3 b r c) = dmap (outSlab O b) (conSlab Cn b) r c := by
  rw [val_main_v101_apply, val_main_v100_apply, val_main_v96_apply, val_main_v99_apply, val_main_v98_apply, val_main_v97_apply,
    val_main_v95_apply, val_main_v94_apply, val_main_v93_apply, val_main_cst_23_apply, val_main_cst_22_apply, glo_apply, vmin_apply,
    edge_apply]
  show glo (outSlab O b) r c * (Ideal.ofBits .f32 0x3F800000#32 - edge (conSlab Cn b) r c)
    + (Ideal.ofBits .f32 0x3F800000#32 - vmin (outSlab O b) r c) * edge (conSlab Cn b) r c = _
  rw [ofBits_one]
  rfl

/-- The weighted cross-entropy term as the reference writes it. -/
theorem bce_form (p t : EReal) :
    t * Ideal.log (min (Ideal.ofBits .f32 0x3F800000#32) (max (Ideal.ofBits .f32 0x2B8CBCCC#32) p))
      + (Ideal.ofBits .f32 0x3F800000#32 - t)
        * Ideal.log1p (-(min (Ideal.ofBits .f32 0x3F800000#32) (max (Ideal.ofBits .f32 0x2B8CBCCC#32) p))) = bceR p t := by
  rw [ofBits_one]
  rfl

/-- A 0/1 label word read as a float is 0 or 1. -/
theorem lab01 (w : BitVec 32) (h : w = 0#32 ∨ w = 1#32) :
    (((w.toInt : ℝ)) : EReal) = 0 ∨ (((w.toInt : ℝ)) : EReal) = 1 := by
  rcases h with rfl | rfl
  · left; simp
  · right
    have e : (1#32 : BitVec 32).toInt = 1 := by decide
    rw [e]; simp

theorem dec_apply (hT : ∀ i, Tg i = 0#32 ∨ Tg i = 1#32) (b : Fin 16) (r c : Fin 352) :
    val_main_v111 (F := Ideal) O Tg Cn (ix4 b 0 r c) = decT (outSlab O b) (conSlab Cn b) (tgtPlane Tg b) r c := by
  rw [val_main_v111_apply, val_main_v105_apply, val_main_v110_apply, val_main_v104_apply, val_main_v107_apply, val_main_v109_apply,
    val_main_v108_apply, val_main_v103_apply, val_main_call14_v2_apply, val_main_call14_v4_apply, val_main_call14_v3_apply,
    val_main_call14_v1_apply, val_main_call14_v0_apply, val_main_v106_apply, val_main_cst_24_apply, val_main_cst_25_apply,
    val_main_cst_26_apply, val_main_v102_apply, idx102_ix, dmap_apply, tgt_apply]
  refine (bce_form (dmap (outSlab O b) (conSlab Cn b) r c) (tgtPlane Tg b r c)).trans ?_
  exact bceR_eq_bceK _ _ (lab01 _ (hT _))

theorem bim_apply (hC : ∀ i, Cn i = 0#32 ∨ Cn i = 1#32) (b : Fin 16) (k : Fin 8) (r c : Fin 352) :
    val_main_v135 (F := Ideal) O Cn (ix4 b k r c) = bceK (vote (outSlab O b) k r c) (conSlab Cn b k r c) := by
  rw [val_main_v135_apply, val_main_v129_apply, val_main_v134_apply, val_main_v128_apply, val_main_v131_apply, val_main_v133_apply,
    val_main_v132_apply, val_main_v127_apply, val_main_call15_v2_apply, val_main_call15_v4_apply, val_main_call15_v3_apply,
    val_main_call15_v1_apply, val_main_call15_v0_apply, val_main_v130_apply, val_main_cst_34_apply, val_main_cst_35_apply,
    val_main_cst_36_apply, Votes.vote_apply, con_apply]
  refine (bce_form (vote (outSlab O b) k r c) (conSlab Cn b k r c)).trans ?_
  exact bceR_eq_bceK _ _ (lab01 _ (hC _))

theorem cmap_apply (hC : ∀ i, Cn i = 0#32 ∨ Cn i = 1#32) (b : Fin 16) (ch : Fin 8) (r c : Fin 352) :
    val_main_v147 (F := Ideal) O Cn (ix4 b ch r c) = bceK (sg (outSlab O b) ch r c) (conSlab Cn b ch r c) := by
  rw [val_main_v147_apply, val_main_v141_apply, val_main_v146_apply, val_main_v140_apply, val_main_v143_apply, val_main_v145_apply,
    val_main_v144_apply, val_main_v139_apply, val_main_call16_v2_apply, val_main_call16_v4_apply, val_main_call16_v3_apply,
    val_main_call16_v1_apply, val_main_call16_v0_apply, val_main_v142_apply, val_main_cst_39_apply, val_main_cst_40_apply,
    val_main_cst_41_apply, Votes.p_apply, con_apply]
  refine (bce_form (sg (outSlab O b) ch r c) (conSlab Cn b ch r c)).trans ?_
  exact bceR_eq_bceK _ _ (lab01 _ (hC _))

theorem gm_apply (b : Fin 16) (r c : Fin 352) :
    val_main_v115 (F := Ideal) O (ix4 b 0 r c) = glo (outSlab O b) r c := by
  rw [val_main_v115_apply, idx115_ix, glo_apply]

end PerIndex

section Sums

variable (O : S16x8x352x352.Idx → EReal) (Tg : S16x1x352x352.Idx → BitVec 32) (Cn : S16x8x352x352.Idx → BitVec 32)

/-- A sum over channel, row and column with the channel moved innermost and written out in the order 3 4 1 6 2 5 0 7. -/
theorem sum_ch_inner (f : Fin 8 → Fin 352 → Fin 352 → EReal) :
    ∑ ch : Fin 8, ∑ r : Fin 352, ∑ c : Fin 352, f ch r c
      = ∑ r : Fin 352, ∑ c : Fin 352, (f 3 r c + f 4 r c + f 1 r c + f 6 r c + f 2 r c + f 5 r c + f 0 r c + f 7 r c) := by
  rw [Finset.sum_comm]
  refine Finset.sum_congr rfl fun r _ => ?_
  rw [Finset.sum_comm]
  refine Finset.sum_congr rfl fun c _ => ?_
  rw [Fin.sum_univ_eight]
  ac_rfl

theorem sum_dec (hT : ∀ i, Tg i = 0#32 ∨ Tg i = 1#32) :
    ∑ j, val_main_v111 (F := Ideal) O Tg Cn j = sDec O Tg Cn := by
  rw [sum_idx_16_1]
  exact Finset.sum_congr rfl fun b _ => Finset.sum_congr rfl fun r _ => Finset.sum_congr rfl fun c _ => dec_apply O Tg Cn hT b r c

theorem sum_bim (hC : ∀ i, Cn i = 0#32 ∨ Cn i = 1#32) :
    ∑ j, val_main_v135 (F := Ideal) O Cn j = sBim O Cn := by
  rw [sum_idx_16_8]
  unfold sBim total
  refine Finset.sum_congr rfl fun b _ => ?_
  refine Eq.trans (Finset.sum_congr rfl fun k _ => Finset.sum_congr rfl fun r _ => Finset.sum_congr rfl fun c _ => bim_apply O Cn hC b k r c) ?_
  exact sum_ch_inner fun k r c => bceK (vote (outSlab O b) k r c) (conSlab Cn b k r c)

theorem sum_cmap (hC : ∀ i, Cn i = 0#32 ∨ Cn i = 1#32) :
    ∑ j, val_main_v147 (F := Ideal) O Cn j = sCmap O Cn := by
  rw [sum_idx_16_8]
  unfold sCmap total
  refine Finset.sum_congr rfl fun b _ => ?_
  refine Eq.trans (Finset.sum_congr rfl fun k _ => Finset.sum_congr rfl fun r _ => Finset.sum_congr rfl fun c _ => cmap_apply O Cn hC b k r c) ?_
  exact sum_ch_inner fun k r c => bceK (sg (outSlab O b) k r c) (conSlab Cn b k r c)

theorem sum_gm : ∑ j, val_main_v115 (F := Ideal) O j = sGm O := by
  rw [sum_idx_16_1]
  exact Finset.sum_congr rfl fun b _ => Finset.sum_congr rfl fun r _ => Finset.sum_congr rfl fun c _ => gm_apply O b r c

theorem sum_tgt : ∑ j, val_main_v0 (F := Ideal) Tg j = sTgt Tg := by
  rw [sum_idx_16_1]
  rfl

theorem sum_inter : ∑ j, val_main_v115 (F := Ideal) O j * val_main_v0 (F := Ideal) Tg j = sInter O Tg := by
  rw [sum_idx_16_1]
  exact Finset.sum_congr rfl fun b _ => Finset.sum_congr rfl fun r _ => Finset.sum_congr rfl fun c _ =>
    congrArg (· * tgtPlane Tg b r c) (gm_apply O b r c)

theorem sum_num (hO : ∀ i, ∃ x : ℝ, O i = (x : EReal)) :
    (∑ j, val_main_v117 (F := Ideal) O Tg j) + (∑ j, val_main_v119 (F := Ideal) O Tg j)
      = sGm O + sTgt Tg - (((2 : ℝ) : EReal)) * sInter O Tg := by
  have hg : ∀ j, ∃ x : ℝ, val_main_v115 (F := Ideal) O j = (x : EReal) := by
    intro j
    obtain ⟨b, z, r, c, rfl⟩ : ∃ b z r c, j = ix4 b z r c := ⟨_, _, _, _, eq_ix4 j⟩
    obtain rfl : z = 0 := Subsingleton.elim _ _
    rw [gm_apply]
    exact glo_real (outSlab O b) (fun ch r c => hO _) r c
  have ht : ∀ j, ∃ x : ℝ, val_main_v0 (F := Ideal) Tg j = (x : EReal) := fun j => ⟨((Tg j).toInt : ℝ), rfl⟩
  have h := cel_num (val_main_v115 (F := Ideal) O) (val_main_v0 (F := Ideal) Tg) hg ht
  rw [sum_gm, sum_tgt, sum_inter] at h
  exact h

end Sums

theorem ref_value (O : S16x8x352x352.Idx → EReal) (Tg : S16x1x352x352.Idx → BitVec 32) (Cn : S16x8x352x352.Idx → BitVec 32)
    (hO : ∀ i, ∃ x : ℝ, O i = (x : EReal)) (hT : ∀ i, Tg i = 0#32 ∨ Tg i = 1#32) (hC : ∀ i, Cn i = 0#32 ∨ Cn i = 1#32) (i : S_.Idx) :
    val_main_v155 (F := Ideal) O Tg Cn i = lossK (sDec O Tg Cn) (sBim O Cn) (sCmap O Cn) (sGm O) (sTgt Tg) (sInter O Tg) := by
  rw [val_main_v155_apply, val_main_v154_apply, val_main_v153_apply, val_main_v151_apply, val_main_v152_apply,
    val_main_v150_apply, val_main_v149_apply, val_main_v148_apply, val_main_v138_apply, val_main_v137_apply, val_main_v136_apply,
    val_main_v114_apply, val_main_v113_apply, val_main_v112_apply, val_main_v126_apply, val_main_v121_apply, val_main_v118_apply,
    val_main_v120_apply, val_main_v125_apply, val_main_v124_apply, val_main_v122_apply, val_main_v123_apply]
  rw [sum_cmap O Cn hC, sum_bim O Cn hC, sum_dec O Tg Cn hT, sum_gm, sum_tgt]
  simp only [val_main_cst_27_apply, val_main_cst_28_apply, val_main_cst_29_apply, val_main_cst_30_apply, val_main_cst_31_apply,
    val_main_cst_32_apply, val_main_cst_33_apply, val_main_cst_37_apply, val_main_cst_38_apply, val_main_cst_42_apply,
    val_main_cst_43_apply, val_main_cst_44_apply, val_main_cst_45_apply, Ideal.ofBits_def, Ideal.addf_def, Ideal.mulf_def,
    Ideal.hostNegf_def, Ideal.negf_def, Ideal.hostDivf_def, ofBits_zero, zero_add]
  rw [sum_num O Tg hO, neg_div_n8, neg_div_n8, neg_div_n1]
  rfl

end Cert.ReferenceIdeal.Loss

end
-- ==== Proof.PreDecode.lean ====
/-
  What the precondition says of the argument arrays at the ideal values: every logit is a real number, and every label
  and every connectivity label is the word 0 or the word 1.
-/
import proofs.«406890_j71588514889850_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.Pre_finite_inputs.Decode

open Cert.Pre_finite_inputs

variable [Cert.Pre_finite_inputs.Facts]

instance : Subsingleton S_.Idx := ⟨fun a b => funext fun d => d.elim0⟩

/-- The pattern of +∞. -/
theorem ofBits_inf : Ideal.ofBits .f32 0x7F800000#32 = ⊤ := by simp [Ideal.ofBits, Ideal.ieee]

/-- An extended real whose absolute value is below +∞ is a real number. -/
theorem real_of_abs_lt (x : EReal) (h : Ideal.cmp .olt (max x (-x)) ⊤ = 1#1) : ∃ r : ℝ, x = (r : EReal) := by
  have h' : max x (-x) < ⊤ := of_decide_eq_true ((StableHlo.Predicate.ofBool_eq_one_iff _).1 h)
  induction x using EReal.rec with
  | bot => simp at h'
  | top => simp at h'
  | coe r => exact ⟨r, rfl⟩

/-- A word that equals the splat of 0 or the splat of 1 is 0 or 1. -/
theorem word_zero_or_one {s : Shape} (x : IVec s 32) (hb : S_.BroadcastsInDim s (![] : Fin 0 → Fin s.rank)) (i : s.Idx)
    (e : ori (cmpi .eq x (broadcastInDim s ![] hb (constantI S_ 32 0#32))) (cmpi .eq x (broadcastInDim s ![] hb (constantI S_ 32 1#32))) i = 1#1) :
    x i = 0#32 ∨ x i = 1#32 := by
  rcases IntOp.ori_eq_one.1 e with h | h
  · exact Or.inl (StableHlo.Predicate.cmpi_eq_iff.1 h)
  · exact Or.inr (StableHlo.Predicate.cmpi_eq_iff.1 h)

theorem pre_decode (O : FVec Ideal S16x8x352x352 .f32) (Tg : IVec S16x1x352x352 32) (Cn : IVec S16x8x352x352 32)
    (h : Cert.Pre_finite_inputs.fn (F := Ideal) O Tg Cn = fun _ => 1#1) :
    (∀ i, ∃ x : ℝ, O i = (x : EReal)) ∧ (∀ i, Tg i = 0#32 ∨ Tg i = 1#32) ∧ (∀ i, Cn i = 0#32 ∨ Cn i = 1#32) := by
  have h0 := congrFun h ix0
  dsimp only [fn, fn_part1] at h0
  obtain ⟨h10, h16⟩ := IntOp.andi_eq_one.1 h0
  obtain ⟨h3, h9⟩ := IntOp.andi_eq_one.1 h10
  refine ⟨fun i => ?_, fun i => ?_, fun i => ?_⟩
  · have e := Host.reduce_andi_all _ _ _ _ _ h3 i
    refine real_of_abs_lt (O i) ?_
    rw [← ofBits_inf]
    exact e
  · exact word_zero_or_one Tg _ i (Host.reduce_andi_all _ _ _ _ _ h9 i)
  · exact word_zero_or_one Cn _ i (Host.reduce_andi_all _ _ _ _ _ h16 i)

end Cert.Pre_finite_inputs.Decode

end
-- ==== Proof.lean ====
/-
  The certificate's claim.  Both idealized programs compute, from finite logits and 0/1 labels, the same loss of six
  sums over the batch: the idealized kernel by accumulating each batch element's six plane sums over a grid of two halves
  of eight points and combining lane 0 of the halves on the host (`kernel_run`), the reference by whole-array
  operations (`ref_run`, `ref_value`).  The frames are the generated ones and the reference's run; the ideal pass
  rewrote nothing, so the idealization is the program's own text.
-/
import proofs.«406890_j71588514889850_3_alg».proof.Defs
import proofs.«406890_j71588514889850_3_alg».proof.Proof.Gen.Kernel
import proofs.«406890_j71588514889850_3_alg».proof.Proof.Gen.Kernel.Skeleton
import proofs.«406890_j71588514889850_3_alg».proof.Proof.Gen.Kernel.Launch
import proofs.«406890_j71588514889850_3_alg».proof.Proof.Gen.Kernel.Points
import proofs.«406890_j71588514889850_3_alg».proof.Proof.Gen.Kernel.Frame
import proofs.«406890_j71588514889850_3_alg».proof.Proof.Gen.KernelIdeal
import proofs.«406890_j71588514889850_3_alg».proof.Proof.Gen.KernelIdeal.Skeleton
import proofs.«406890_j71588514889850_3_alg».proof.Proof.Gen.KernelIdeal.Launch
import proofs.«406890_j71588514889850_3_alg».proof.Proof.Gen.KernelIdeal.Points
import proofs.«406890_j71588514889850_3_alg».proof.Proof.Gen.KernelIdeal.Frame
import proofs.«406890_j71588514889850_3_alg».proof.Proof.Gen.ReferenceIdeal
import proofs.«406890_j71588514889850_3_alg».proof.Proof.Gen.Pre_finite_inputs
import proofs.«406890_j71588514889850_3_alg».proof.Proof.KRun
import proofs.«406890_j71588514889850_3_alg».proof.Proof.RefRun
import proofs.«406890_j71588514889850_3_alg».proof.Proof.RLoss
import proofs.«406890_j71588514889850_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRunValue.ref_run (F := Ideal) m ρ)

/-- Under the precondition the reference's last stage, of arguments that agree with the kernel's, is the loss of the
    kernel's six sums. -/
theorem algebraic : Cert.algebraic_KernelIdeal_ReferenceIdeal := by
  intro m ρ m' ρ' hpre hagree
  refine ⟨_, Cert.KernelIdeal.RunValue.kernel_run m ρ, ?_⟩
  refine (θ_run Cert.ReferenceIdeal.defs _ _).mono (fun _ h c => ⟨(h c).1.trans ?_, (h c).2⟩)
    (Cert.ReferenceIdeal.RefRunValue.ref_run (F := Ideal) m' ρ')
  rw [(hagree c).1, (hagree c).2.1, (hagree c).2.2]
  obtain ⟨hO, hT, hC⟩ := Cert.Pre_finite_inputs.Decode.pre_decode _ _ _ (hpre c)
  funext i
  exact Cert.ReferenceIdeal.Loss.ref_value _ _ _ hO hT hC i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
